-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x10 : Shape := ⟨2, ![1024, 10]⟩
abbrev S100000 : Shape := ⟨1, ![100000]⟩
abbrev S100000x64 : Shape := ⟨2, ![100000, 64]⟩
abbrev S64x100000 : Shape := ⟨2, ![64, 100000]⟩
abbrev S_ : Shape := ⟨0, ![]⟩

class Facts : Prop where
  bcast_S_S1024x10 : S_.BroadcastsInDim S1024x10 (![] : Fin 0 → Fin S1024x10.rank)
  reducesTo_S1024x10_S_d0_1 : S1024x10.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x100000 : S_.BroadcastsInDim S64x100000 (![] : Fin 0 → Fin S64x100000.rank)
  reducesTo_S64x100000_S_d0_1 : S64x100000.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg1 : IVec S100000 32) (main_v13 : IVec S_ 1) (main_v15 : IVec S100000 1) (main_c_5 : IVec S_ 32) : IVec S_ 1 :=
  let main_v16 : IVec S100000 32 := broadcastInDim S100000 ![] bcast_S_S100000 main_c_5
  let main_v17 : IVec S100000 1 := cmpi .slt main_arg1 main_v16
  let main_v18 : IVec S100000 1 := andi main_v15 main_v17
  let main_c_6 : IVec S_ 1 := constantI S_ 1 1#1
  let main_v19 : IVec S_ 1 := (fun x v => Host.reduce IntOp.andi x v reducesTo_S100000_S_d0 h_S_) main_v18 main_c_6
  let main_v20 : IVec S_ 1 := andi main_v13 main_v19
  main_v20

def fn {F : FTy → Type} [FloatOps F] (main_arg0 : FVec F S1024x10 .f32) (main_arg1 : IVec S100000 32) (main_arg2 : FVec F S100000x64 .f32) (main_arg3 : FVec F S64x100000 .f32) : IVec S_ 1 :=
  let main_v0 : FVec F S1024x10 .f32 := Host.absf main_arg0
  let main_cst : FVec F S_ .f32 := constant S_ .f32 0x7F800000#32
  let main_v1 : FVec F S1024x10 .f32 := broadcastInDim S1024x10 ![] bcast_S_S1024x10 main_cst
  let main_v2 : IVec S1024x10 1 := cmpf .olt main_v0 main_v1
  let main_c : IVec S_ 1 := constantI S_ 1 1#1
  let main_v3 : IVec S_ 1 := (fun x v => Host.reduce IntOp.andi x v reducesTo_S1024x10_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x100000 .f32 := Host.absf main_arg3
  let main_cst_2 : FVec F S_ .f32 := constant S_ .f32 0x7F800000#32
  let main_v10 : FVec F S64x100000 .f32 := broadcastInDim S64x100000 ![] bcast_S_S64x100000 main_cst_2
  let main_v11 : IVec S64x100000 1 := cmpf .olt main_v9 main_v10
  let main_c_3 : IVec S_ 1 := constantI S_ 1 1#1
  let main_v12 : IVec S_ 1 := (fun x v => Host.reduce IntOp.andi x v reducesTo_S64x100000_S_d0_1 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg1 main_v14
  let main_c_5 : IVec S_ 32 := constantI S_ 32 10#32
  fn_part1 (F := F) main_arg1 main_v13 main_v15 main_c_5
-- ==== Kernel.lean ====
abbrev S1024x10 : Shape := ⟨2, ![1024, 10]⟩
abbrev S100000 : Shape := ⟨1, ![100000]⟩
abbrev S100000x64 : Shape := ⟨2, ![100000, 64]⟩
abbrev S64x100000 : Shape := ⟨2, ![64, 100000]⟩
abbrev S_ : Shape := ⟨0, ![]⟩
abbrev S102400 : Shape := ⟨1, ![102400]⟩
abbrev S102400x1 : Shape := ⟨2, ![102400, 1]⟩
abbrev S10 : Shape := ⟨1, ![10]⟩
abbrev S1x10 : Shape := ⟨2, ![1, 10]⟩
abbrev S102400x10 : Shape := ⟨2, ![102400, 10]⟩
abbrev S102400x64 : Shape := ⟨2, ![102400, 64]⟩
abbrev S64x102400 : Shape := ⟨2, ![64, 102400]⟩
abbrev S1x102400 : Shape := ⟨2, ![1, 102400]⟩
abbrev S100000x1 : Shape := ⟨2, ![100000, 1]⟩
abbrev S10x64 : Shape := ⟨2, ![10, 64]⟩
abbrev S4096x64 : Shape := ⟨2, ![4096, 64]⟩
abbrev S4096x10 : Shape := ⟨2, ![4096, 10]⟩
abbrev S1024x64 : Shape := ⟨2, ![1024, 64]⟩
abbrev S512x64 : Shape := ⟨2, ![512, 64]⟩
abbrev S64x2048 : Shape := ⟨2, ![64, 2048]⟩
abbrev S2048x10 : Shape := ⟨2, ![2048, 10]⟩
abbrev S1x2048 : Shape := ⟨2, ![1, 2048]⟩
abbrev S512x10 : Shape := ⟨2, ![512, 10]⟩
abbrev S512x1 : Shape := ⟨2, ![512, 1]⟩
abbrev S512x2048 : Shape := ⟨2, ![512, 2048]⟩
abbrev S512 : Shape := ⟨1, ![512]⟩

abbrev nBuf : Space → Nat
  | .hbm => 41
  | .vmem => 17
  | .smem => 0
  | _ => 0

abbrev bufTy : (tb : Table) → Fin (tcTables nBuf tb) → BufTy
  | .hbm, ⟨0, _⟩ => ⟨S1024x10, .f32⟩
  | .hbm, ⟨1, _⟩ => ⟨S100000, .i32⟩
  | .hbm, ⟨2, _⟩ => ⟨S100000x64, .f32⟩
  | .hbm, ⟨3, _⟩ => ⟨S64x100000, .f32⟩
  | .hbm, ⟨4, _⟩ => ⟨S_, .i32⟩
  | .hbm, ⟨5, _⟩ => ⟨S_, .i32⟩
  | .hbm, ⟨6, _⟩ => ⟨S102400, .i32⟩
  | .hbm, ⟨7, _⟩ => ⟨S102400x1, .i32⟩
  | .hbm, ⟨8, _⟩ => ⟨S10, .i32⟩
  | .hbm, ⟨9, _⟩ => ⟨S1x10, .i32⟩
  | .hbm, ⟨10, _⟩ => ⟨S102400x10, .i32⟩
  | .hbm, ⟨11, _⟩ => ⟨S102400x10, .i32⟩
  | .hbm, ⟨12, _⟩ => ⟨S102400x10, .i1⟩
  | .hbm, ⟨13, _⟩ => ⟨S102400x10, .bf16⟩
  | .hbm, ⟨14, _⟩ => ⟨S_, .i32⟩
  | .hbm, ⟨15, _⟩ => ⟨S_, .f32⟩
  | .hbm, ⟨16, _⟩ => ⟨S102400x64, .f32⟩
  | .hbm, ⟨17, _⟩ => ⟨S_, .i32⟩
  | .hbm, ⟨18, _⟩ => ⟨S_, .f32⟩
  | .hbm, ⟨19, _⟩ => ⟨S64x102400, .f32⟩
  | .hbm, ⟨20, _⟩ => ⟨S102400, .i32⟩
  | .hbm, ⟨21, _⟩ => ⟨S_, .i32⟩
  | .hbm, ⟨22, _⟩ => ⟨S102400, .i32⟩
  | .hbm, ⟨23, _⟩ => ⟨S102400, .i1⟩
  | .hbm, ⟨24, _⟩ => ⟨S102400, .f32⟩
  | .hbm, ⟨25, _⟩ => ⟨S1x102400, .f32⟩
  | .hbm, ⟨26, _⟩ => ⟨S_, .f32⟩
  | .hbm, ⟨27, _⟩ => ⟨S100000, .f32⟩
  | .hbm, ⟨28, _⟩ => ⟨S_, .f32⟩
  | .hbm, ⟨29, _⟩ => ⟨S10, .f32⟩
  | .hbm, ⟨30, _⟩ => ⟨S100000x1, .i32⟩
  | .hbm, ⟨31, _⟩ => ⟨S10, .f32⟩
  | .hbm, ⟨32, _⟩ => ⟨S10x64, .f32⟩
  | .hbm, ⟨33, _⟩ => ⟨S1024x64, .f32⟩
  | .hbm, ⟨34, _⟩ => ⟨S1024x10, .f32⟩
  | .hbm, ⟨35, _⟩ => ⟨S_, .f32⟩
  | .hbm, ⟨36, _⟩ => ⟨S10, .f32⟩
  | .hbm, ⟨37, _⟩ => ⟨S10, .f32⟩
  | .hbm, ⟨38, _⟩ => ⟨S1x10, .f32⟩
  | .hbm, ⟨39, _⟩ => ⟨S1024x10, .f32⟩
  | .hbm, ⟨40, _⟩ => ⟨S1024x10, .f32⟩
  | .local _ .vmem, ⟨0, _⟩ => ⟨S4096x64, .f32⟩
  | .local _ .vmem, ⟨1, _⟩ => ⟨S4096x64, .f32⟩
  | .local _ .vmem, ⟨2, _⟩ => ⟨S4096x10, .bf16⟩
  | .local _ .vmem, ⟨3, _⟩ => ⟨S4096x10, .bf16⟩
  | .local _ .vmem, ⟨4, _⟩ => ⟨S10x64, .f32⟩
  | .local _ .vmem, ⟨5, _⟩ => ⟨S512x64, .f32⟩
  | .local _ .vmem, ⟨6, _⟩ => ⟨S64x2048, .f32⟩
  | .local _ .vmem, ⟨7, _⟩ => ⟨S64x2048, .f32⟩
  | .local _ .vmem, ⟨8, _⟩ => ⟨S2048x10, .bf16⟩
  | .local _ .vmem, ⟨9, _⟩ => ⟨S2048x10, .bf16⟩
  | .local _ .vmem, ⟨10, _⟩ => ⟨S1x2048, .f32⟩
  | .local _ .vmem, ⟨11, _⟩ => ⟨S1x2048, .f32⟩
  | .local _ .vmem, ⟨12, _⟩ => ⟨S512x10, .f32⟩
  | .local _ .vmem, ⟨13, _⟩ => ⟨S512x10, .f32⟩
  | .local _ .vmem, ⟨14, _⟩ => ⟨S512x1, .f32⟩
  | .local _ .vmem, ⟨15, _⟩ => ⟨S512x1, .f32⟩
  | .local _ .vmem, ⟨16, _⟩ => ⟨S512x10, .f32⟩
  | _, _ => ⟨S1024x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x10 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 50], ![false, false]⟩

def k1_cond2 (i : grid1.Coords) : BitVec 1 :=
  let arg1 : BitVec 32 := BitVec.ofNat 32 (i 1).val
  let c49_i32 : BitVec 32 := 49#32
  let v46 : BitVec 1 := Scalar.cmpi .eq arg1 c49_i32
  let v47 : BitVec 32 := Scalar.extui v46
  let c0_i32_25 : BitVec 32 := 0#32
  let v48 : BitVec 1 := Scalar.cmpi .ne v47 c0_i32_25
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S512x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x10 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  pads_S100000_S102400_024000 : S100000.Pads (![0] : Fin 1 → Nat) ![2400] ![0] S102400
  h_S_ : 0 < S_.numel
  bcast_S102400_S102400x1_0 : S102400.BroadcastsInDim S102400x1 (![0] : Fin 1 → Fin S102400x1.rank)
  bcast_S10_S1x10_1 : S10.BroadcastsInDim S1x10 (![1] : Fin 1 → Fin S1x10.rank)
  bcast_S102400x1_S102400x10_0_1 : S102400x1.BroadcastsInDim S102400x10 (![0, 1] : Fin 2 → Fin S102400x10.rank)
  bcast_S1x10_S102400x10_0_1 : S1x10.BroadcastsInDim S102400x10 (![0, 1] : Fin 2 → Fin S102400x10.rank)
  pads_S100000x64_S102400x64_024000_000 : S100000x64.Pads (![0, 0] : Fin 2 → Nat) ![2400, 0] ![0, 0] S102400x64
  pads_S64x100000_S64x102400_000_024000 : S64x100000.Pads (![0, 0] : Fin 2 → Nat) ![0, 2400] ![0, 0] S64x102400
  bcast_S_S102400 : S_.BroadcastsInDim S102400 (![] : Fin 0 → Fin S102400.rank)
  bcast_S102400_S1x102400_1 : S102400.BroadcastsInDim S1x102400 (![1] : Fin 1 → Fin S1x102400.rank)
  bcast_S_S100000 : S_.BroadcastsInDim S100000 (![] : Fin 0 → Fin S100000.rank)
  bcast_S_S10 : S_.BroadcastsInDim S10 (![] : Fin 0 → Fin S10.rank)
  bcast_S100000_S100000x1_0 : S100000.BroadcastsInDim S100000x1 (![0] : Fin 1 → Fin S100000x1.rank)
  inb_S10x64_S10x64_0_0 : ∀ a, (![0, 0] : Fin 2 → Nat) a + S10x64.size a ≤ S10x64.size a
  h_S10x64 : 0 < S10x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  shapeCasts_S10x64_S10x64 : S10x64.ShapeCasts S10x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  broadcasts_S512x1_S512x10 : S512x1.Broadcasts S512x10
  bcast_S1x10_S1024x10_0_1 : S1x10.BroadcastsInDim S1024x10 (![0, 1] : Fin 2 → Fin S1024x10.rank)
  scatter_S10_S100000x1_S100000_n_0_0_1_wf : ScatterDims.WF S10 S100000x1 S100000 [] [0] [0] 1
  dot_S4096x10_S4096x64_S10x64_0_0_1_1_n_n_wf : DotDims.WF S4096x10 S4096x64 S10x64 [0] [0] [1] [1] [] []
  dot_S1024x10_S10x64_S1024x64_1_0_0_1_n_n_wf : DotDims.WF S1024x10 S10x64 S1024x64 [1] [0] [0] [1] [] []
  dot_S512x64_S64x2048_S512x2048_1_0_0_1_n_n_wf : DotDims.WF S512x64 S64x2048 S512x2048 [1] [0] [0] [1] [] []
  dot_S512x2048_S2048x10_S512x10_1_0_0_1_n_n_wf : DotDims.WF S512x2048 S2048x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S102400x64.size a
  hwx0_0 : ∀ i : grid0.Coords, EltTy.bits .f32 = 32 ∨ (Rect.block (s := S102400x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x10.size a ≤ S102400x10.size a
  hwx0_1 : ∀ i : grid0.Coords, EltTy.bits .bf16 = 32 ∨ (Rect.block (s := S102400x10) S4096x10.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x64.size a ≤ S10x64.size a
  hwx0_2 : ∀ i : grid0.Coords, EltTy.bits .f32 = 32 ∨ (Rect.block (s := S10x64) S10x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S1024x64.size a
  hwx1_0 : ∀ i : grid1.Coords, EltTy.bits .f32 = 32 ∨ (Rect.block (s := S1024x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x2048.size a ≤ S64x102400.size a
  hwx1_1 : ∀ i : grid1.Coords, EltTy.bits .f32 = 32 ∨ (Rect.block (s := S64x102400) S64x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x10.size a ≤ S102400x10.size a
  hwx1_2 : ∀ i : grid1.Coords, EltTy.bits .bf16 = 32 ∨ (Rect.block (s := S102400x10) S2048x10.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x102400.size a
  hwx1_3 : ∀ i : grid1.Coords, EltTy.bits .f32 = 32 ∨ (Rect.block (s := S1x102400) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x10.size a ≤ S1024x10.size a
  hwx1_4 : ∀ i : grid1.Coords, EltTy.bits .f32 = 32 ∨ (Rect.block (s := S1024x10) S512x10.size (cc1_transform_4 i) (hinb1_4 i)).WholeWords (EltTy.packing .f32)

variable [Facts₀]

def scatter_S10_S100000x1_S100000_n_0_0_1 : ScatterDims S10 S100000x1 S100000 where
  updateWindowDims := []
  insertedWindowDims := [0]
  scatterDimsToOperandDims := [0]
  indexVectorDim := 1
  wf := scatter_S10_S100000x1_S100000_n_0_0_1_wf
def dot_S4096x10_S4096x64_S10x64_0_0_1_1_n_n : DotDims S4096x10 S4096x64 S10x64 where
  lhsContracting := [0]
  rhsContracting := [0]
  lhsNonContracting := [1]
  rhsNonContracting := [1]
  lhsBatch := []
  rhsBatch := []
  wf := dot_S4096x10_S4096x64_S10x64_0_0_1_1_n_n_wf
def dot_S1024x10_S10x64_S1024x64_1_0_0_1_n_n : DotDims S1024x10 S10x64 S1024x64 where
  lhsContracting := [1]
  rhsContracting := [0]
  lhsNonContracting := [0]
  rhsNonContracting := [1]
  lhsBatch := []
  rhsBatch := []
  wf := dot_S1024x10_S10x64_S1024x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x10_S512x10_1_0_0_1_n_n : DotDims S512x2048 S2048x10 S512x10 where
  lhsContracting := [1]
  rhsContracting := [0]
  lhsNonContracting := [0]
  rhsNonContracting := [1]
  lhsBatch := []
  rhsBatch := []
  wf := dot_S512x2048_S2048x10_S512x10_1_0_0_1_n_n_wf

abbrev win0_0 : Pipeline.Window sig grid0 :=
  Pipeline.Window.ofSpec (Memref.whole main_v8) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S10x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S512x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v9) S64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x10.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S512x10.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x10 : Shape := ⟨2, ![1024, 10]⟩
abbrev S100000 : Shape := ⟨1, ![100000]⟩
abbrev S100000x64 : Shape := ⟨2, ![100000, 64]⟩
abbrev S64x100000 : Shape := ⟨2, ![64, 100000]⟩
abbrev S_ : Shape := ⟨0, ![]⟩
abbrev S100000x1 : Shape := ⟨2, ![100000, 1]⟩
abbrev S1024x100000 : Shape := ⟨2, ![1024, 100000]⟩
abbrev S1024x64 : Shape := ⟨2, ![1024, 64]⟩
abbrev S1024 : Shape := ⟨1, ![1024]⟩
abbrev S1024x1 : Shape := ⟨2, ![1024, 1]⟩
abbrev S10 : Shape := ⟨1, ![10]⟩
abbrev S100000x1024 : Shape := ⟨2, ![100000, 1024]⟩
abbrev S10x1024 : Shape := ⟨2, ![10, 1024]⟩
abbrev S1x10 : Shape := ⟨2, ![1, 10]⟩

abbrev nBuf : Space → Nat
  | .hbm => 47
  | .vmem => 0
  | .smem => 0
  | _ => 0

abbrev bufTy : (tb : Table) → Fin (tcTables nBuf tb) → BufTy
  | .hbm, ⟨0, _⟩ => ⟨S1024x10, .f32⟩
  | .hbm, ⟨1, _⟩ => ⟨S100000, .i32⟩
  | .hbm, ⟨2, _⟩ => ⟨S100000x64, .f32⟩
  | .hbm, ⟨3, _⟩ => ⟨S64x100000, .f32⟩
  | .hbm, ⟨4, _⟩ => ⟨S_, .i32⟩
  | .hbm, ⟨5, _⟩ => ⟨S100000, .i32⟩
  | .hbm, ⟨6, _⟩ => ⟨S100000, .i1⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S100000, .i32⟩
  | .hbm, ⟨11, _⟩ => ⟨S100000x1, .i32⟩
  | .hbm, ⟨12, _⟩ => ⟨S1024x100000, .f32⟩
  | .hbm, ⟨13, _⟩ => ⟨S1024x64, .f32⟩
  | .hbm, ⟨14, _⟩ => ⟨S1024x100000, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024x1, .f32⟩
  | .hbm, ⟨21, _⟩ => ⟨S1024x100000, .f32⟩
  | .hbm, ⟨22, _⟩ => ⟨S1024x100000, .f32⟩
  | .hbm, ⟨23, _⟩ => ⟨S1024x100000, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x100000, .f32⟩
  | .hbm, ⟨28, _⟩ => ⟨S1024x100000, .f32⟩
  | .hbm, ⟨29, _⟩ => ⟨S_, .f32⟩
  | .hbm, ⟨30, _⟩ => ⟨S100000, .f32⟩
  | .hbm, ⟨31, _⟩ => ⟨S_, .f32⟩
  | .hbm, ⟨32, _⟩ => ⟨S10, .f32⟩
  | .hbm, ⟨33, _⟩ => ⟨S100000x1, .i32⟩
  | .hbm, ⟨34, _⟩ => ⟨S10, .f32⟩
  | .hbm, ⟨35, _⟩ => ⟨S100000x1024, .f32⟩
  | .hbm, ⟨36, _⟩ => ⟨S_, .f32⟩
  | .hbm, ⟨37, _⟩ => ⟨S10x1024, .f32⟩
  | .hbm, ⟨38, _⟩ => ⟨S100000x1, .i32⟩
  | .hbm, ⟨39, _⟩ => ⟨S10x1024, .f32⟩
  | .hbm, ⟨40, _⟩ => ⟨S1024x10, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S1x10, .f32⟩
  | .hbm, ⟨45, _⟩ => ⟨S1024x10, .f32⟩
  | .hbm, ⟨46, _⟩ => ⟨S1024x10, .f32⟩
  | _, _ => ⟨S1024x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  reducesTo_S1024x100000_S1024_d1 : S1024x100000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  bcast_S_S10 : S_.BroadcastsInDim S10 (![] : Fin 0 → Fin S10.rank)
  transposes_S1024x100000_S100000x1024_1_0 : S1024x100000.Transposes [1, 0] S100000x1024
  bcast_S_S10x1024 : S_.BroadcastsInDim S10x1024 (![] : Fin 0 → Fin S10x1024.rank)
  transposes_S10x1024_S1024x10_1_0 : S10x1024.Transposes [1, 0] S1024x10
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  gather_S1024x10_S100000x1_S1024x100000_0_1_n_n_1_1_10241_wf : GatherDims.WF S1024x10 S100000x1 S1024x100000 [0] [1] [] [1] [] 1 ![1024, 1]
  dot_S1024x100000_S100000x64_S1024x64_1_0_0_1_n_n_wf : DotDims.WF S1024x100000 S100000x64 S1024x64 [1] [0] [0] [1] [] []
  dot_S1024x64_S64x100000_S1024x100000_1_0_0_1_n_n_wf : DotDims.WF S1024x64 S64x100000 S1024x100000 [1] [0] [0] [1] [] []
  scatter_S10_S100000x1_S100000_n_0_0_1_wf : ScatterDims.WF S10 S100000x1 S100000 [] [0] [0] 1
  scatter_S10x1024_S100000x1_S100000x1024_1_0_0_1_wf : ScatterDims.WF S10x1024 S100000x1 S100000x1024 [1] [0] [0] 1

variable [Facts₀]

def gather_S1024x10_S100000x1_S1024x100000_0_1_n_n_1_1_10241 : GatherDims S1024x10 S100000x1 S1024x100000 where
  offsetDims := [0]
  collapsedSliceDims := [1]
  operandBatchingDims := []
  startIndicesBatchingDims := []
  startIndexMap := [1]
  indexVectorDim := 1
  sliceSizes := ![1024, 1]
  wf := gather_S1024x10_S100000x1_S1024x100000_0_1_n_n_1_1_10241_wf
def dot_S1024x100000_S100000x64_S1024x64_1_0_0_1_n_n : DotDims S1024x100000 S100000x64 S1024x64 where
  lhsContracting := [1]
  rhsContracting := [0]
  lhsNonContracting := [0]
  rhsNonContracting := [1]
  lhsBatch := []
  rhsBatch := []
  wf := dot_S1024x100000_S100000x64_S1024x64_1_0_0_1_n_n_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def scatter_S10_S100000x1_S100000_n_0_0_1 : ScatterDims S10 S100000x1 S100000 where
  updateWindowDims := []
  insertedWindowDims := [0]
  scatterDimsToOperandDims := [0]
  indexVectorDim := 1
  wf := scatter_S10_S100000x1_S100000_n_0_0_1_wf
def scatter_S10x1024_S100000x1_S100000x1024_1_0_0_1 : ScatterDims S10x1024 S100000x1 S100000x1024 where
  updateWindowDims := [1]
  insertedWindowDims := [0]
  scatterDimsToOperandDims := [0]
  indexVectorDim := 1
  wf := scatter_S10x1024_S100000x1_S100000x1024_1_0_0_1_wf

class Facts : Prop extends Facts₀ where

variable [Facts]
-- ==== Proof.KB.Data.lean ====
/-
  The proof data of the two kernel regions, for any float family F.

  Region 0 sums, over 25 tiles of 4096 items, the products one-hot(item, cluster) * W1(item, d): its 10x64 output buffer is
  zeroed at the first tile and then holds the running sum (acc0).  Region 1 is an online softmax over 50 tiles of 2048
  items for each of two halves of the batch: three scratch buffers carry the running maximum m, the running denominator
  l and the running per-cluster numerators a (Sc, scAt); they are reset at the first tile of a half, and at the last
  tile the output block is the quotient a / l (out1).  Every store of either body overwrites its buffer whole, so what a
  buffer holds after the body is the last payload stored.
-/
import proofs.«428240_j80616536146381_2_alg».proof.Proof.Gen.Kernel.Launch
import proofs.«428240_j80616536146381_2_alg».proof.Proof.Gen.Kernel.Skeleton
import proofs.«428240_j80616536146381_2_alg».proof.Proof.Gen.Kernel.Points
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0 -/

/-- Window w's block at point t, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The W1 tile and the one-hot tile of point n. -/
abbrev w1blk (c : Dev nD) (n : ℕ) (hn : n < cfg0.N) : Vec F S4096x64 .f32 := iblk0 V c 0 ⟨n, hn⟩
abbrev ohblk0 (c : Dev nD) (n : ℕ) (hn : n < cfg0.N) : Vec F S4096x10 .bf16 := iblk0 V c 1 ⟨n, hn⟩

/-- The output buffer after point n: zero plus the tiles' products up to n. -/
def acc0 (c : Dev nD) : (n : ℕ) → n < cfg0.N → Vec F S10x64 .f32
  | 0, hn => k0_pay2 (w1blk V c 0 hn) (ohblk0 V c 0 hn) (k0_pay1 (F := F))
  | n + 1, hn => k0_pay2 (w1blk V c (n + 1) hn) (ohblk0 V c (n + 1) hn) (acc0 c n (Nat.lt_of_succ_lt hn))

/-- The proof data of pipeline 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## Region 1 -/

/-- Window w's block at point t, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev inblk (c : Dev nD) (n : ℕ) (hn : n < cfg1.N) : Vec F S512x64 .f32 := iblk1 V c 0 ⟨n, hn⟩
abbrev w2blk (c : Dev nD) (n : ℕ) (hn : n < cfg1.N) : Vec F S64x2048 .f32 := iblk1 V c 1 ⟨n, hn⟩
abbrev ohblk1 (c : Dev nD) (n : ℕ) (hn : n < cfg1.N) : Vec F S2048x10 .bf16 := iblk1 V c 2 ⟨n, hn⟩
abbrev mkblk (c : Dev nD) (n : ℕ) (hn : n < cfg1.N) : Vec F S1x2048 .f32 := iblk1 V c 3 ⟨n, hn⟩

/-- The three carried scratch buffers: running maximum, running denominator, running numerators. -/
structure Sc (F : FTy → Type) [FloatOps F] where
  m : Vec F S512x1 .f32
  l : Vec F S512x1 .f32
  a : Vec F S512x10 .f32

/-- The scratch as the first tile of a half resets it. -/
def sc0 : Sc F := ⟨k1_pay4 (F := F), k1_pay5 (F := F), k1_pay6 (F := F)⟩

/-- One tile's update of the scratch, from the tile's four input blocks. -/
def step1 (x3 : Vec F S512x64 .f32) (x6 : Vec F S64x2048 .f32) (x32 : Vec F S2048x10 .bf16) (x20 : Vec F S1x2048 .f32) (s : Sc F) : Sc F :=
  ⟨k1_pay2 (k1_pay8 x3 x6 s.m), k1_pay11 x3 x6 s.m s.m x20 s.l,
   k1_pay1 (k1_pay9 x3 x6 s.m s.m) (k1_pay12 x32) (k1_pay13 x3 x6 s.m x20) s.a⟩

/-- The scratch after point n. -/
def scAt (c : Dev nD) : (n : ℕ) → n < cfg1.N → Sc F
  | 0, hn => step1 (inblk V c 0 hn) (w2blk V c 0 hn) (ohblk1 V c 0 hn) (mkblk V c 0 hn) sc0
  | n + 1, hn => step1 (inblk V c (n + 1) hn) (w2blk V c (n + 1) hn) (ohblk1 V c (n + 1) hn) (mkblk V c (n + 1) hn)
      (if (n + 1) % 50 = 0 then sc0 else scAt c n (Nat.lt_of_succ_lt hn))

/-- What the last tile of a half stores into the output block. -/
def out1 (c : Dev nD) (t : Fin cfg1.N) : Vec F S512x10 .f32 :=
  k1_pay3 (scAt V c t.val t.isLt).a (scAt V c t.val t.isLt).l

abbrev scM0 : Memref sig .tc .vmem S512x1 .f32 := Memref.whole cc1_scratch0
abbrev scM1 : Memref sig .tc .vmem S512x1 .f32 := Memref.whole cc1_scratch1
abbrev scM2 : Memref sig .tc .vmem S512x10 .f32 := Memref.whole cc1_scratch2

/-- Region 1's invariant before position n: before the first point the class invariant (every scoped buffer that is no
    staging buffer of this pipeline at anything, the generator register at some state); afterwards region 0's five staging
    buffers at anything, the three scratch buffers at what the point before left, and the generator register. -/
def Phi1 (c : Dev nD) : (n : ℕ) → n ≤ cfg1.N → sProp 𝕄
  | 0, _ => Pipeline.ΦA spec1 c
  | n + 1, hn => iprop(
      ((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ owns (c : Thread nD τ) scM0 fullShare (scAt V c n hn).m
        ∗ owns (c : Thread nD τ) scM1 fullShare (scAt V c n hn).l
        ∗ owns (c : Thread nD τ) scM2 fullShare (scAt V c n hn).a)
      ∗ (∃ r, prngReg c r))

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.Kernel.Hand

end
-- ==== Proof.KB.Fold.lean ====
/-
  The contents of the TensorCore's unscoped buffers at each boundary of the program: the launch memory folded through the
  host stretches, each kernel region replacing its arrays by what its pipeline leaves in them.
-/
import proofs.«428240_j80616536146381_2_alg».proof.Proof.Gen.Kernel.Launch
import proofs.«428240_j80616536146381_2_alg».proof.Proof.Gen.Kernel.Skeleton
import proofs.«428240_j80616536146381_2_alg».proof.Proof.Gen.Kernel.Points
import proofs.«428240_j80616536146381_2_alg».proof.Proof.KB.Data
import Idealize.ShloMosaic.Lib.Pipeline.FrameSuffix
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's unscoped buffers at launch, -/
abbrev W0 : Dev nD → Valuation τ sig (Elt F) := fun c b => m (c, b)
/-- and after each of the seven host stretches before region 0 (the sentinel constant; the padded cluster ids; the one-hot
    table; the padded W1; a constant; the padded W2; the tail mask and the cluster counts). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
/-- Region 0's entry contents. -/
def W7 : Dev nD → Valuation τ sig (Elt F) := fun c => StableHlo.after hostOps0_6 (W6 m c)
abbrev V7 : (c : Dev nD) → (b : Ref sig .tc) → Buf (Elt F) ((c : Thread nD τ).loc b) := fun c b => W7 m c b
/-- Region 0's exit contents: its arrays at what the pipeline leaves, every other buffer as entered. -/
def W8 (c : Dev nD) : Valuation τ sig (Elt F) :=
  Pipeline.withArrays spec0 c (W7 m c) fun w => (dat0 (V7 m) c).arrAt w cfg0.N
abbrev V8 : (c : Dev nD) → (b : Ref sig .tc) → Buf (Elt F) ((c : Thread nD τ).loc b) := fun c b => W8 m c b
/-- Region 1's entry contents: the small matrix product input_array x (the cluster sums of W1) has run. -/
def W9 : Dev nD → Valuation τ sig (Elt F) := fun c => StableHlo.after hostOps1 (W8 m c)
abbrev V9 : (c : Dev nD) → (b : Ref sig .tc) → Buf (Elt F) ((c : Thread nD τ).loc b) := fun c b => W9 m c b
/-- Region 1's exit contents. -/
def W10 (c : Dev nD) : Valuation τ sig (Elt F) :=
  Pipeline.withArrays spec1 c (W9 m c) fun w => (dat1 (V9 m) c).arrAt w cfg1.N
abbrev V10 : (c : Dev nD) → (b : Ref sig .tc) → Buf (Elt F) ((c : Thread nD τ).loc b) := fun c b => W10 m c b
/-- The contents at the return: the division by the clamped counts has run. -/
def W11 : Dev nD → Valuation τ sig (Elt F) := fun c => StableHlo.after hostOps2 (W10 m c)

end Cert.Kernel.Hand

end
-- ==== Proof.KB.Body0.lean ====
/-
  Region 0's body obligation: at every point the kernel body, handed the W1 tile, the one-hot tile and the output buffer
  as the point before left it, leaves the output buffer at the running sum.
-/
import proofs.«428240_j80616536146381_2_alg».proof.Proof.Gen.Kernel.Launch
import proofs.«428240_j80616536146381_2_alg».proof.Proof.Gen.Kernel.Skeleton
import proofs.«428240_j80616536146381_2_alg».proof.Proof.Gen.Kernel.Points
import proofs.«428240_j80616536146381_2_alg».proof.Proof.KB.Data
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each staging buffer holds when the body is called -/

/-- The W1 window is fetched at every point, so its buffer holds the array's block there. -/
theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl

/-- The one-hot window is fetched at every point, so its buffer holds the array's block there. -/
theorem before0_1 (c : Dev nD) (t : Fin cfg0.N) (d) : (dat0 V c).before 1 t d = iblk0 V c 1 t := by
  rw [(dat0 V c).before_fetched 1 t (fetch0_1 t) d]
  unfold Dat.fetched Dat.blockOf iblk0
  rw [A_eq0]
  rfl

/-- The output window is written back at the last point only: no point before the last is followed by a write-back. -/
theorem flush0_2_pred (t : Fin cfg0.N) (ht : t.val ≠ 0) :
    (cfg0.win 2).flush ⟨t.val - 1, Nat.lt_of_le_of_lt (Nat.sub_le _ _) t.isLt⟩ = false := by
  have hN : t.val < 25 := lt_of_lt_of_eq t.isLt (show cfg0.N = 25 from N_0)
  cases h : (cfg0.win 2).flush ⟨t.val - 1, Nat.lt_of_le_of_lt (Nat.sub_le _ _) t.isLt⟩ with
  | false => rfl
  | true =>
    have h24 := (flush0_2 _).mp h
    simp only at h24
    omega

/-- After the first point the output buffer holds the running sum the point before left: the buffer is the
    window's only one, its index map is constant, and nothing is written back in between. -/
theorem before0_2 (c : Dev nD) (t : Fin cfg0.N) (ht : t.val ≠ 0) (d) :
    (dat0 V c).before 2 t d = acc0 V c (t.val - 1) (Nat.lt_of_le_of_lt (Nat.sub_le _ _) t.isLt) := by
  rw [(dat0 V c).before_out_kept 2 rfl t ht (flush0_2_pred t ht) (fun _ => rfl) (fun _ _ => rfl) d, after0_2]

/-! ## The running sum, point by point -/

/-- At the first point the sum is the first tile's product added to zero. -/
theorem acc0_first (c : Dev nD) (t : Fin cfg0.N) (h0 : t.val = 0) :
    acc0 V c t.val t.isLt = k0_pay2 (w1blk V c t.val t.isLt) (ohblk0 V c t.val t.isLt) (k0_pay1 (F := F)) := by
  obtain ⟨n, hn⟩ := t
  cases n with
  | zero => rfl
  | succ n => exact absurd h0 (Nat.succ_ne_zero n)

/-- At a later point it is the tile's product added to the sum the point before left. -/
theorem acc0_later (c : Dev nD) (t : Fin cfg0.N) (h0 : t.val ≠ 0) :
    acc0 V c t.val t.isLt = k0_pay2 (w1blk V c t.val t.isLt) (ohblk0 V c t.val t.isLt)
      (acc0 V c (t.val - 1) (Nat.lt_of_le_of_lt (Nat.sub_le _ _) t.isLt)) := by
  obtain ⟨n, hn⟩ := t
  cases n with
  | zero => exact absurd rfl h0
  | succ n => rfl

/-! ## The body's one branch: is this the first tile? -/

/-- The condition of the body's conditional, read off the grid coordinate. -/
abbrev isFirst0 (i : grid0.Coords) : Prop :=
  Scalar.cmpi .ne (Scalar.extui (Scalar.cmpi .eq (BitVec.ofNat 32 (i 0).val) 0#32)) 0#32 = 1#1

/-- It holds at point 0 and nowhere else (25 points, each decided). -/
theorem isFirst0_iff : ∀ t : Fin cfg0.N, isFirst0 (grid0.coords t) ↔ t.val = 0 :=
  (by decide +kernel : ∀ t : Fin grid0.N, isFirst0 (grid0.coords t) ↔ t.val = 0)

/-! ## The body on whole buffers -/

/-- A pair of zero offsets, as the accesses spell it, is the zero offset. -/
theorem zeros2_r0 : (![0, 0] : Fin 2 → ℕ) = fun _ => 0 := by
  funext a; fin_cases a <;> rfl

set_option maxHeartbeats 1000000 in
/-- At the first tile: whatever the output buffer held, the body zeroes it, reads the zeros back and stores the
    tile's product added to them. Every access is to a whole buffer, so the last store alone decides what is left. -/
theorem sound_kernel0_first (c : Dev nD) (E : Set ℕ) (i : grid0.Coords) (hi : isFirst0 i)
    (arg1 : Memref sig .tc .vmem S4096x64 .f32) (harg1 : arg1.IsWhole)
    (arg2 : Memref sig .tc .vmem S4096x10 .bf16) (harg2 : arg2.IsWhole)
    (arg3 : Memref sig .tc .vmem S10x64 .f32) (harg3 : arg3.IsWhole)
    (x0 : Vec F S4096x64 .f32) (x1 : Vec F S4096x10 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay2 x0 x1 (k0_pay1 (F := F)))) -∗ K ⟨⟩))
      ⊢ wp frame (wpE (defs₀ (F := F)) Variants.none c none) E (cc0__w1csum_kernel i arg1 harg1 arg2 harg2 arg3 harg3) K := by
  simp only [cc0__w1csum_kernel_eq_skeleton]; unfold cc0__w1csum_kernel_skel
  unfold owns
  iintro ⟨⟨%f1, %hf1, H1⟩, ⟨%f2, %hf2, H2⟩, ⟨%d3, %f3, -, H3⟩, Hk⟩
  obtain rfl := harg1.eq_unread hf1
  obtain rfl := harg2.eq_unread hf2
  sl_exec (disch := first | sl_exact hi)
  sl_step
  iapply Hk
  isplitl [H1]
  · iexists _; isplitr
    · ipureintro; exact hf1
    iexact H1
  isplitl [H2]
  · iexists _; isplitr
    · ipureintro; exact hf2
    iexact H2
  iexists _; isplitr
  swap
  · iexact H3
  ipureintro
  rw [View.read_writes_eq_canon _ _ _ (fun y => ⟨_, List.mem_cons.mpr (Or.inl rfl),
    View.mem_set_unit_zero zeros2_r0 inb_S10x64_S10x64_0_0 y⟩)]
  sl_unfold_words
  rw [View.canon_cons_unit_zero (S := S10x64) zeros2_r0]
  simp only [View.readAt_eq_ld, hf1, hf2, View.ld_unit_zero (S := S4096x64) zeros2_r0,
    View.ld_unit_zero (S := S4096x10) zeros2_r0, View.readCov_unit_zero (S := S10x64) _ zeros2_r0]

set_option maxHeartbeats 1000000 in
/-- At a later tile: the body reads the output buffer and stores the tile's product added to what it read. -/
theorem sound_kernel0_later (c : Dev nD) (E : Set ℕ) (i : grid0.Coords) (hi : ¬isFirst0 i)
    (arg1 : Memref sig .tc .vmem S4096x64 .f32) (harg1 : arg1.IsWhole)
    (arg2 : Memref sig .tc .vmem S4096x10 .bf16) (harg2 : arg2.IsWhole)
    (arg3 : Memref sig .tc .vmem S10x64 .f32) (harg3 : arg3.IsWhole)
    (x0 : Vec F S4096x64 .f32) (x1 : Vec F S4096x10 .bf16) (p : Vec F S10x64 .f32) (K : PUnit → sProp 𝕄) :
    iprop(owns (c : Thread nD τ) arg1 fullShare x0 ∗ owns (c : Thread nD τ) arg2 fullShare x1
        ∗ owns (c : Thread nD τ) arg3 fullShare p
        ∗ (iprop(owns (c : Thread nD τ) arg1 fullShare x0 ∗ owns (c : Thread nD τ) arg2 fullShare x1
            ∗ owns (c : Thread nD τ) arg3 fullShare (k0_pay2 x0 x1 p)) -∗ K ⟨⟩))
      ⊢ wp frame (wpE (defs₀ (F := F)) Variants.none c none) E (cc0__w1csum_kernel i arg1 harg1 arg2 harg2 arg3 harg3) K := by
  simp only [cc0__w1csum_kernel_eq_skeleton]; unfold cc0__w1csum_kernel_skel
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  sl_exec (disch := first | sl_exact hi)
  sl_step
  iapply Hk
  isplitl [H1]
  · iexists _; isplitr
    · ipureintro; exact hf1
    iexact H1
  isplitl [H2]
  · iexists _; isplitr
    · ipureintro; exact hf2
    iexact H2
  iexists _; isplitr
  swap
  · iexact H3
  ipureintro
  rw [View.read_writes_eq_canon _ _ _ (fun y => ⟨_, List.mem_cons.mpr (Or.inl rfl),
    View.mem_set_unit_zero zeros2_r0 inb_S10x64_S10x64_0_0 y⟩)]
  rw [View.canon_unit_zero (S := S10x64) zeros2_r0]
  simp only [View.readAt_eq_ld, hf1, hf2, hf3, View.ld_unit_zero (S := S4096x64) zeros2_r0,
    View.ld_unit_zero (S := S4096x10) zeros2_r0, View.ld_unit_zero (S := S10x64) zeros2_r0]

/-! ## The body at a grid point -/

set_option maxHeartbeats 1000000 in
/-- The body as the pipeline calls it at point t: the two input buffers hold their blocks; at the first point the
    output buffer holds anything and is reset, at a later one it holds the sum the point before left. The class
    invariant and what the core owes pass through unread. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [acc0_first V c t h0]
    iintro ⟨HΦ, Ho, ⟨%d0, H0⟩, ⟨%d1, H1⟩, ⟨%d2, H2⟩⟩
    iapply (sound_kernel0_first c Set.univ (grid0.coords t) ((isFirst0_iff t).mpr h0) _ _ _ _ _ _
      (w1blk V c t.val t.isLt) (ohblk0 V c t.val t.isLt) _)
    isplitl [H0]
    · iexact H0
    isplitl [H1]
    · iexact H1
    isplitl [H2]
    · iexists _; iexact H2
    iintro ⟨H0, H1, H2⟩
    isplitl [HΦ]
    · iexact HΦ
    isplitl [Ho]
    · iexact Ho
    isplitl [H0]
    · iexact H0
    isplitl [H1]
    · iexact H1
    iexact H2
  · rw [acc0_later V c t h0]
    simp only [before0_2 V c t h0]
    iintro ⟨HΦ, Ho, ⟨%d0, H0⟩, ⟨%d1, H1⟩, ⟨%d2, H2⟩⟩
    iapply (sound_kernel0_later c Set.univ (grid0.coords t) (fun h => h0 ((isFirst0_iff t).mp h)) _ _ _ _ _ _
      (w1blk V c t.val t.isLt) (ohblk0 V c t.val t.isLt)
      (acc0 V c (t.val - 1) (Nat.lt_of_le_of_lt (Nat.sub_le _ _) t.isLt)) _)
    isplitl [H0]
    · iexact H0
    isplitl [H1]
    · iexact H1
    isplitl [H2]
    · iexact H2
    iintro ⟨H0, H1, H2⟩
    isplitl [HΦ]
    · iexact HΦ
    isplitl [Ho]
    · iexact Ho
    isplitl [H0]
    · iexact H0
    isplitl [H1]
    · iexact H1
    iexact H2

/-! ## The obligation -/

theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.KB.Body1.lean ====
/-
  Region 1's body obligation: at every point the kernel body, handed the tile's four input blocks and the three scratch
  buffers as the point before left them (reset at the first tile of a half), leaves the scratch at the online-softmax
  update and, at the last tile of a half, the output block at numerators over denominator.
-/
import proofs.«428240_j80616536146381_2_alg».proof.Proof.Gen.Kernel.Launch
import proofs.«428240_j80616536146381_2_alg».proof.Proof.Gen.Kernel.Skeleton
import proofs.«428240_j80616536146381_2_alg».proof.Proof.Gen.Kernel.Points
import proofs.«428240_j80616536146381_2_alg».proof.Proof.KB.Data
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions, in closed form over the grid -/

/-- The first conditional of the body: the tile coordinate is zero. -/
abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 50 = 0 :=
  (by decide +kernel : ∀ t : Fin grid1.N, cond1_0 (grid1.coords t) ↔ t.val % 50 = 0)

/-- The second conditional: the tile coordinate is 49. -/
abbrev cond1_1 (i : grid1.Coords) : Prop := k1_cond2 i = 1#1

theorem hcond1_1 : ∀ t : Fin cfg1.N, cond1_1 (grid1.coords t) ↔ t.val % 50 = 49 :=
  (by decide +kernel : ∀ t : Fin grid1.N, cond1_1 (grid1.coords t) ↔ t.val % 50 = 49)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬ t.val % 50 = 49 → cfg1.idle 4 (grid1.coords t) = true := by decide +kernel
theorem liveAt1_4 : ∀ t : Fin cfg1.N, t.val % 50 = 49 → cfg1.idle 4 (grid1.coords t) = false := by decide +kernel
theorem noFlush1_4 : ∀ t : Fin cfg1.N, ¬ t.val % 50 = 49 → (cfg1.win 4).flush t = false := by decide +kernel

/-! ## What the body finds in the input windows' buffers -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The zero offsets of a rank-2 whole-buffer rectangle. -/
theorem hz2 : (![0, 0] : Fin 2 → Nat) = fun _ => 0 := funext fun a => by fin_cases a <;> rfl

/-! ## The body's three control cases -/

set_option maxHeartbeats 1000000 in
/-- The body at the first tile of a half (the tile coordinate is 0, not 49), on whole memrefs: the four input buffers at
    their blocks, the output buffer at contents it hands back untouched, the three scratch buffers at anything. The reset
    stores overwrite each scratch buffer whole, the loads after them read the reset values back, and the last whole-buffer
    store into each scratch buffer leaves the update of the reset values. -/
theorem run1_A (c : Dev nD) (i : grid1.Coords)
    (arg2 : Memref sig .tc .vmem S512x64 .f32) (harg2 : arg2.IsWhole) (arg3 : Memref sig .tc .vmem S64x2048 .f32) (harg3 : arg3.IsWhole)
    (arg4 : Memref sig .tc .vmem S2048x10 .bf16) (harg4 : arg4.IsWhole) (arg5 : Memref sig .tc .vmem S1x2048 .f32) (harg5 : arg5.IsWhole)
    (arg6 : Memref sig .tc .vmem S512x10 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x10 .f32) (harg9 : arg9.IsWhole)
    (hc0 : cond1_0 i) (hc1 : ¬cond1_1 i)
    (x0 : Vec F S512x64 .f32) (x1 : Vec F S64x2048 .f32) (x2 : Vec F S2048x10 .bf16) (x3 : Vec F S1x2048 .f32)
    (xo : Vec F S512x10 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (step1 x0 x1 x2 x3 (sc0 (F := F))).m ∗ owns (c : Thread nD τ) arg8 fullShare (step1 x0 x1 x2 x3 (sc0 (F := F))).l
            ∗ owns (c : Thread nD τ) arg9 fullShare (step1 x0 x1 x2 x3 (sc0 (F := F))).a) -∗ K ⟨⟩))
      ⊢ wp frame (wpE (defs₀ (F := F)) Variants.none c none) E (cc1__flash_cluster_kernel i arg2 harg2 arg3 harg3 arg4 harg4 arg5 harg5 arg6 harg6 arg7 harg7 arg8 harg8 arg9 harg9) K := by
  simp only [cc1__flash_cluster_kernel_eq_skeleton, k1_part1_eq_skeleton]; unfold cc1__flash_cluster_kernel_skel
  unfold owns
  iintro ⟨⟨%f0, %hf0, H0⟩, ⟨%f1, %hf1, H1⟩, ⟨%f2, %hf2, H2⟩, ⟨%f3, %hf3, H3⟩, ⟨%fo, %hfo, Ho⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact hfo
    iexact Ho
  isplitl [HS0]
  · iexists _; isplitr; swap; · iexact HS0
    ipureintro
    sl_unfold_run_names
    rw [View.read_writes_eq_canon _ _ _ (fun y => ⟨_, List.mem_cons_self .., View.mem_set_unit_zero hz2 inb_S512x1_S512x1_0_0 y⟩)]
    rw [View.canon_cons_unit_zero (S := S512x1) hz2]
    simp only [View.readAt_eq_ld, harg2.read_unread, harg3.read_unread, harg4.read_unread, harg5.read_unread,
      View.readCov_unit_zero (S := S512x1) _ hz2, View.readCov_unit_zero (S := S512x10) _ hz2,
      View.ld_unit_zero (S := S512x64) hz2, View.ld_unit_zero (S := S64x2048) hz2, View.ld_unit_zero (S := S1x2048) hz2,
      View.ld_unit_zero (S := S2048x10) hz2]
    rfl
  isplitl [HS1]
  · iexists _; isplitr; swap; · iexact HS1
    ipureintro
    sl_unfold_run_names
    rw [View.read_writes_eq_canon _ _ _ (fun y => ⟨_, List.mem_cons_self .., View.mem_set_unit_zero hz2 inb_S512x1_S512x1_0_0 y⟩)]
    rw [View.canon_cons_unit_zero (S := S512x1) hz2]
    simp only [View.readAt_eq_ld, harg2.read_unread, harg3.read_unread, harg4.read_unread, harg5.read_unread,
      View.readCov_unit_zero (S := S512x1) _ hz2, View.readCov_unit_zero (S := S512x10) _ hz2,
      View.ld_unit_zero (S := S512x64) hz2, View.ld_unit_zero (S := S64x2048) hz2, View.ld_unit_zero (S := S1x2048) hz2,
      View.ld_unit_zero (S := S2048x10) hz2]
    rfl
  · iexists _; isplitr; swap; · iexact HS2
    ipureintro
    sl_unfold_run_names
    rw [View.read_writes_eq_canon _ _ _ (fun y => ⟨_, List.mem_cons_self .., View.mem_set_unit_zero hz2 inb_S512x10_S512x10_0_0 y⟩)]
    rw [View.canon_cons_unit_zero (S := S512x10) hz2]
    simp only [View.readAt_eq_ld, harg2.read_unread, harg3.read_unread, harg4.read_unread, harg5.read_unread,
      View.readCov_unit_zero (S := S512x1) _ hz2, View.readCov_unit_zero (S := S512x10) _ hz2,
      View.ld_unit_zero (S := S512x64) hz2, View.ld_unit_zero (S := S64x2048) hz2, View.ld_unit_zero (S := S1x2048) hz2,
      View.ld_unit_zero (S := S2048x10) hz2]
    rfl

set_option maxHeartbeats 1000000 in
/-- The body at a middle tile (the tile coordinate is neither 0 nor 49): the scratch buffers come in at what the point
    before left; each is loaded whole and then overwritten whole by its update; the output buffer is not touched. -/
theorem run1_B (c : Dev nD) (i : grid1.Coords)
    (arg2 : Memref sig .tc .vmem S512x64 .f32) (harg2 : arg2.IsWhole) (arg3 : Memref sig .tc .vmem S64x2048 .f32) (harg3 : arg3.IsWhole)
    (arg4 : Memref sig .tc .vmem S2048x10 .bf16) (harg4 : arg4.IsWhole) (arg5 : Memref sig .tc .vmem S1x2048 .f32) (harg5 : arg5.IsWhole)
    (arg6 : Memref sig .tc .vmem S512x10 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x10 .f32) (harg9 : arg9.IsWhole)
    (hc0 : ¬cond1_0 i) (hc1 : ¬cond1_1 i)
    (x0 : Vec F S512x64 .f32) (x1 : Vec F S64x2048 .f32) (x2 : Vec F S2048x10 .bf16) (x3 : Vec F S1x2048 .f32)
    (xo : Vec F S512x10 .f32) (s : Sc F) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ owns (c : Thread nD τ) arg7 fullShare s.m ∗ owns (c : Thread nD τ) arg8 fullShare s.l ∗ owns (c : Thread nD τ) arg9 fullShare s.a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (step1 x0 x1 x2 x3 s).m ∗ owns (c : Thread nD τ) arg8 fullShare (step1 x0 x1 x2 x3 s).l
            ∗ owns (c : Thread nD τ) arg9 fullShare (step1 x0 x1 x2 x3 s).a) -∗ K ⟨⟩))
      ⊢ wp frame (wpE (defs₀ (F := F)) Variants.none c none) E (cc1__flash_cluster_kernel i arg2 harg2 arg3 harg3 arg4 harg4 arg5 harg5 arg6 harg6 arg7 harg7 arg8 harg8 arg9 harg9) K := by
  simp only [cc1__flash_cluster_kernel_eq_skeleton, k1_part1_eq_skeleton]; unfold cc1__flash_cluster_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact hfo
    iexact Ho
  isplitl [HS0]
  · iexists _; isplitr; swap; · iexact HS0
    ipureintro
    sl_unfold_run_names
    rw [View.read_writes_eq_canon _ _ _ (fun y => ⟨_, List.mem_singleton_self _, View.mem_set_unit_zero hz2 inb_S512x1_S512x1_0_0 y⟩)]
    rw [View.canon_unit_zero hz2]
    simp only [View.readAt_eq_ld, harg2.read_unread, harg3.read_unread, harg7.read_unread,
      View.ld_unit_zero (S := S512x64) hz2, View.ld_unit_zero (S := S64x2048) hz2, View.ld_unit_zero (S := S512x1) hz2]
    rfl
  isplitl [HS1]
  · iexists _; isplitr; swap; · iexact HS1
    ipureintro
    sl_unfold_run_names
    rw [View.read_writes_eq_canon _ _ _ (fun y => ⟨_, List.mem_singleton_self _, View.mem_set_unit_zero hz2 inb_S512x1_S512x1_0_0 y⟩)]
    rw [View.canon_unit_zero hz2]
    simp only [View.readAt_eq_ld, harg2.read_unread, harg3.read_unread, harg5.read_unread, harg7.read_unread, harg8.read_unread,
      View.ld_unit_zero (S := S512x64) hz2, View.ld_unit_zero (S := S64x2048) hz2, View.ld_unit_zero (S := S512x1) hz2, View.ld_unit_zero (S := S1x2048) hz2]
    rfl
  · iexists _; isplitr; swap; · iexact HS2
    ipureintro
    sl_unfold_run_names
    rw [View.read_writes_eq_canon _ _ _ (fun y => ⟨_, List.mem_singleton_self _, View.mem_set_unit_zero hz2 inb_S512x10_S512x10_0_0 y⟩)]
    rw [View.canon_unit_zero hz2]
    simp only [View.readAt_eq_ld, harg2.read_unread, harg3.read_unread, harg4.read_unread, harg5.read_unread, harg7.read_unread, harg9.read_unread,
      View.ld_unit_zero (S := S512x64) hz2, View.ld_unit_zero (S := S64x2048) hz2, View.ld_unit_zero (S := S512x1) hz2, View.ld_unit_zero (S := S1x2048) hz2,
      View.ld_unit_zero (S := S2048x10) hz2, View.ld_unit_zero (S := S512x10) hz2]
    rfl

set_option maxHeartbeats 1000000 in
/-- The body at the last tile of a half (the tile coordinate is 49): as at a middle tile, and then the numerators and the
    denominator just stored are read back and their quotient is stored over the whole output buffer, which comes in at
    anything. -/
theorem run1_C (c : Dev nD) (i : grid1.Coords)
    (arg2 : Memref sig .tc .vmem S512x64 .f32) (harg2 : arg2.IsWhole) (arg3 : Memref sig .tc .vmem S64x2048 .f32) (harg3 : arg3.IsWhole)
    (arg4 : Memref sig .tc .vmem S2048x10 .bf16) (harg4 : arg4.IsWhole) (arg5 : Memref sig .tc .vmem S1x2048 .f32) (harg5 : arg5.IsWhole)
    (arg6 : Memref sig .tc .vmem S512x10 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x10 .f32) (harg9 : arg9.IsWhole)
    (hc0 : ¬cond1_0 i) (hc1 : cond1_1 i)
    (x0 : Vec F S512x64 .f32) (x1 : Vec F S64x2048 .f32) (x2 : Vec F S2048x10 .bf16) (x3 : Vec F S1x2048 .f32)
    (s : Sc F) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare s.m ∗ owns (c : Thread nD τ) arg8 fullShare s.l ∗ owns (c : Thread nD τ) arg9 fullShare s.a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 (step1 x0 x1 x2 x3 s).a (step1 x0 x1 x2 x3 s).l)
            ∗ owns (c : Thread nD τ) arg7 fullShare (step1 x0 x1 x2 x3 s).m ∗ owns (c : Thread nD τ) arg8 fullShare (step1 x0 x1 x2 x3 s).l
            ∗ owns (c : Thread nD τ) arg9 fullShare (step1 x0 x1 x2 x3 s).a) -∗ K ⟨⟩))
      ⊢ wp frame (wpE (defs₀ (F := F)) Variants.none c none) E (cc1__flash_cluster_kernel i arg2 harg2 arg3 harg3 arg4 harg4 arg5 harg5 arg6 harg6 arg7 harg7 arg8 harg8 arg9 harg9) K := by
  simp only [cc1__flash_cluster_kernel_eq_skeleton, k1_part1_eq_skeleton]; unfold cc1__flash_cluster_kernel_skel
  unfold owns
  iintro ⟨⟨%f0, %hf0, H0⟩, ⟨%f1, %hf1, H1⟩, ⟨%f2, %hf2, H2⟩, ⟨%f3, %hf3, H3⟩, ⟨%d_o, %fo, -, Ho⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; swap; · iexact Ho
    ipureintro
    sl_unfold_run_names
    rw [View.read_writes_eq_canon _ _ _ (fun y => ⟨_, List.mem_singleton_self _, View.mem_set_unit_zero hz2 inb_S512x10_S512x10_0_0 y⟩)]
    rw [View.canon_unit_zero hz2]
    simp only [View.readAt_eq_ld, harg2.read_unread, harg3.read_unread, harg4.read_unread, harg5.read_unread, harg7.read_unread, harg8.read_unread, harg9.read_unread,
      View.readCov_unit_zero (S := S512x1) _ hz2, View.readCov_unit_zero (S := S512x10) _ hz2,
      View.ld_unit_zero (S := S512x64) hz2, View.ld_unit_zero (S := S64x2048) hz2, View.ld_unit_zero (S := S512x1) hz2, View.ld_unit_zero (S := S1x2048) hz2,
      View.ld_unit_zero (S := S2048x10) hz2, View.ld_unit_zero (S := S512x10) hz2]
    rfl
  isplitl [HS0]
  · iexists _; isplitr; swap; · iexact HS0
    ipureintro
    sl_unfold_run_names
    rw [View.read_writes_eq_canon _ _ _ (fun y => ⟨_, List.mem_singleton_self _, View.mem_set_unit_zero hz2 inb_S512x1_S512x1_0_0 y⟩)]
    rw [View.canon_unit_zero hz2]
    simp only [View.readAt_eq_ld, harg2.read_unread, harg3.read_unread, harg4.read_unread, harg5.read_unread, harg7.read_unread, harg8.read_unread, harg9.read_unread,
      View.readCov_unit_zero (S := S512x1) _ hz2, View.readCov_unit_zero (S := S512x10) _ hz2,
      View.ld_unit_zero (S := S512x64) hz2, View.ld_unit_zero (S := S64x2048) hz2, View.ld_unit_zero (S := S512x1) hz2, View.ld_unit_zero (S := S1x2048) hz2,
      View.ld_unit_zero (S := S2048x10) hz2, View.ld_unit_zero (S := S512x10) hz2]
    rfl
  isplitl [HS1]
  · iexists _; isplitr; swap; · iexact HS1
    ipureintro
    sl_unfold_run_names
    rw [View.read_writes_eq_canon _ _ _ (fun y => ⟨_, List.mem_singleton_self _, View.mem_set_unit_zero hz2 inb_S512x1_S512x1_0_0 y⟩)]
    rw [View.canon_unit_zero hz2]
    simp only [View.readAt_eq_ld, harg2.read_unread, harg3.read_unread, harg4.read_unread, harg5.read_unread, harg7.read_unread, harg8.read_unread, harg9.read_unread,
      View.readCov_unit_zero (S := S512x1) _ hz2, View.readCov_unit_zero (S := S512x10) _ hz2,
      View.ld_unit_zero (S := S512x64) hz2, View.ld_unit_zero (S := S64x2048) hz2, View.ld_unit_zero (S := S512x1) hz2, View.ld_unit_zero (S := S1x2048) hz2,
      View.ld_unit_zero (S := S2048x10) hz2, View.ld_unit_zero (S := S512x10) hz2]
    rfl
  · iexists _; isplitr; swap; · iexact HS2
    ipureintro
    sl_unfold_run_names
    rw [View.read_writes_eq_canon _ _ _ (fun y => ⟨_, List.mem_singleton_self _, View.mem_set_unit_zero hz2 inb_S512x10_S512x10_0_0 y⟩)]
    rw [View.canon_unit_zero hz2]
    simp only [View.readAt_eq_ld, harg2.read_unread, harg3.read_unread, harg4.read_unread, harg5.read_unread, harg7.read_unread, harg8.read_unread, harg9.read_unread,
      View.readCov_unit_zero (S := S512x1) _ hz2, View.readCov_unit_zero (S := S512x10) _ hz2,
      View.ld_unit_zero (S := S512x64) hz2, View.ld_unit_zero (S := S64x2048) hz2, View.ld_unit_zero (S := S512x1) hz2, View.ld_unit_zero (S := S1x2048) hz2,
      View.ld_unit_zero (S := S2048x10) hz2, View.ld_unit_zero (S := S512x10) hz2]
    rfl

/-! ## The invariant, position by position -/

/-- The invariant after a point, as a function of what the three scratch buffers hold. -/
def PhiAt (c : Dev nD) (s : Sc F) : sProp 𝕄 := iprop(
      ((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ owns (c : Thread nD τ) scM0 fullShare s.m
        ∗ owns (c : Thread nD τ) scM1 fullShare s.l
        ∗ owns (c : Thread nD τ) scM2 fullShare s.a)
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) : Phi1 V c (n + 1) hn = PhiAt c (scAt V c n hn) := rfl

theorem Phi1_pos (c : Dev nD) (n : ℕ) (h : n ≤ cfg1.N) (hz : n ≠ 0) :
    Phi1 V c n h = PhiAt c (scAt V c (n - 1) (by omega)) := by
  cases n with
  | zero => exact absurd rfl hz
  | succ n => rfl

/-- The class invariant with the three scratch buffers as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ d, owns (c : Thread nD τ) scM0 fullShare d)
        ∗ (∃ d, owns (c : Thread nD τ) scM1 fullShare d)
        ∗ (∃ d, owns (c : Thread nD τ) scM2 fullShare d))
      ∗ (∃ r, prngReg c r)) := by
  unfold Pipeline.ΦA; rw [scopedRest1_eq]; simp only [scM0, scM1, scM2, owns_whole]; try rfl

theorem Phi1_castSucc (c : Dev nD) (t : Fin cfg1.N) :
    (dat1 V c).Φ t.castSucc = Phi1 V c t.val (Nat.le_of_lt t.isLt) := by
  dsimp only [dat1]; simp only [Fin.coe_castSucc]

/-! ## The scratch contents, point by point -/

/-- At the first tile of a half the scratch is the update of the reset values. -/
theorem scAt_reset (c : Dev nD) (t : Fin cfg1.N) (h0 : t.val % 50 = 0) :
    scAt V c t.val t.isLt = step1 (iblk1 V c 0 t) (iblk1 V c 1 t) (iblk1 V c 2 t) (iblk1 V c 3 t) (sc0 (F := F)) := by
  obtain ⟨n, hn⟩ := t
  cases n with
  | zero => rfl
  | succ n =>
    show step1 _ _ _ _ (if (n + 1) % 50 = 0 then sc0 else _) = _
    rw [if_pos h0]

/-- At every other tile it is the update of what the point before left. -/
theorem scAt_step (c : Dev nD) (t : Fin cfg1.N) (h0 : ¬t.val % 50 = 0) :
    scAt V c t.val t.isLt = step1 (iblk1 V c 0 t) (iblk1 V c 1 t) (iblk1 V c 2 t) (iblk1 V c 3 t)
      (scAt V c (t.val - 1) (Nat.lt_of_le_of_lt (Nat.sub_le _ _) t.isLt)) := by
  obtain ⟨n, hn⟩ := t
  cases n with
  | zero => exact absurd (Nat.zero_mod _) h0
  | succ n =>
    show step1 _ _ _ _ (if (n + 1) % 50 = 0 then sc0 else _) = _
    rw [if_neg h0]; rfl

/-! ## The body obligation, at a generic point -/

abbrev ms1_0 (t : Fin cfg1.N) : Memref sig .tc .vmem S512x64 .f32 := win1_0.stage (cfg1.slots t 0)
abbrev ms1_1 (t : Fin cfg1.N) : Memref sig .tc .vmem S64x2048 .f32 := win1_1.stage (cfg1.slots t 1)
abbrev ms1_2 (t : Fin cfg1.N) : Memref sig .tc .vmem S2048x10 .bf16 := win1_2.stage (cfg1.slots t 2)
abbrev ms1_3 (t : Fin cfg1.N) : Memref sig .tc .vmem S1x2048 .f32 := win1_3.stage (cfg1.slots t 3)
abbrev ms1_4 (t : Fin cfg1.N) : Memref sig .tc .vmem S512x10 .f32 := win1_4.stage (cfg1.slots t 4)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the tile's residue mod 50 says which of the three control
    cases the point is in; the invariant hands the body the scratch at what the point before left (at anything before the
    first point) and takes it back at this point's update, which at the first tile of a half starts from the reset values;
    the output buffer is handed back as found except at the last tile of a half, where it holds the quotient. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 100 := lt_of_lt_of_eq t.isLt (show cfg1.N = 100 from N_1)
  by_cases h0 : t.val % 50 = 0
  · have h1 : ¬t.val % 50 = 49 := by omega
    rw [Dat.leavesExact_idle (dat1 V c) 4 t (idleAt1_4 t h1) (noFlush1_4 t h1)]
    rw [scAt_reset V c t h0]
    unfold PhiAt
    by_cases hz : t.val = 0
    · rw [Phi1_castSucc V c t, Phi1_zero V c _ _ hz, PhiA1_eq]
      iintro ⟨⟨⟨G0, G1, G2, G3, G4, HS0, HS1, HS2⟩, Hg⟩, Howe, ⟨%d0, H0⟩, ⟨%d1, H1⟩, ⟨%d2, H2⟩, ⟨%d3, H3⟩, ⟨%d4, H4⟩⟩
      iapply (run1_A c (grid1.coords t) _ _ _ _ _ _ _ _ _ _ _ _ _ _ _ _ ((hcond1_0 t).mpr h0) (fun h => h1 ((hcond1_1 t).mp h))
        (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [G0 G1 G2 G3 G4 HS0 HS1 HS2 Hg]
      · isplitr [Hg]
        · isplitl [G0]; · iexact G0
          isplitl [G1]; · iexact G1
          isplitl [G2]; · iexact G2
          isplitl [G3]; · iexact G3
          isplitl [G4]; · iexact G4
          isplitl [HS0]; · iexact HS0
          isplitl [HS1]; · iexact HS1
          iexact HS2
        · iexact Hg
      isplitl [Howe]; · iexact Howe
      isplitl [H0]; · iexact H0
      isplitl [H1]; · iexact H1
      isplitl [H2]; · iexact H2
      isplitl [H3]; · iexact H3
      iexists d4; iexact H4
    · rw [Phi1_castSucc V c t, Phi1_pos V c _ _ hz]
      unfold PhiAt
      iintro ⟨⟨⟨G0, G1, G2, G3, G4, HS0, HS1, HS2⟩, Hg⟩, Howe, ⟨%d0, H0⟩, ⟨%d1, H1⟩, ⟨%d2, H2⟩, ⟨%d3, H3⟩, ⟨%d4, H4⟩⟩
      iapply (run1_A c (grid1.coords t) _ _ _ _ _ _ _ _ _ _ _ _ _ _ _ _ ((hcond1_0 t).mpr h0) (fun h => h1 ((hcond1_1 t).mp h))
        (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [G0 G1 G2 G3 G4 HS0 HS1 HS2 Hg]
      · isplitr [Hg]
        · isplitl [G0]; · iexact G0
          isplitl [G1]; · iexact G1
          isplitl [G2]; · iexact G2
          isplitl [G3]; · iexact G3
          isplitl [G4]; · iexact G4
          isplitl [HS0]; · iexact HS0
          isplitl [HS1]; · iexact HS1
          iexact HS2
        · iexact Hg
      isplitl [Howe]; · iexact Howe
      isplitl [H0]; · iexact H0
      isplitl [H1]; · iexact H1
      isplitl [H2]; · iexact H2
      isplitl [H3]; · iexact H3
      iexists d4; iexact H4
  · have hz : t.val ≠ 0 := fun hz => h0 (by rw [hz])
    by_cases h1 : t.val % 50 = 49
    · rw [show (dat1 V c).leavesExact 4 t = owns (c : Thread nD τ) (ms1_4 t) fullShare ((dat1 V c).after 4 t) from by
        unfold Dat.leavesExact; rw [liveAt1_4 t h1], after1_4]
      unfold out1
      rw [scAt_step V c t h0]
      rw [Phi1_castSucc V c t, Phi1_pos V c _ _ hz]
      unfold PhiAt
      iintro ⟨⟨⟨G0, G1, G2, G3, G4, HS0, HS1, HS2⟩, Hg⟩, Howe, ⟨%d0, H0⟩, ⟨%d1, H1⟩, ⟨%d2, H2⟩, ⟨%d3, H3⟩, ⟨%d4, H4⟩⟩
      iapply (run1_C c (grid1.coords t) _ _ _ _ _ _ _ _ _ _ _ _ _ _ _ _ (fun h => h0 ((hcond1_0 t).mp h)) ((hcond1_1 t).mpr h1)
        (iblk1 V c 0 t) (iblk1 V c 1 t) (iblk1 V c 2 t) (iblk1 V c 3 t) (scAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [G0 G1 G2 G3 G4 HS0 HS1 HS2 Hg]
      · isplitr [Hg]
        · isplitl [G0]; · iexact G0
          isplitl [G1]; · iexact G1
          isplitl [G2]; · iexact G2
          isplitl [G3]; · iexact G3
          isplitl [G4]; · iexact G4
          isplitl [HS0]; · iexact HS0
          isplitl [HS1]; · iexact HS1
          iexact HS2
        · iexact Hg
      isplitl [Howe]; · iexact Howe
      isplitl [H0]; · iexact H0
      isplitl [H1]; · iexact H1
      isplitl [H2]; · iexact H2
      isplitl [H3]; · iexact H3
      iexact H4
    · rw [Dat.leavesExact_idle (dat1 V c) 4 t (idleAt1_4 t h1) (noFlush1_4 t h1)]
      rw [scAt_step V c t h0]
      rw [Phi1_castSucc V c t, Phi1_pos V c _ _ hz]
      unfold PhiAt
      iintro ⟨⟨⟨G0, G1, G2, G3, G4, HS0, HS1, HS2⟩, Hg⟩, Howe, ⟨%d0, H0⟩, ⟨%d1, H1⟩, ⟨%d2, H2⟩, ⟨%d3, H3⟩, ⟨%d4, H4⟩⟩
      iapply (run1_B c (grid1.coords t) _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) ((dat1 V c).before 4 t d4) (scAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [G0 G1 G2 G3 G4 HS0 HS1 HS2 Hg]
      · isplitr [Hg]
        · isplitl [G0]; · iexact G0
          isplitl [G1]; · iexact G1
          isplitl [G2]; · iexact G2
          isplitl [G3]; · iexact G3
          isplitl [G4]; · iexact G4
          isplitl [HS0]; · iexact HS0
          isplitl [HS1]; · iexact HS1
          iexact HS2
        · iexact Hg
      isplitl [Howe]; · iexact Howe
      isplitl [H0]; · iexact H0
      isplitl [H1]; · iexact H1
      isplitl [H2]; · iexact H2
      isplitl [H3]; · iexact H3
      iexists d4; iexact H4

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the region's entry hands the pipeline is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class invariant back: the scratch contents are forgotten. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 100 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  unfold PhiAt
  iintro ⟨⟨G0, G1, G2, G3, G4, HS0, HS1, HS2⟩, Hg⟩
  isplitr [Hg]
  · isplitl [G0]; · iexact G0
    isplitl [G1]; · iexact G1
    isplitl [G2]; · iexact G2
    isplitl [G3]; · iexact G3
    isplitl [G4]; · iexact G4
    isplitl [HS0]; · iexists _; iexact HS0
    isplitl [HS1]; · iexists _; iexact HS1
    iexists _; iexact HS2
  · iexact Hg

end Cert.Kernel.Hand

end
-- ==== Proof.KB.Run.lean ====
/-
  The run of the whole program, for any float family: its eleven items (seven host stretches, region 0, a host stretch,
  region 1, a host stretch) in order, every unscoped buffer read back at the end at the fold W11 of the launch memory.
-/
import proofs.«428240_j80616536146381_2_alg».proof.Proof.Gen.Kernel.Launch
import proofs.«428240_j80616536146381_2_alg».proof.Proof.Gen.Kernel.Skeleton
import proofs.«428240_j80616536146381_2_alg».proof.Proof.Gen.Kernel.Points
import proofs.«428240_j80616536146381_2_alg».proof.Proof.KB.Fold
import proofs.«428240_j80616536146381_2_alg».proof.Proof.KB.Body0
import proofs.«428240_j80616536146381_2_alg».proof.Proof.KB.Body1
import proofs.«428240_j80616536146381_2_alg».proof.Proof.Gen.Kernel.Regions
import Idealize.ShloMosaic.Lib.Pipeline.Regions
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the two regions leave

A region replaces its windows' arrays by what its pipeline leaves in them and touches no other unscoped buffer. -/

theorem W8_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
theorem hF0 (c : Dev nD) (w : Fin cfg0.W) : (dat0 (V7 m) c).arrAt w cfg0.N = V8 m c (Pipeline.arrRef spec0 w) :=
  (W8_arr m c w).symm
theorem hrest0 (c : Dev nD) : ∀ b, b ∉ Finset.univ.image (Pipeline.arrRef spec0) → V8 m c b = V7 m c b :=
  fun b hb => W8_of_ne m c b fun w e => hb (Finset.mem_image.mpr ⟨w, Finset.mem_univ _, e⟩)

theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
theorem hF1 (c : Dev nD) (w : Fin cfg1.W) : (dat1 (V9 m) c).arrAt w cfg1.N = V10 m c (Pipeline.arrRef spec1 w) :=
  (W10_arr m c w).symm
theorem hrest1 (c : Dev nD) : ∀ b, b ∉ Finset.univ.image (Pipeline.arrRef spec1) → V10 m c b = V9 m c b :=
  fun b hb => W10_of_ne m c b fun w e => hb (Finset.mem_image.mpr ⟨w, Finset.mem_univ _, e⟩)

/-- A buffer that no host stretch writes and that is no window's array of either region ends as launched. -/
theorem W11_of_untouched (c : Dev nD) (b : Ref sig .tc)
    (h0 : b ∉ hostOps0_W) (h1 : b ∉ hostOps0_1_W) (h2 : b ∉ hostOps0_2_W) (h3 : b ∉ hostOps0_3_W)
    (h4 : b ∉ hostOps0_4_W) (h5 : b ∉ hostOps0_5_W) (h6 : b ∉ hostOps0_6_W)
    (hr0 : ∀ w, Pipeline.arrRef spec0 w ≠ b) (h8 : b ∉ hostOps1_W)
    (hr1 : ∀ w, Pipeline.arrRef spec1 w ≠ b) (h10 : b ∉ hostOps2_W) :
    W11 m c (Proc.devRef .tc b) = m ((c : Thread nD τ).loc b) :=
  calc W11 m c (Proc.devRef .tc b)
    _ = W10 m c (Proc.devRef .tc b) := StableHlo.after_of_writes_sub hostOps2 _ hostOps2_writes h10
    _ = W9 m c (Proc.devRef .tc b) := W10_of_ne m c b hr1
    _ = W8 m c (Proc.devRef .tc b) := StableHlo.after_of_writes_sub hostOps1 _ hostOps1_writes h8
    _ = W7 m c (Proc.devRef .tc b) := W8_of_ne m c b hr0
    _ = W6 m c (Proc.devRef .tc b) := StableHlo.after_of_writes_sub hostOps0_6 _ hostOps0_6_writes h6
    _ = W5 m c (Proc.devRef .tc b) := StableHlo.after_of_writes_sub hostOps0_5 _ hostOps0_5_writes h5
    _ = W4 m c (Proc.devRef .tc b) := StableHlo.after_of_writes_sub hostOps0_4 _ hostOps0_4_writes h4
    _ = W3 m c (Proc.devRef .tc b) := StableHlo.after_of_writes_sub hostOps0_3 _ hostOps0_3_writes h3
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V7 m) c
  | ⟨1, _⟩ => fun c => dat1 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing
    nothing. -/
abbrev R (c : Dev nD) : sProp 𝕄 := iprop((∃ r, prngReg c r) ∗ ∃ W, owes (c : Thread nD τ) (0 : CellTallies nD τ sig Unit) W)
/-- A host stretch over the unscoped buffers from the contents W: it runs to those buffers at the stretch's fold of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state beside the core owing nothing: every unscoped buffer at the last fold, the generator register
    at some state. -/
abbrev Tₙ (c : Dev nD) : sProp 𝕄 := iprop(StableHlo.held (c : Thread nD τ) (Pipeline.ucRefs τ sig) (W11 m c) ∗ ∃ r, prngReg c r)

/-! ## The regions -/

set_option backward.isDefEq.respectTransparency.types false in
/-- Region 0, entered from every unscoped buffer at W7 and left at W8: its arrays are split out of the unscoped buffers
    and put back at the exit contents; the generator register goes into the class invariant and comes out; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (V7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V7 m c) (V8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class invariant of region 1 from the generator register and the scoped buffers no window stages, -/
theorem ΦA1_in (c : Dev nD) :
    iprop((∃ r, prngReg c r) ∗ Pipeline.prefHeld (pcfgs (F := F) 1).pre c (fun _ => fullShare) (adm (F := F) 1).1
      ∗ Pipeline.scopedRest spec1 c) ⊢ (Pipeline.ΦA spec1 c : sProp 𝕄) := by
  unfold Pipeline.ΦA
  iintro ⟨Hp, -, Hr⟩
  isplitl [Hr]; · iexact Hr
  iexact Hp
/-- and back. -/
theorem ΦA1_out (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- Region 1, entered from every unscoped buffer at W9 and left at W10. Its invariant before the first point is the
    class invariant, and after the last point gives it back, the scratch contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA1_in c).trans (hin1 (V9 m) c)
  hout c := by
    rw [Pipeline.ownSems0_none]
    exact (hout1 (V9 m) c).trans (ΦA1_out c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its eleven items, and the launch -/

/-- The eleven items in order: a host stretch from its boundary's contents, or a region. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .region (reg1 m),
    .host (hseg hostOps2 hostOps2_sub hostOps2_fresh (W10 m)) ]

/-- The program is the run of its items. -/
theorem main_run (c : Dev nD) : main (F := F) c = Pipeline.Seg.run (segs m) := by
  rw [main_chain c, Pipeline.Seg.run_eq_chain]
  rfl

/-- The last item's thread state is the last thread state beside the core owing nothing. -/
theorem last_state (c : Dev nD) :
    iprop(StableHlo.held (c : Thread nD τ) (Pipeline.ucRefs τ sig) (StableHlo.after hostOps2 (W10 m c))
        ∗ ((∃ r, prngReg c r) ∗ ∃ W, owes (c : Thread nD τ) (0 : CellTallies nD τ sig Unit) W))
      ⊢ (iprop((StableHlo.held (c : Thread nD τ) (Pipeline.ucRefs τ sig) (W11 m c) ∗ ∃ r, prngReg c r)
        ∗ ∃ W, owes (c : Thread nD τ) (0 : CellTallies nD τ sig Unit) W) : sProp 𝕄) := by
  iintro ⟨Hh, Hp, HO⟩
  isplitr [HO]
  · isplitl [Hh]; · iexact Hh
    iexact Hp
  iexact HO

set_option backward.isDefEq.respectTransparency.types false in
/-- Every weakly fair execution terminates, nothing faults, and every unscoped buffer ends at the fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- No item writes an argument. -/
theorem W11_main_arg0 (c : Dev nD) : W11 m c (Proc.devRef .tc main_arg0) = m ((c : Thread nD τ).loc main_arg0) :=
  W11_of_untouched m c main_arg0 (by decide) (by decide) (by decide) (by decide) (by decide) (by decide) (by decide) (by decide) (by decide) (by decide) (by decide)
theorem W11_main_arg1 (c : Dev nD) : W11 m c (Proc.devRef .tc main_arg1) = m ((c : Thread nD τ).loc main_arg1) :=
  W11_of_untouched m c main_arg1 (by decide) (by decide) (by decide) (by decide) (by decide) (by decide) (by decide) (by decide) (by decide) (by decide) (by decide)
theorem W11_main_arg2 (c : Dev nD) : W11 m c (Proc.devRef .tc main_arg2) = m ((c : Thread nD τ).loc main_arg2) :=
  W11_of_untouched m c main_arg2 (by decide) (by decide) (by decide) (by decide) (by decide) (by decide) (by decide) (by decide) (by decide) (by decide) (by decide)
theorem W11_main_arg3 (c : Dev nD) : W11 m c (Proc.devRef .tc main_arg3) = m ((c : Thread nD τ).loc main_arg3) :=
  W11_of_untouched m c main_arg3 (by decide) (by decide) (by decide) (by decide) (by decide) (by decide) (by decide) (by decide) (by decide) (by decide) (by decide)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c)⟩) (run_all m ρ)

end Cert.Kernel.Hand

end
-- ==== Proof.KI.Data.lean ====
/-
  The proof data of the two kernel regions, for any float family F.

  Region 0 sums, over 25 tiles of 4096 items, the products one-hot(item, cluster) * W1(item, d): its 10x64 output buffer is
  zeroed at the first tile and then holds the running sum (acc0).  Region 1 is an online softmax over 50 tiles of 2048
  items for each of two halves of the batch: three scratch buffers carry the running maximum m, the running denominator
  l and the running per-cluster numerators a (Sc, scAt); they are reset at the first tile of a half, and at the last
  tile the output block is the quotient a / l (out1).  Every store of either body overwrites its buffer whole, so what a
  buffer holds after the body is the last payload stored.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0 -/

/-- Window w's block at point t, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The W1 tile and the one-hot tile of point n. -/
abbrev w1blk (c : Dev nD) (n : ℕ) (hn : n < cfg0.N) : Vec F S4096x64 .f32 := iblk0 V c 0 ⟨n, hn⟩
abbrev ohblk0 (c : Dev nD) (n : ℕ) (hn : n < cfg0.N) : Vec F S4096x10 .bf16 := iblk0 V c 1 ⟨n, hn⟩

/-- The output buffer after point n: zero plus the tiles' products up to n. -/
def acc0 (c : Dev nD) : (n : ℕ) → n < cfg0.N → Vec F S10x64 .f32
  | 0, hn => k0_pay2 (w1blk V c 0 hn) (ohblk0 V c 0 hn) (k0_pay1 (F := F))
  | n + 1, hn => k0_pay2 (w1blk V c (n + 1) hn) (ohblk0 V c (n + 1) hn) (acc0 c n (Nat.lt_of_succ_lt hn))

/-- The proof data of pipeline 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## Region 1 -/

/-- Window w's block at point t, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev inblk (c : Dev nD) (n : ℕ) (hn : n < cfg1.N) : Vec F S512x64 .f32 := iblk1 V c 0 ⟨n, hn⟩
abbrev w2blk (c : Dev nD) (n : ℕ) (hn : n < cfg1.N) : Vec F S64x2048 .f32 := iblk1 V c 1 ⟨n, hn⟩
abbrev ohblk1 (c : Dev nD) (n : ℕ) (hn : n < cfg1.N) : Vec F S2048x10 .bf16 := iblk1 V c 2 ⟨n, hn⟩
abbrev mkblk (c : Dev nD) (n : ℕ) (hn : n < cfg1.N) : Vec F S1x2048 .f32 := iblk1 V c 3 ⟨n, hn⟩

/-- The three carried scratch buffers: running maximum, running denominator, running numerators. -/
structure Sc (F : FTy → Type) [FloatOps F] where
  m : Vec F S512x1 .f32
  l : Vec F S512x1 .f32
  a : Vec F S512x10 .f32

/-- The scratch as the first tile of a half resets it. -/
def sc0 : Sc F := ⟨k1_pay4 (F := F), k1_pay5 (F := F), k1_pay6 (F := F)⟩

/-- One tile's update of the scratch, from the tile's four input blocks. -/
def step1 (x3 : Vec F S512x64 .f32) (x6 : Vec F S64x2048 .f32) (x32 : Vec F S2048x10 .bf16) (x20 : Vec F S1x2048 .f32) (s : Sc F) : Sc F :=
  ⟨k1_pay2 (k1_pay8 x3 x6 s.m), k1_pay11 x3 x6 s.m s.m x20 s.l,
   k1_pay1 (k1_pay9 x3 x6 s.m s.m) (k1_pay12 x32) (k1_pay13 x3 x6 s.m x20) s.a⟩

/-- The scratch after point n. -/
def scAt (c : Dev nD) : (n : ℕ) → n < cfg1.N → Sc F
  | 0, hn => step1 (inblk V c 0 hn) (w2blk V c 0 hn) (ohblk1 V c 0 hn) (mkblk V c 0 hn) sc0
  | n + 1, hn => step1 (inblk V c (n + 1) hn) (w2blk V c (n + 1) hn) (ohblk1 V c (n + 1) hn) (mkblk V c (n + 1) hn)
      (if (n + 1) % 50 = 0 then sc0 else scAt c n (Nat.lt_of_succ_lt hn))

/-- What the last tile of a half stores into the output block. -/
def out1 (c : Dev nD) (t : Fin cfg1.N) : Vec F S512x10 .f32 :=
  k1_pay3 (scAt V c t.val t.isLt).a (scAt V c t.val t.isLt).l

abbrev scM0 : Memref sig .tc .vmem S512x1 .f32 := Memref.whole cc1_scratch0
abbrev scM1 : Memref sig .tc .vmem S512x1 .f32 := Memref.whole cc1_scratch1
abbrev scM2 : Memref sig .tc .vmem S512x10 .f32 := Memref.whole cc1_scratch2

/-- Region 1's invariant before position n: before the first point the class invariant (every scoped buffer that is no
    staging buffer of this pipeline at anything, the generator register at some state); afterwards region 0's five staging
    buffers at anything, the three scratch buffers at what the point before left, and the generator register. -/
def Phi1 (c : Dev nD) : (n : ℕ) → n ≤ cfg1.N → sProp 𝕄
  | 0, _ => Pipeline.ΦA spec1 c
  | n + 1, hn => iprop(
      ((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ owns (c : Thread nD τ) scM0 fullShare (scAt V c n hn).m
        ∗ owns (c : Thread nD τ) scM1 fullShare (scAt V c n hn).l
        ∗ owns (c : Thread nD τ) scM2 fullShare (scAt V c n hn).a)
      ∗ (∃ r, prngReg c r))

/-- The proof data of pipeline 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.KernelIdeal.Hand

end
-- ==== Proof.KI.Fold.lean ====
/-
  The contents of the TensorCore's unscoped buffers at each boundary of the program: the launch memory folded through the
  host stretches, each kernel region replacing its arrays by what its pipeline leaves in them.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Data
import Idealize.ShloMosaic.Lib.Pipeline.FrameSuffix
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's unscoped buffers at launch, -/
abbrev W0 : Dev nD → Valuation τ sig (Elt F) := fun c b => m (c, b)
/-- and after each of the seven host stretches before region 0 (the sentinel constant; the padded cluster ids; the one-hot
    table; the padded W1; a constant; the padded W2; the tail mask and the cluster counts). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
/-- Region 0's entry contents. -/
def W7 : Dev nD → Valuation τ sig (Elt F) := fun c => StableHlo.after hostOps0_6 (W6 m c)
abbrev V7 : (c : Dev nD) → (b : Ref sig .tc) → Buf (Elt F) ((c : Thread nD τ).loc b) := fun c b => W7 m c b
/-- Region 0's exit contents: its arrays at what the pipeline leaves, every other buffer as entered. -/
def W8 (c : Dev nD) : Valuation τ sig (Elt F) :=
  Pipeline.withArrays spec0 c (W7 m c) fun w => (dat0 (V7 m) c).arrAt w cfg0.N
abbrev V8 : (c : Dev nD) → (b : Ref sig .tc) → Buf (Elt F) ((c : Thread nD τ).loc b) := fun c b => W8 m c b
/-- Region 1's entry contents: the small matrix product input_array x (the cluster sums of W1) has run. -/
def W9 : Dev nD → Valuation τ sig (Elt F) := fun c => StableHlo.after hostOps1 (W8 m c)
abbrev V9 : (c : Dev nD) → (b : Ref sig .tc) → Buf (Elt F) ((c : Thread nD τ).loc b) := fun c b => W9 m c b
/-- Region 1's exit contents. -/
def W10 (c : Dev nD) : Valuation τ sig (Elt F) :=
  Pipeline.withArrays spec1 c (W9 m c) fun w => (dat1 (V9 m) c).arrAt w cfg1.N
abbrev V10 : (c : Dev nD) → (b : Ref sig .tc) → Buf (Elt F) ((c : Thread nD τ).loc b) := fun c b => W10 m c b
/-- The contents at the return: the division by the clamped counts has run. -/
def W11 : Dev nD → Valuation τ sig (Elt F) := fun c => StableHlo.after hostOps2 (W10 m c)

end Cert.KernelIdeal.Hand

end
-- ==== Proof.KI.Body0.lean ====
/-
  Region 0's body obligation: at every point the kernel body, handed the W1 tile, the one-hot tile and the output buffer
  as the point before left it, leaves the output buffer at the running sum.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Data
import Idealize.ShloMosaic.Lib.Tactic
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each staging buffer holds when the body is called -/

/-- The W1 window is fetched at every point, so its buffer holds the array's block there. -/
theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl

/-- The one-hot window is fetched at every point, so its buffer holds the array's block there. -/
theorem before0_1 (c : Dev nD) (t : Fin cfg0.N) (d) : (dat0 V c).before 1 t d = iblk0 V c 1 t := by
  rw [(dat0 V c).before_fetched 1 t (fetch0_1 t) d]
  unfold Dat.fetched Dat.blockOf iblk0
  rw [A_eq0]
  rfl

/-- The output window is written back at the last point only: no point before the last is followed by a write-back. -/
theorem flush0_2_pred (t : Fin cfg0.N) (ht : t.val ≠ 0) :
    (cfg0.win 2).flush ⟨t.val - 1, Nat.lt_of_le_of_lt (Nat.sub_le _ _) t.isLt⟩ = false := by
  have hN : t.val < 25 := lt_of_lt_of_eq t.isLt (show cfg0.N = 25 from N_0)
  cases h : (cfg0.win 2).flush ⟨t.val - 1, Nat.lt_of_le_of_lt (Nat.sub_le _ _) t.isLt⟩ with
  | false => rfl
  | true =>
    have h24 := (flush0_2 _).mp h
    simp only at h24
    omega

/-- After the first point the output buffer holds the running sum the point before left: the buffer is the
    window's only one, its index map is constant, and nothing is written back in between. -/
theorem before0_2 (c : Dev nD) (t : Fin cfg0.N) (ht : t.val ≠ 0) (d) :
    (dat0 V c).before 2 t d = acc0 V c (t.val - 1) (Nat.lt_of_le_of_lt (Nat.sub_le _ _) t.isLt) := by
  rw [(dat0 V c).before_out_kept 2 rfl t ht (flush0_2_pred t ht) (fun _ => rfl) (fun _ _ => rfl) d, after0_2]

/-! ## The running sum, point by point -/

/-- At the first point the sum is the first tile's product added to zero. -/
theorem acc0_first (c : Dev nD) (t : Fin cfg0.N) (h0 : t.val = 0) :
    acc0 V c t.val t.isLt = k0_pay2 (w1blk V c t.val t.isLt) (ohblk0 V c t.val t.isLt) (k0_pay1 (F := F)) := by
  obtain ⟨n, hn⟩ := t
  cases n with
  | zero => rfl
  | succ n => exact absurd h0 (Nat.succ_ne_zero n)

/-- At a later point it is the tile's product added to the sum the point before left. -/
theorem acc0_later (c : Dev nD) (t : Fin cfg0.N) (h0 : t.val ≠ 0) :
    acc0 V c t.val t.isLt = k0_pay2 (w1blk V c t.val t.isLt) (ohblk0 V c t.val t.isLt)
      (acc0 V c (t.val - 1) (Nat.lt_of_le_of_lt (Nat.sub_le _ _) t.isLt)) := by
  obtain ⟨n, hn⟩ := t
  cases n with
  | zero => exact absurd rfl h0
  | succ n => rfl

/-! ## The body's one branch: is this the first tile? -/

/-- The condition of the body's conditional, read off the grid coordinate. -/
abbrev isFirst0 (i : grid0.Coords) : Prop :=
  Scalar.cmpi .ne (Scalar.extui (Scalar.cmpi .eq (BitVec.ofNat 32 (i 0).val) 0#32)) 0#32 = 1#1

/-- It holds at point 0 and nowhere else (25 points, each decided). -/
theorem isFirst0_iff : ∀ t : Fin cfg0.N, isFirst0 (grid0.coords t) ↔ t.val = 0 :=
  (by decide +kernel : ∀ t : Fin grid0.N, isFirst0 (grid0.coords t) ↔ t.val = 0)

/-! ## The body on whole buffers -/

/-- A pair of zero offsets, as the accesses spell it, is the zero offset. -/
theorem zeros2_r0 : (![0, 0] : Fin 2 → ℕ) = fun _ => 0 := by
  funext a; fin_cases a <;> rfl

set_option maxHeartbeats 1000000 in
/-- At the first tile: whatever the output buffer held, the body zeroes it, reads the zeros back and stores the
    tile's product added to them. Every access is to a whole buffer, so the last store alone decides what is left. -/
theorem sound_kernel0_first (c : Dev nD) (E : Set ℕ) (i : grid0.Coords) (hi : isFirst0 i)
    (arg1 : Memref sig .tc .vmem S4096x64 .f32) (harg1 : arg1.IsWhole)
    (arg2 : Memref sig .tc .vmem S4096x10 .bf16) (harg2 : arg2.IsWhole)
    (arg3 : Memref sig .tc .vmem S10x64 .f32) (harg3 : arg3.IsWhole)
    (x0 : Vec F S4096x64 .f32) (x1 : Vec F S4096x10 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay2 x0 x1 (k0_pay1 (F := F)))) -∗ K ⟨⟩))
      ⊢ wp frame (wpE (defs₀ (F := F)) Variants.none c none) E (cc0__w1csum_kernel i arg1 harg1 arg2 harg2 arg3 harg3) K := by
  simp only [cc0__w1csum_kernel_eq_skeleton]; unfold cc0__w1csum_kernel_skel
  unfold owns
  iintro ⟨⟨%f1, %hf1, H1⟩, ⟨%f2, %hf2, H2⟩, ⟨%d3, %f3, -, H3⟩, Hk⟩
  obtain rfl := harg1.eq_unread hf1
  obtain rfl := harg2.eq_unread hf2
  sl_exec (disch := first | sl_exact hi)
  sl_step
  iapply Hk
  isplitl [H1]
  · iexists _; isplitr
    · ipureintro; exact hf1
    iexact H1
  isplitl [H2]
  · iexists _; isplitr
    · ipureintro; exact hf2
    iexact H2
  iexists _; isplitr
  swap
  · iexact H3
  ipureintro
  rw [View.read_writes_eq_canon _ _ _ (fun y => ⟨_, List.mem_cons.mpr (Or.inl rfl),
    View.mem_set_unit_zero zeros2_r0 inb_S10x64_S10x64_0_0 y⟩)]
  sl_unfold_words
  rw [View.canon_cons_unit_zero (S := S10x64) zeros2_r0]
  simp only [View.readAt_eq_ld, hf1, hf2, View.ld_unit_zero (S := S4096x64) zeros2_r0,
    View.ld_unit_zero (S := S4096x10) zeros2_r0, View.readCov_unit_zero (S := S10x64) _ zeros2_r0]

set_option maxHeartbeats 1000000 in
/-- At a later tile: the body reads the output buffer and stores the tile's product added to what it read. -/
theorem sound_kernel0_later (c : Dev nD) (E : Set ℕ) (i : grid0.Coords) (hi : ¬isFirst0 i)
    (arg1 : Memref sig .tc .vmem S4096x64 .f32) (harg1 : arg1.IsWhole)
    (arg2 : Memref sig .tc .vmem S4096x10 .bf16) (harg2 : arg2.IsWhole)
    (arg3 : Memref sig .tc .vmem S10x64 .f32) (harg3 : arg3.IsWhole)
    (x0 : Vec F S4096x64 .f32) (x1 : Vec F S4096x10 .bf16) (p : Vec F S10x64 .f32) (K : PUnit → sProp 𝕄) :
    iprop(owns (c : Thread nD τ) arg1 fullShare x0 ∗ owns (c : Thread nD τ) arg2 fullShare x1
        ∗ owns (c : Thread nD τ) arg3 fullShare p
        ∗ (iprop(owns (c : Thread nD τ) arg1 fullShare x0 ∗ owns (c : Thread nD τ) arg2 fullShare x1
            ∗ owns (c : Thread nD τ) arg3 fullShare (k0_pay2 x0 x1 p)) -∗ K ⟨⟩))
      ⊢ wp frame (wpE (defs₀ (F := F)) Variants.none c none) E (cc0__w1csum_kernel i arg1 harg1 arg2 harg2 arg3 harg3) K := by
  simp only [cc0__w1csum_kernel_eq_skeleton]; unfold cc0__w1csum_kernel_skel
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  sl_exec (disch := first | sl_exact hi)
  sl_step
  iapply Hk
  isplitl [H1]
  · iexists _; isplitr
    · ipureintro; exact hf1
    iexact H1
  isplitl [H2]
  · iexists _; isplitr
    · ipureintro; exact hf2
    iexact H2
  iexists _; isplitr
  swap
  · iexact H3
  ipureintro
  rw [View.read_writes_eq_canon _ _ _ (fun y => ⟨_, List.mem_cons.mpr (Or.inl rfl),
    View.mem_set_unit_zero zeros2_r0 inb_S10x64_S10x64_0_0 y⟩)]
  rw [View.canon_unit_zero (S := S10x64) zeros2_r0]
  simp only [View.readAt_eq_ld, hf1, hf2, hf3, View.ld_unit_zero (S := S4096x64) zeros2_r0,
    View.ld_unit_zero (S := S4096x10) zeros2_r0, View.ld_unit_zero (S := S10x64) zeros2_r0]

/-! ## The body at a grid point -/

set_option maxHeartbeats 1000000 in
/-- The body as the pipeline calls it at point t: the two input buffers hold their blocks; at the first point the
    output buffer holds anything and is reset, at a later one it holds the sum the point before left. The class
    invariant and what the core owes pass through unread. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [acc0_first V c t h0]
    iintro ⟨HΦ, Ho, ⟨%d0, H0⟩, ⟨%d1, H1⟩, ⟨%d2, H2⟩⟩
    iapply (sound_kernel0_first c Set.univ (grid0.coords t) ((isFirst0_iff t).mpr h0) _ _ _ _ _ _
      (w1blk V c t.val t.isLt) (ohblk0 V c t.val t.isLt) _)
    isplitl [H0]
    · iexact H0
    isplitl [H1]
    · iexact H1
    isplitl [H2]
    · iexists _; iexact H2
    iintro ⟨H0, H1, H2⟩
    isplitl [HΦ]
    · iexact HΦ
    isplitl [Ho]
    · iexact Ho
    isplitl [H0]
    · iexact H0
    isplitl [H1]
    · iexact H1
    iexact H2
  · rw [acc0_later V c t h0]
    simp only [before0_2 V c t h0]
    iintro ⟨HΦ, Ho, ⟨%d0, H0⟩, ⟨%d1, H1⟩, ⟨%d2, H2⟩⟩
    iapply (sound_kernel0_later c Set.univ (grid0.coords t) (fun h => h0 ((isFirst0_iff t).mp h)) _ _ _ _ _ _
      (w1blk V c t.val t.isLt) (ohblk0 V c t.val t.isLt)
      (acc0 V c (t.val - 1) (Nat.lt_of_le_of_lt (Nat.sub_le _ _) t.isLt)) _)
    isplitl [H0]
    · iexact H0
    isplitl [H1]
    · iexact H1
    isplitl [H2]
    · iexact H2
    iintro ⟨H0, H1, H2⟩
    isplitl [HΦ]
    · iexact HΦ
    isplitl [Ho]
    · iexact Ho
    isplitl [H0]
    · iexact H0
    isplitl [H1]
    · iexact H1
    iexact H2

/-! ## The obligation -/

theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Body1.lean ====
/-
  Region 1's body obligation: at every point the kernel body, handed the tile's four input blocks and the three scratch
  buffers as the point before left them (reset at the first tile of a half), leaves the scratch at the online-softmax
  update and, at the last tile of a half, the output block at numerators over denominator.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Data
import Idealize.ShloMosaic.Lib.Tactic
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions, in closed form over the grid -/

/-- The first conditional of the body: the tile coordinate is zero. -/
abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 50 = 0 :=
  (by decide +kernel : ∀ t : Fin grid1.N, cond1_0 (grid1.coords t) ↔ t.val % 50 = 0)

/-- The second conditional: the tile coordinate is 49. -/
abbrev cond1_1 (i : grid1.Coords) : Prop := k1_cond2 i = 1#1

theorem hcond1_1 : ∀ t : Fin cfg1.N, cond1_1 (grid1.coords t) ↔ t.val % 50 = 49 :=
  (by decide +kernel : ∀ t : Fin grid1.N, cond1_1 (grid1.coords t) ↔ t.val % 50 = 49)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬ t.val % 50 = 49 → cfg1.idle 4 (grid1.coords t) = true := by decide +kernel
theorem liveAt1_4 : ∀ t : Fin cfg1.N, t.val % 50 = 49 → cfg1.idle 4 (grid1.coords t) = false := by decide +kernel
theorem noFlush1_4 : ∀ t : Fin cfg1.N, ¬ t.val % 50 = 49 → (cfg1.win 4).flush t = false := by decide +kernel

/-! ## What the body finds in the input windows' buffers -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The zero offsets of a rank-2 whole-buffer rectangle. -/
theorem hz2 : (![0, 0] : Fin 2 → Nat) = fun _ => 0 := funext fun a => by fin_cases a <;> rfl

/-! ## The body's three control cases -/

set_option maxHeartbeats 1000000 in
/-- The body at the first tile of a half (the tile coordinate is 0, not 49), on whole memrefs: the four input buffers at
    their blocks, the output buffer at contents it hands back untouched, the three scratch buffers at anything. The reset
    stores overwrite each scratch buffer whole, the loads after them read the reset values back, and the last whole-buffer
    store into each scratch buffer leaves the update of the reset values. -/
theorem run1_A (c : Dev nD) (i : grid1.Coords)
    (arg2 : Memref sig .tc .vmem S512x64 .f32) (harg2 : arg2.IsWhole) (arg3 : Memref sig .tc .vmem S64x2048 .f32) (harg3 : arg3.IsWhole)
    (arg4 : Memref sig .tc .vmem S2048x10 .bf16) (harg4 : arg4.IsWhole) (arg5 : Memref sig .tc .vmem S1x2048 .f32) (harg5 : arg5.IsWhole)
    (arg6 : Memref sig .tc .vmem S512x10 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x10 .f32) (harg9 : arg9.IsWhole)
    (hc0 : cond1_0 i) (hc1 : ¬cond1_1 i)
    (x0 : Vec F S512x64 .f32) (x1 : Vec F S64x2048 .f32) (x2 : Vec F S2048x10 .bf16) (x3 : Vec F S1x2048 .f32)
    (xo : Vec F S512x10 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (step1 x0 x1 x2 x3 (sc0 (F := F))).m ∗ owns (c : Thread nD τ) arg8 fullShare (step1 x0 x1 x2 x3 (sc0 (F := F))).l
            ∗ owns (c : Thread nD τ) arg9 fullShare (step1 x0 x1 x2 x3 (sc0 (F := F))).a) -∗ K ⟨⟩))
      ⊢ wp frame (wpE (defs₀ (F := F)) Variants.none c none) E (cc1__flash_cluster_kernel i arg2 harg2 arg3 harg3 arg4 harg4 arg5 harg5 arg6 harg6 arg7 harg7 arg8 harg8 arg9 harg9) K := by
  simp only [cc1__flash_cluster_kernel_eq_skeleton, k1_part1_eq_skeleton]; unfold cc1__flash_cluster_kernel_skel
  unfold owns
  iintro ⟨⟨%f0, %hf0, H0⟩, ⟨%f1, %hf1, H1⟩, ⟨%f2, %hf2, H2⟩, ⟨%f3, %hf3, H3⟩, ⟨%fo, %hfo, Ho⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact hfo
    iexact Ho
  isplitl [HS0]
  · iexists _; isplitr; swap; · iexact HS0
    ipureintro
    sl_unfold_run_names
    rw [View.read_writes_eq_canon _ _ _ (fun y => ⟨_, List.mem_cons_self .., View.mem_set_unit_zero hz2 inb_S512x1_S512x1_0_0 y⟩)]
    rw [View.canon_cons_unit_zero (S := S512x1) hz2]
    simp only [View.readAt_eq_ld, harg2.read_unread, harg3.read_unread, harg4.read_unread, harg5.read_unread,
      View.readCov_unit_zero (S := S512x1) _ hz2, View.readCov_unit_zero (S := S512x10) _ hz2,
      View.ld_unit_zero (S := S512x64) hz2, View.ld_unit_zero (S := S64x2048) hz2, View.ld_unit_zero (S := S1x2048) hz2,
      View.ld_unit_zero (S := S2048x10) hz2]
    rfl
  isplitl [HS1]
  · iexists _; isplitr; swap; · iexact HS1
    ipureintro
    sl_unfold_run_names
    rw [View.read_writes_eq_canon _ _ _ (fun y => ⟨_, List.mem_cons_self .., View.mem_set_unit_zero hz2 inb_S512x1_S512x1_0_0 y⟩)]
    rw [View.canon_cons_unit_zero (S := S512x1) hz2]
    simp only [View.readAt_eq_ld, harg2.read_unread, harg3.read_unread, harg4.read_unread, harg5.read_unread,
      View.readCov_unit_zero (S := S512x1) _ hz2, View.readCov_unit_zero (S := S512x10) _ hz2,
      View.ld_unit_zero (S := S512x64) hz2, View.ld_unit_zero (S := S64x2048) hz2, View.ld_unit_zero (S := S1x2048) hz2,
      View.ld_unit_zero (S := S2048x10) hz2]
    rfl
  · iexists _; isplitr; swap; · iexact HS2
    ipureintro
    sl_unfold_run_names
    rw [View.read_writes_eq_canon _ _ _ (fun y => ⟨_, List.mem_cons_self .., View.mem_set_unit_zero hz2 inb_S512x10_S512x10_0_0 y⟩)]
    rw [View.canon_cons_unit_zero (S := S512x10) hz2]
    simp only [View.readAt_eq_ld, harg2.read_unread, harg3.read_unread, harg4.read_unread, harg5.read_unread,
      View.readCov_unit_zero (S := S512x1) _ hz2, View.readCov_unit_zero (S := S512x10) _ hz2,
      View.ld_unit_zero (S := S512x64) hz2, View.ld_unit_zero (S := S64x2048) hz2, View.ld_unit_zero (S := S1x2048) hz2,
      View.ld_unit_zero (S := S2048x10) hz2]
    rfl

set_option maxHeartbeats 1000000 in
/-- The body at a middle tile (the tile coordinate is neither 0 nor 49): the scratch buffers come in at what the point
    before left; each is loaded whole and then overwritten whole by its update; the output buffer is not touched. -/
theorem run1_B (c : Dev nD) (i : grid1.Coords)
    (arg2 : Memref sig .tc .vmem S512x64 .f32) (harg2 : arg2.IsWhole) (arg3 : Memref sig .tc .vmem S64x2048 .f32) (harg3 : arg3.IsWhole)
    (arg4 : Memref sig .tc .vmem S2048x10 .bf16) (harg4 : arg4.IsWhole) (arg5 : Memref sig .tc .vmem S1x2048 .f32) (harg5 : arg5.IsWhole)
    (arg6 : Memref sig .tc .vmem S512x10 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x10 .f32) (harg9 : arg9.IsWhole)
    (hc0 : ¬cond1_0 i) (hc1 : ¬cond1_1 i)
    (x0 : Vec F S512x64 .f32) (x1 : Vec F S64x2048 .f32) (x2 : Vec F S2048x10 .bf16) (x3 : Vec F S1x2048 .f32)
    (xo : Vec F S512x10 .f32) (s : Sc F) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
        ∗ owns (c : Thread nD τ) arg7 fullShare s.m ∗ owns (c : Thread nD τ) arg8 fullShare s.l ∗ owns (c : Thread nD τ) arg9 fullShare s.a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (step1 x0 x1 x2 x3 s).m ∗ owns (c : Thread nD τ) arg8 fullShare (step1 x0 x1 x2 x3 s).l
            ∗ owns (c : Thread nD τ) arg9 fullShare (step1 x0 x1 x2 x3 s).a) -∗ K ⟨⟩))
      ⊢ wp frame (wpE (defs₀ (F := F)) Variants.none c none) E (cc1__flash_cluster_kernel i arg2 harg2 arg3 harg3 arg4 harg4 arg5 harg5 arg6 harg6 arg7 harg7 arg8 harg8 arg9 harg9) K := by
  simp only [cc1__flash_cluster_kernel_eq_skeleton, k1_part1_eq_skeleton]; unfold cc1__flash_cluster_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact hfo
    iexact Ho
  isplitl [HS0]
  · iexists _; isplitr; swap; · iexact HS0
    ipureintro
    sl_unfold_run_names
    rw [View.read_writes_eq_canon _ _ _ (fun y => ⟨_, List.mem_singleton_self _, View.mem_set_unit_zero hz2 inb_S512x1_S512x1_0_0 y⟩)]
    rw [View.canon_unit_zero hz2]
    simp only [View.readAt_eq_ld, harg2.read_unread, harg3.read_unread, harg7.read_unread,
      View.ld_unit_zero (S := S512x64) hz2, View.ld_unit_zero (S := S64x2048) hz2, View.ld_unit_zero (S := S512x1) hz2]
    rfl
  isplitl [HS1]
  · iexists _; isplitr; swap; · iexact HS1
    ipureintro
    sl_unfold_run_names
    rw [View.read_writes_eq_canon _ _ _ (fun y => ⟨_, List.mem_singleton_self _, View.mem_set_unit_zero hz2 inb_S512x1_S512x1_0_0 y⟩)]
    rw [View.canon_unit_zero hz2]
    simp only [View.readAt_eq_ld, harg2.read_unread, harg3.read_unread, harg5.read_unread, harg7.read_unread, harg8.read_unread,
      View.ld_unit_zero (S := S512x64) hz2, View.ld_unit_zero (S := S64x2048) hz2, View.ld_unit_zero (S := S512x1) hz2, View.ld_unit_zero (S := S1x2048) hz2]
    rfl
  · iexists _; isplitr; swap; · iexact HS2
    ipureintro
    sl_unfold_run_names
    rw [View.read_writes_eq_canon _ _ _ (fun y => ⟨_, List.mem_singleton_self _, View.mem_set_unit_zero hz2 inb_S512x10_S512x10_0_0 y⟩)]
    rw [View.canon_unit_zero hz2]
    simp only [View.readAt_eq_ld, harg2.read_unread, harg3.read_unread, harg4.read_unread, harg5.read_unread, harg7.read_unread, harg9.read_unread,
      View.ld_unit_zero (S := S512x64) hz2, View.ld_unit_zero (S := S64x2048) hz2, View.ld_unit_zero (S := S512x1) hz2, View.ld_unit_zero (S := S1x2048) hz2,
      View.ld_unit_zero (S := S2048x10) hz2, View.ld_unit_zero (S := S512x10) hz2]
    rfl

set_option maxHeartbeats 1000000 in
/-- The body at the last tile of a half (the tile coordinate is 49): as at a middle tile, and then the numerators and the
    denominator just stored are read back and their quotient is stored over the whole output buffer, which comes in at
    anything. -/
theorem run1_C (c : Dev nD) (i : grid1.Coords)
    (arg2 : Memref sig .tc .vmem S512x64 .f32) (harg2 : arg2.IsWhole) (arg3 : Memref sig .tc .vmem S64x2048 .f32) (harg3 : arg3.IsWhole)
    (arg4 : Memref sig .tc .vmem S2048x10 .bf16) (harg4 : arg4.IsWhole) (arg5 : Memref sig .tc .vmem S1x2048 .f32) (harg5 : arg5.IsWhole)
    (arg6 : Memref sig .tc .vmem S512x10 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x10 .f32) (harg9 : arg9.IsWhole)
    (hc0 : ¬cond1_0 i) (hc1 : cond1_1 i)
    (x0 : Vec F S512x64 .f32) (x1 : Vec F S64x2048 .f32) (x2 : Vec F S2048x10 .bf16) (x3 : Vec F S1x2048 .f32)
    (s : Sc F) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare s.m ∗ owns (c : Thread nD τ) arg8 fullShare s.l ∗ owns (c : Thread nD τ) arg9 fullShare s.a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 (step1 x0 x1 x2 x3 s).a (step1 x0 x1 x2 x3 s).l)
            ∗ owns (c : Thread nD τ) arg7 fullShare (step1 x0 x1 x2 x3 s).m ∗ owns (c : Thread nD τ) arg8 fullShare (step1 x0 x1 x2 x3 s).l
            ∗ owns (c : Thread nD τ) arg9 fullShare (step1 x0 x1 x2 x3 s).a) -∗ K ⟨⟩))
      ⊢ wp frame (wpE (defs₀ (F := F)) Variants.none c none) E (cc1__flash_cluster_kernel i arg2 harg2 arg3 harg3 arg4 harg4 arg5 harg5 arg6 harg6 arg7 harg7 arg8 harg8 arg9 harg9) K := by
  simp only [cc1__flash_cluster_kernel_eq_skeleton, k1_part1_eq_skeleton]; unfold cc1__flash_cluster_kernel_skel
  unfold owns
  iintro ⟨⟨%f0, %hf0, H0⟩, ⟨%f1, %hf1, H1⟩, ⟨%f2, %hf2, H2⟩, ⟨%f3, %hf3, H3⟩, ⟨%d_o, %fo, -, Ho⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; swap; · iexact Ho
    ipureintro
    sl_unfold_run_names
    rw [View.read_writes_eq_canon _ _ _ (fun y => ⟨_, List.mem_singleton_self _, View.mem_set_unit_zero hz2 inb_S512x10_S512x10_0_0 y⟩)]
    rw [View.canon_unit_zero hz2]
    simp only [View.readAt_eq_ld, harg2.read_unread, harg3.read_unread, harg4.read_unread, harg5.read_unread, harg7.read_unread, harg8.read_unread, harg9.read_unread,
      View.readCov_unit_zero (S := S512x1) _ hz2, View.readCov_unit_zero (S := S512x10) _ hz2,
      View.ld_unit_zero (S := S512x64) hz2, View.ld_unit_zero (S := S64x2048) hz2, View.ld_unit_zero (S := S512x1) hz2, View.ld_unit_zero (S := S1x2048) hz2,
      View.ld_unit_zero (S := S2048x10) hz2, View.ld_unit_zero (S := S512x10) hz2]
    rfl
  isplitl [HS0]
  · iexists _; isplitr; swap; · iexact HS0
    ipureintro
    sl_unfold_run_names
    rw [View.read_writes_eq_canon _ _ _ (fun y => ⟨_, List.mem_singleton_self _, View.mem_set_unit_zero hz2 inb_S512x1_S512x1_0_0 y⟩)]
    rw [View.canon_unit_zero hz2]
    simp only [View.readAt_eq_ld, harg2.read_unread, harg3.read_unread, harg4.read_unread, harg5.read_unread, harg7.read_unread, harg8.read_unread, harg9.read_unread,
      View.readCov_unit_zero (S := S512x1) _ hz2, View.readCov_unit_zero (S := S512x10) _ hz2,
      View.ld_unit_zero (S := S512x64) hz2, View.ld_unit_zero (S := S64x2048) hz2, View.ld_unit_zero (S := S512x1) hz2, View.ld_unit_zero (S := S1x2048) hz2,
      View.ld_unit_zero (S := S2048x10) hz2, View.ld_unit_zero (S := S512x10) hz2]
    rfl
  isplitl [HS1]
  · iexists _; isplitr; swap; · iexact HS1
    ipureintro
    sl_unfold_run_names
    rw [View.read_writes_eq_canon _ _ _ (fun y => ⟨_, List.mem_singleton_self _, View.mem_set_unit_zero hz2 inb_S512x1_S512x1_0_0 y⟩)]
    rw [View.canon_unit_zero hz2]
    simp only [View.readAt_eq_ld, harg2.read_unread, harg3.read_unread, harg4.read_unread, harg5.read_unread, harg7.read_unread, harg8.read_unread, harg9.read_unread,
      View.readCov_unit_zero (S := S512x1) _ hz2, View.readCov_unit_zero (S := S512x10) _ hz2,
      View.ld_unit_zero (S := S512x64) hz2, View.ld_unit_zero (S := S64x2048) hz2, View.ld_unit_zero (S := S512x1) hz2, View.ld_unit_zero (S := S1x2048) hz2,
      View.ld_unit_zero (S := S2048x10) hz2, View.ld_unit_zero (S := S512x10) hz2]
    rfl
  · iexists _; isplitr; swap; · iexact HS2
    ipureintro
    sl_unfold_run_names
    rw [View.read_writes_eq_canon _ _ _ (fun y => ⟨_, List.mem_singleton_self _, View.mem_set_unit_zero hz2 inb_S512x10_S512x10_0_0 y⟩)]
    rw [View.canon_unit_zero hz2]
    simp only [View.readAt_eq_ld, harg2.read_unread, harg3.read_unread, harg4.read_unread, harg5.read_unread, harg7.read_unread, harg8.read_unread, harg9.read_unread,
      View.readCov_unit_zero (S := S512x1) _ hz2, View.readCov_unit_zero (S := S512x10) _ hz2,
      View.ld_unit_zero (S := S512x64) hz2, View.ld_unit_zero (S := S64x2048) hz2, View.ld_unit_zero (S := S512x1) hz2, View.ld_unit_zero (S := S1x2048) hz2,
      View.ld_unit_zero (S := S2048x10) hz2, View.ld_unit_zero (S := S512x10) hz2]
    rfl

/-! ## The invariant, position by position -/

/-- The invariant after a point, as a function of what the three scratch buffers hold. -/
def PhiAt (c : Dev nD) (s : Sc F) : sProp 𝕄 := iprop(
      ((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ owns (c : Thread nD τ) scM0 fullShare s.m
        ∗ owns (c : Thread nD τ) scM1 fullShare s.l
        ∗ owns (c : Thread nD τ) scM2 fullShare s.a)
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) : Phi1 V c (n + 1) hn = PhiAt c (scAt V c n hn) := rfl

theorem Phi1_pos (c : Dev nD) (n : ℕ) (h : n ≤ cfg1.N) (hz : n ≠ 0) :
    Phi1 V c n h = PhiAt c (scAt V c (n - 1) (by omega)) := by
  cases n with
  | zero => exact absurd rfl hz
  | succ n => rfl

/-- The class invariant with the three scratch buffers as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ d, owns (c : Thread nD τ) scM0 fullShare d)
        ∗ (∃ d, owns (c : Thread nD τ) scM1 fullShare d)
        ∗ (∃ d, owns (c : Thread nD τ) scM2 fullShare d))
      ∗ (∃ r, prngReg c r)) := by
  unfold Pipeline.ΦA; rw [scopedRest1_eq]; simp only [scM0, scM1, scM2, owns_whole]; try rfl

theorem Phi1_castSucc (c : Dev nD) (t : Fin cfg1.N) :
    (dat1 V c).Φ t.castSucc = Phi1 V c t.val (Nat.le_of_lt t.isLt) := by
  dsimp only [dat1]; simp only [Fin.coe_castSucc]

/-! ## The scratch contents, point by point -/

/-- At the first tile of a half the scratch is the update of the reset values. -/
theorem scAt_reset (c : Dev nD) (t : Fin cfg1.N) (h0 : t.val % 50 = 0) :
    scAt V c t.val t.isLt = step1 (iblk1 V c 0 t) (iblk1 V c 1 t) (iblk1 V c 2 t) (iblk1 V c 3 t) (sc0 (F := F)) := by
  obtain ⟨n, hn⟩ := t
  cases n with
  | zero => rfl
  | succ n =>
    show step1 _ _ _ _ (if (n + 1) % 50 = 0 then sc0 else _) = _
    rw [if_pos h0]

/-- At every other tile it is the update of what the point before left. -/
theorem scAt_step (c : Dev nD) (t : Fin cfg1.N) (h0 : ¬t.val % 50 = 0) :
    scAt V c t.val t.isLt = step1 (iblk1 V c 0 t) (iblk1 V c 1 t) (iblk1 V c 2 t) (iblk1 V c 3 t)
      (scAt V c (t.val - 1) (Nat.lt_of_le_of_lt (Nat.sub_le _ _) t.isLt)) := by
  obtain ⟨n, hn⟩ := t
  cases n with
  | zero => exact absurd (Nat.zero_mod _) h0
  | succ n =>
    show step1 _ _ _ _ (if (n + 1) % 50 = 0 then sc0 else _) = _
    rw [if_neg h0]; rfl

/-! ## The body obligation, at a generic point -/

abbrev ms1_0 (t : Fin cfg1.N) : Memref sig .tc .vmem S512x64 .f32 := win1_0.stage (cfg1.slots t 0)
abbrev ms1_1 (t : Fin cfg1.N) : Memref sig .tc .vmem S64x2048 .f32 := win1_1.stage (cfg1.slots t 1)
abbrev ms1_2 (t : Fin cfg1.N) : Memref sig .tc .vmem S2048x10 .bf16 := win1_2.stage (cfg1.slots t 2)
abbrev ms1_3 (t : Fin cfg1.N) : Memref sig .tc .vmem S1x2048 .f32 := win1_3.stage (cfg1.slots t 3)
abbrev ms1_4 (t : Fin cfg1.N) : Memref sig .tc .vmem S512x10 .f32 := win1_4.stage (cfg1.slots t 4)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the tile's residue mod 50 says which of the three control
    cases the point is in; the invariant hands the body the scratch at what the point before left (at anything before the
    first point) and takes it back at this point's update, which at the first tile of a half starts from the reset values;
    the output buffer is handed back as found except at the last tile of a half, where it holds the quotient. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 100 := lt_of_lt_of_eq t.isLt (show cfg1.N = 100 from N_1)
  by_cases h0 : t.val % 50 = 0
  · have h1 : ¬t.val % 50 = 49 := by omega
    rw [Dat.leavesExact_idle (dat1 V c) 4 t (idleAt1_4 t h1) (noFlush1_4 t h1)]
    rw [scAt_reset V c t h0]
    unfold PhiAt
    by_cases hz : t.val = 0
    · rw [Phi1_castSucc V c t, Phi1_zero V c _ _ hz, PhiA1_eq]
      iintro ⟨⟨⟨G0, G1, G2, G3, G4, HS0, HS1, HS2⟩, Hg⟩, Howe, ⟨%d0, H0⟩, ⟨%d1, H1⟩, ⟨%d2, H2⟩, ⟨%d3, H3⟩, ⟨%d4, H4⟩⟩
      iapply (run1_A c (grid1.coords t) _ _ _ _ _ _ _ _ _ _ _ _ _ _ _ _ ((hcond1_0 t).mpr h0) (fun h => h1 ((hcond1_1 t).mp h))
        (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [G0 G1 G2 G3 G4 HS0 HS1 HS2 Hg]
      · isplitr [Hg]
        · isplitl [G0]; · iexact G0
          isplitl [G1]; · iexact G1
          isplitl [G2]; · iexact G2
          isplitl [G3]; · iexact G3
          isplitl [G4]; · iexact G4
          isplitl [HS0]; · iexact HS0
          isplitl [HS1]; · iexact HS1
          iexact HS2
        · iexact Hg
      isplitl [Howe]; · iexact Howe
      isplitl [H0]; · iexact H0
      isplitl [H1]; · iexact H1
      isplitl [H2]; · iexact H2
      isplitl [H3]; · iexact H3
      iexists d4; iexact H4
    · rw [Phi1_castSucc V c t, Phi1_pos V c _ _ hz]
      unfold PhiAt
      iintro ⟨⟨⟨G0, G1, G2, G3, G4, HS0, HS1, HS2⟩, Hg⟩, Howe, ⟨%d0, H0⟩, ⟨%d1, H1⟩, ⟨%d2, H2⟩, ⟨%d3, H3⟩, ⟨%d4, H4⟩⟩
      iapply (run1_A c (grid1.coords t) _ _ _ _ _ _ _ _ _ _ _ _ _ _ _ _ ((hcond1_0 t).mpr h0) (fun h => h1 ((hcond1_1 t).mp h))
        (iblk1 V c 0 t) (iblk1 V c 1 t) (iblk1 V c 2 t) (iblk1 V c 3 t) ((dat1 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [G0 G1 G2 G3 G4 HS0 HS1 HS2 Hg]
      · isplitr [Hg]
        · isplitl [G0]; · iexact G0
          isplitl [G1]; · iexact G1
          isplitl [G2]; · iexact G2
          isplitl [G3]; · iexact G3
          isplitl [G4]; · iexact G4
          isplitl [HS0]; · iexact HS0
          isplitl [HS1]; · iexact HS1
          iexact HS2
        · iexact Hg
      isplitl [Howe]; · iexact Howe
      isplitl [H0]; · iexact H0
      isplitl [H1]; · iexact H1
      isplitl [H2]; · iexact H2
      isplitl [H3]; · iexact H3
      iexists d4; iexact H4
  · have hz : t.val ≠ 0 := fun hz => h0 (by rw [hz])
    by_cases h1 : t.val % 50 = 49
    · rw [show (dat1 V c).leavesExact 4 t = owns (c : Thread nD τ) (ms1_4 t) fullShare ((dat1 V c).after 4 t) from by
        unfold Dat.leavesExact; rw [liveAt1_4 t h1], after1_4]
      unfold out1
      rw [scAt_step V c t h0]
      rw [Phi1_castSucc V c t, Phi1_pos V c _ _ hz]
      unfold PhiAt
      iintro ⟨⟨⟨G0, G1, G2, G3, G4, HS0, HS1, HS2⟩, Hg⟩, Howe, ⟨%d0, H0⟩, ⟨%d1, H1⟩, ⟨%d2, H2⟩, ⟨%d3, H3⟩, ⟨%d4, H4⟩⟩
      iapply (run1_C c (grid1.coords t) _ _ _ _ _ _ _ _ _ _ _ _ _ _ _ _ (fun h => h0 ((hcond1_0 t).mp h)) ((hcond1_1 t).mpr h1)
        (iblk1 V c 0 t) (iblk1 V c 1 t) (iblk1 V c 2 t) (iblk1 V c 3 t) (scAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [G0 G1 G2 G3 G4 HS0 HS1 HS2 Hg]
      · isplitr [Hg]
        · isplitl [G0]; · iexact G0
          isplitl [G1]; · iexact G1
          isplitl [G2]; · iexact G2
          isplitl [G3]; · iexact G3
          isplitl [G4]; · iexact G4
          isplitl [HS0]; · iexact HS0
          isplitl [HS1]; · iexact HS1
          iexact HS2
        · iexact Hg
      isplitl [Howe]; · iexact Howe
      isplitl [H0]; · iexact H0
      isplitl [H1]; · iexact H1
      isplitl [H2]; · iexact H2
      isplitl [H3]; · iexact H3
      iexact H4
    · rw [Dat.leavesExact_idle (dat1 V c) 4 t (idleAt1_4 t h1) (noFlush1_4 t h1)]
      rw [scAt_step V c t h0]
      rw [Phi1_castSucc V c t, Phi1_pos V c _ _ hz]
      unfold PhiAt
      iintro ⟨⟨⟨G0, G1, G2, G3, G4, HS0, HS1, HS2⟩, Hg⟩, Howe, ⟨%d0, H0⟩, ⟨%d1, H1⟩, ⟨%d2, H2⟩, ⟨%d3, H3⟩, ⟨%d4, H4⟩⟩
      iapply (run1_B c (grid1.coords t) _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) ((dat1 V c).before 4 t d4) (scAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [G0 G1 G2 G3 G4 HS0 HS1 HS2 Hg]
      · isplitr [Hg]
        · isplitl [G0]; · iexact G0
          isplitl [G1]; · iexact G1
          isplitl [G2]; · iexact G2
          isplitl [G3]; · iexact G3
          isplitl [G4]; · iexact G4
          isplitl [HS0]; · iexact HS0
          isplitl [HS1]; · iexact HS1
          iexact HS2
        · iexact Hg
      isplitl [Howe]; · iexact Howe
      isplitl [H0]; · iexact H0
      isplitl [H1]; · iexact H1
      isplitl [H2]; · iexact H2
      isplitl [H3]; · iexact H3
      iexists d4; iexact H4

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the region's entry hands the pipeline is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class invariant back: the scratch contents are forgotten. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 100 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  unfold PhiAt
  iintro ⟨⟨G0, G1, G2, G3, G4, HS0, HS1, HS2⟩, Hg⟩
  isplitr [Hg]
  · isplitl [G0]; · iexact G0
    isplitl [G1]; · iexact G1
    isplitl [G2]; · iexact G2
    isplitl [G3]; · iexact G3
    isplitl [G4]; · iexact G4
    isplitl [HS0]; · iexists _; iexact HS0
    isplitl [HS1]; · iexists _; iexact HS1
    iexists _; iexact HS2
  · iexact Hg

end Cert.KernelIdeal.Hand

end
-- ==== Proof.KI.Run.lean ====
/-
  The run of the whole program, for any float family: its eleven items (seven host stretches, region 0, a host stretch,
  region 1, a host stretch) in order, every unscoped buffer read back at the end at the fold W11 of the launch memory.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Fold
import proofs.«428240_j80616536146381_2_alg».proof.Proof.KI.Body0
import proofs.«428240_j80616536146381_2_alg».proof.Proof.KI.Body1
import proofs.«428240_j80616536146381_2_alg».proof.Proof.Gen.KernelIdeal.Regions
import Idealize.ShloMosaic.Lib.Pipeline.Regions
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the two regions leave

A region replaces its windows' arrays by what its pipeline leaves in them and touches no other unscoped buffer. -/

theorem W8_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
theorem hF0 (c : Dev nD) (w : Fin cfg0.W) : (dat0 (V7 m) c).arrAt w cfg0.N = V8 m c (Pipeline.arrRef spec0 w) :=
  (W8_arr m c w).symm
theorem hrest0 (c : Dev nD) : ∀ b, b ∉ Finset.univ.image (Pipeline.arrRef spec0) → V8 m c b = V7 m c b :=
  fun b hb => W8_of_ne m c b fun w e => hb (Finset.mem_image.mpr ⟨w, Finset.mem_univ _, e⟩)

theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
theorem hF1 (c : Dev nD) (w : Fin cfg1.W) : (dat1 (V9 m) c).arrAt w cfg1.N = V10 m c (Pipeline.arrRef spec1 w) :=
  (W10_arr m c w).symm
theorem hrest1 (c : Dev nD) : ∀ b, b ∉ Finset.univ.image (Pipeline.arrRef spec1) → V10 m c b = V9 m c b :=
  fun b hb => W10_of_ne m c b fun w e => hb (Finset.mem_image.mpr ⟨w, Finset.mem_univ _, e⟩)

/-- A buffer that no host stretch writes and that is no window's array of either region ends as launched. -/
theorem W11_of_untouched (c : Dev nD) (b : Ref sig .tc)
    (h0 : b ∉ hostOps0_W) (h1 : b ∉ hostOps0_1_W) (h2 : b ∉ hostOps0_2_W) (h3 : b ∉ hostOps0_3_W)
    (h4 : b ∉ hostOps0_4_W) (h5 : b ∉ hostOps0_5_W) (h6 : b ∉ hostOps0_6_W)
    (hr0 : ∀ w, Pipeline.arrRef spec0 w ≠ b) (h8 : b ∉ hostOps1_W)
    (hr1 : ∀ w, Pipeline.arrRef spec1 w ≠ b) (h10 : b ∉ hostOps2_W) :
    W11 m c (Proc.devRef .tc b) = m ((c : Thread nD τ).loc b) :=
  calc W11 m c (Proc.devRef .tc b)
    _ = W10 m c (Proc.devRef .tc b) := StableHlo.after_of_writes_sub hostOps2 _ hostOps2_writes h10
    _ = W9 m c (Proc.devRef .tc b) := W10_of_ne m c b hr1
    _ = W8 m c (Proc.devRef .tc b) := StableHlo.after_of_writes_sub hostOps1 _ hostOps1_writes h8
    _ = W7 m c (Proc.devRef .tc b) := W8_of_ne m c b hr0
    _ = W6 m c (Proc.devRef .tc b) := StableHlo.after_of_writes_sub hostOps0_6 _ hostOps0_6_writes h6
    _ = W5 m c (Proc.devRef .tc b) := StableHlo.after_of_writes_sub hostOps0_5 _ hostOps0_5_writes h5
    _ = W4 m c (Proc.devRef .tc b) := StableHlo.after_of_writes_sub hostOps0_4 _ hostOps0_4_writes h4
    _ = W3 m c (Proc.devRef .tc b) := StableHlo.after_of_writes_sub hostOps0_3 _ hostOps0_3_writes h3
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V7 m) c
  | ⟨1, _⟩ => fun c => dat1 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing
    nothing. -/
abbrev R (c : Dev nD) : sProp 𝕄 := iprop((∃ r, prngReg c r) ∗ ∃ W, owes (c : Thread nD τ) (0 : CellTallies nD τ sig Unit) W)
/-- A host stretch over the unscoped buffers from the contents W: it runs to those buffers at the stretch's fold of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state beside the core owing nothing: every unscoped buffer at the last fold, the generator register
    at some state. -/
abbrev Tₙ (c : Dev nD) : sProp 𝕄 := iprop(StableHlo.held (c : Thread nD τ) (Pipeline.ucRefs τ sig) (W11 m c) ∗ ∃ r, prngReg c r)

/-! ## The regions -/

set_option backward.isDefEq.respectTransparency.types false in
/-- Region 0, entered from every unscoped buffer at W7 and left at W8: its arrays are split out of the unscoped buffers
    and put back at the exit contents; the generator register goes into the class invariant and comes out; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (V7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V7 m c) (V8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class invariant of region 1 from the generator register and the scoped buffers no window stages, -/
theorem ΦA1_in (c : Dev nD) :
    iprop((∃ r, prngReg c r) ∗ Pipeline.prefHeld (pcfgs (F := F) 1).pre c (fun _ => fullShare) (adm (F := F) 1).1
      ∗ Pipeline.scopedRest spec1 c) ⊢ (Pipeline.ΦA spec1 c : sProp 𝕄) := by
  unfold Pipeline.ΦA
  iintro ⟨Hp, -, Hr⟩
  isplitl [Hr]; · iexact Hr
  iexact Hp
/-- and back. -/
theorem ΦA1_out (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- Region 1, entered from every unscoped buffer at W9 and left at W10. Its invariant before the first point is the
    class invariant, and after the last point gives it back, the scratch contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA1_in c).trans (hin1 (V9 m) c)
  hout c := by
    rw [Pipeline.ownSems0_none]
    exact (hout1 (V9 m) c).trans (ΦA1_out c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its eleven items, and the launch -/

/-- The eleven items in order: a host stretch from its boundary's contents, or a region. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .region (reg1 m),
    .host (hseg hostOps2 hostOps2_sub hostOps2_fresh (W10 m)) ]

/-- The program is the run of its items. -/
theorem main_run (c : Dev nD) : main (F := F) c = Pipeline.Seg.run (segs m) := by
  rw [main_chain c, Pipeline.Seg.run_eq_chain]
  rfl

/-- The last item's thread state is the last thread state beside the core owing nothing. -/
theorem last_state (c : Dev nD) :
    iprop(StableHlo.held (c : Thread nD τ) (Pipeline.ucRefs τ sig) (StableHlo.after hostOps2 (W10 m c))
        ∗ ((∃ r, prngReg c r) ∗ ∃ W, owes (c : Thread nD τ) (0 : CellTallies nD τ sig Unit) W))
      ⊢ (iprop((StableHlo.held (c : Thread nD τ) (Pipeline.ucRefs τ sig) (W11 m c) ∗ ∃ r, prngReg c r)
        ∗ ∃ W, owes (c : Thread nD τ) (0 : CellTallies nD τ sig Unit) W) : sProp 𝕄) := by
  iintro ⟨Hh, Hp, HO⟩
  isplitr [HO]
  · isplitl [Hh]; · iexact Hh
    iexact Hp
  iexact HO

set_option backward.isDefEq.respectTransparency.types false in
/-- Every weakly fair execution terminates, nothing faults, and every unscoped buffer ends at the fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- No item writes an argument. -/
theorem W11_main_arg0 (c : Dev nD) : W11 m c (Proc.devRef .tc main_arg0) = m ((c : Thread nD τ).loc main_arg0) :=
  W11_of_untouched m c main_arg0 (by decide) (by decide) (by decide) (by decide) (by decide) (by decide) (by decide) (by decide) (by decide) (by decide) (by decide)
theorem W11_main_arg1 (c : Dev nD) : W11 m c (Proc.devRef .tc main_arg1) = m ((c : Thread nD τ).loc main_arg1) :=
  W11_of_untouched m c main_arg1 (by decide) (by decide) (by decide) (by decide) (by decide) (by decide) (by decide) (by decide) (by decide) (by decide) (by decide)
theorem W11_main_arg2 (c : Dev nD) : W11 m c (Proc.devRef .tc main_arg2) = m ((c : Thread nD τ).loc main_arg2) :=
  W11_of_untouched m c main_arg2 (by decide) (by decide) (by decide) (by decide) (by decide) (by decide) (by decide) (by decide) (by decide) (by decide) (by decide)
theorem W11_main_arg3 (c : Dev nD) : W11 m c (Proc.devRef .tc main_arg3) = m ((c : Thread nD τ).loc main_arg3) :=
  W11_of_untouched m c main_arg3 (by decide) (by decide) (by decide) (by decide) (by decide) (by decide) (by decide) (by decide) (by decide) (by decide) (by decide)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c)⟩) (run_all m ρ)

end Cert.KernelIdeal.Hand

end
-- ==== Proof.KI.Blocks.lean ====
/-
  Where the pipelines' blocks sit in their arrays, and what the two output arrays hold after their regions.

  Tile n of region 0 is rows 4096 n .. 4096 n + 4095 of the padded W1 and of the one-hot table.  Point 50 h + i of region 1
  reads rows 512 h .. of the 1024 x 64 product, columns 2048 i .. of the padded W2 and of the mask, rows 2048 i .. of the
  one-hot table.  Region 0's output array is one block, written back after the last tile; region 1's output array is two
  blocks of 512 rows, block h written back after tile 49 of half h.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Data
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays the two regions read, at their literal types. -/
abbrev w1A (c : Dev nD) : Vec F S102400x64 .f32 := V c main_v8
abbrev ohA (c : Dev nD) : Vec F S102400x10 .bf16 := V c main_v7
abbrev inA (c : Dev nD) : Vec F S1024x64 .f32 := V c main_v20
abbrev w2A (c : Dev nD) : Vec F S64x102400 .f32 := V c main_v9
abbrev mkA (c : Dev nD) : Vec F S1x102400 .f32 := V c main_v14

/-! ## Region 0 -/

/-- The block indices of region 0's windows at tile t: the two inputs move down the rows with the tile, the output stays. -/
theorem Blocks.idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem w1blk_apply (c : Dev nD) (n : ℕ) (hn : n < cfg0.N) (k : Fin 4096) (d : Fin 64) (h : 4096 * n + k.val < 102400) :
    w1blk V c n hn (ix2 k d) = w1A V c (ix2 ⟨4096 * n + k.val, h⟩ d) := by
  obtain ⟨e0, e1, -, -, -, -⟩ := Blocks.idx0 ⟨n, hn⟩
  have e0 : win0_0.index ⟨n, hn⟩ (0 : Fin 2) = n := e0
  show iblk0 V c 0 ⟨n, hn⟩ (ix2 k d) = V c main_v8 (ix2 ⟨4096 * n + k.val, h⟩ d)
  unfold iblk0
  rw [View.read_apply]
  show V c main_v8 _ = V c main_v8 _
  congr 1
  funext a
  apply Fin.ext
  match a with
  | ⟨0, _⟩ => show win0_0.index ⟨n, hn⟩ (0 : Fin 2) * 4096 + 1 * k.val = 4096 * n + k.val; rw [e0]; omega
  | ⟨1, _⟩ => show win0_0.index ⟨n, hn⟩ (1 : Fin 2) * 64 + 1 * d.val = d.val; rw [e1]; omega

theorem ohblk0_apply (c : Dev nD) (n : ℕ) (hn : n < cfg0.N) (k : Fin 4096) (cc : Fin 10) (h : 4096 * n + k.val < 102400) :
    ohblk0 V c n hn (ix2 k cc) = ohA V c (ix2 ⟨4096 * n + k.val, h⟩ cc) := by
  obtain ⟨-, -, e0, e1, -, -⟩ := Blocks.idx0 ⟨n, hn⟩
  have e0 : win0_1.index ⟨n, hn⟩ (0 : Fin 2) = n := e0
  show iblk0 V c 1 ⟨n, hn⟩ (ix2 k cc) = V c main_v7 (ix2 ⟨4096 * n + k.val, h⟩ cc)
  unfold iblk0
  rw [View.read_apply]
  show V c main_v7 _ = V c main_v7 _
  congr 1
  funext a
  apply Fin.ext
  match a with
  | ⟨0, _⟩ => show win0_1.index ⟨n, hn⟩ (0 : Fin 2) * 4096 + 1 * k.val = 4096 * n + k.val; rw [e0]; omega
  | ⟨1, _⟩ => show win0_1.index ⟨n, hn⟩ (1 : Fin 2) * 10 + 1 * cc.val = cc.val; rw [e1]; omega

/-- A 10 x 64 buffer read through the output window's block at any tile is the buffer: the block index is (0, 0). -/
theorem Blocks.cut_out0 (X : Vec F S10x64 .f32) (t : Fin cfg0.N) :
    (cfg0.win 2).cut (grid0.coords t) X = ((cfg0.win 2).blk t).view.read (Elt F) X := by
  obtain ⟨-, -, -, -, e0, e1⟩ := Blocks.idx0 t
  funext y
  rw [View.read_apply]
  show X _ = X _
  congr 1
  funext a
  apply Fin.ext
  match a with
  | ⟨0, _⟩ => show (y 0).val = win0_2.index t (0 : Fin 2) * 10 + 1 * (y 0).val; rw [e0]; omega
  | ⟨1, _⟩ => show (y 1).val = win0_2.index t (1 : Fin 2) * 64 + 1 * (y 1).val; rw [e1]; omega

/-- An index of the 10 x 64 array is in tile t's output block iff each coordinate is in the block's range on its axis. -/
theorem Blocks.mem_out0 (t : Fin cfg0.N) (i : S10x64.Idx) :
    i ∈ ((cfg0.win 2).blk t).view.set ↔ ∀ a : Fin 2, win0_2.index t a * S10x64.size a ≤ (i a).val ∧ (i a).val < win0_2.index t a * S10x64.size a + S10x64.size a := by
  show i ∈ ((View.whole main_v19).slice (win0_2.rect t)).set ↔ _
  rw [View.set_slice_whole, Rect.mem_set_unit]
  exact Iff.rfl

/-- Region 0's output array after the region: what the last tile left in the buffer. -/
theorem arrAt0_2 (c : Dev nD) (cc : Fin 10) (d : Fin 64) :
    ((dat0 V c).arrAt 2 cfg0.N : Vec F S10x64 .f32) (ix2 cc d) = acc0 V c 24 (by decide) (ix2 cc d) := by
  have h24 : 24 < cfg0.N := by decide
  have hfin : @Eq (Vec F S10x64 .f32) ((dat0 V c).arrAt 2 cfg0.N) (acc0 V c 24 h24) := by
    refine (dat0 V c).arrAt_eq_of_cover 2 (acc0 V c 24 h24) (fun t hf => ?_) (fun i => ?_)
    · have hN : cfg0.N = 25 := N_0
      have h1 : t.val = 24 := by have := (flush0_2 t).mp hf; have := t.isLt; omega
      obtain rfl : t = ⟨24, h24⟩ := Fin.ext h1
      show (cfg0.win 2).cut (grid0.coords ⟨24, h24⟩) ((dat0 V c).after 2 ⟨24, h24⟩) = _
      rw [after0_2]
      exact Blocks.cut_out0 (acc0 V c 24 h24) ⟨24, h24⟩
    · obtain ⟨-, -, -, -, e0, e1⟩ := Blocks.idx0 ⟨24, h24⟩
      refine ⟨⟨24, h24⟩, (flush0_2 ⟨24, h24⟩).mpr rfl, ?_⟩
      rw [Blocks.mem_out0]
      intro a
      have h0 : (i 0).val < 10 := (i 0).isLt
      have h1 : (i 1).val < 64 := (i 1).isLt
      match a with
      | ⟨0, _⟩ => show win0_2.index ⟨24, h24⟩ (0 : Fin 2) * 10 ≤ (i 0).val ∧ (i 0).val < win0_2.index ⟨24, h24⟩ (0 : Fin 2) * 10 + 10; rw [e0]; omega
      | ⟨1, _⟩ => show win0_2.index ⟨24, h24⟩ (1 : Fin 2) * 64 ≤ (i 1).val ∧ (i 1).val < win0_2.index ⟨24, h24⟩ (1 : Fin 2) * 64 + 64; rw [e1]; omega
  exact congrFun hfin (ix2 cc d)

/-! ## Region 1 -/

/-- The block indices of region 1's windows at point t: the product and the output follow the half t / 50, the padded W2,
    the one-hot table and the mask follow the tile t % 50. -/
theorem Blocks.idx1 : ∀ t : Fin cfg1.N, win1_0.index t (0 : Fin 2) = t.val / 50 ∧ win1_0.index t (1 : Fin 2) = 0
    ∧ win1_1.index t (0 : Fin 2) = 0 ∧ win1_1.index t (1 : Fin 2) = t.val % 50
    ∧ win1_2.index t (0 : Fin 2) = t.val % 50 ∧ win1_2.index t (1 : Fin 2) = 0
    ∧ win1_3.index t (0 : Fin 2) = 0 ∧ win1_3.index t (1 : Fin 2) = t.val % 50
    ∧ win1_4.index t (0 : Fin 2) = t.val / 50 ∧ win1_4.index t (1 : Fin 2) = 0 :=
  (by decide +kernel : ∀ t : Fin grid1.N, _)

theorem inblk_apply (c : Dev nD) (n : ℕ) (hn : n < cfg1.N) (r : Fin 512) (d : Fin 64) (h : 512 * (n / 50) + r.val < 1024) :
    inblk V c n hn (ix2 r d) = inA V c (ix2 ⟨512 * (n / 50) + r.val, h⟩ d) := by
  obtain ⟨e0, e1, -, -, -, -, -, -, -, -⟩ := Blocks.idx1 ⟨n, hn⟩
  have e0 : win1_0.index ⟨n, hn⟩ (0 : Fin 2) = n / 50 := e0
  show iblk1 V c 0 ⟨n, hn⟩ (ix2 r d) = V c main_v20 (ix2 ⟨512 * (n / 50) + r.val, h⟩ d)
  unfold iblk1
  rw [View.read_apply]
  show V c main_v20 _ = V c main_v20 _
  congr 1
  funext a
  apply Fin.ext
  match a with
  | ⟨0, _⟩ => show win1_0.index ⟨n, hn⟩ (0 : Fin 2) * 512 + 1 * r.val = 512 * (n / 50) + r.val; rw [e0]; omega
  | ⟨1, _⟩ => show win1_0.index ⟨n, hn⟩ (1 : Fin 2) * 64 + 1 * d.val = d.val; rw [e1]; omega

theorem w2blk_apply (c : Dev nD) (n : ℕ) (hn : n < cfg1.N) (d : Fin 64) (k : Fin 2048) (h : 2048 * (n % 50) + k.val < 102400) :
    w2blk V c n hn (ix2 d k) = w2A V c (ix2 d ⟨2048 * (n % 50) + k.val, h⟩) := by
  obtain ⟨-, -, e0, e1, -, -, -, -, -, -⟩ := Blocks.idx1 ⟨n, hn⟩
  have e1 : win1_1.index ⟨n, hn⟩ (1 : Fin 2) = n % 50 := e1
  show iblk1 V c 1 ⟨n, hn⟩ (ix2 d k) = V c main_v9 (ix2 d ⟨2048 * (n % 50) + k.val, h⟩)
  unfold iblk1
  rw [View.read_apply]
  show V c main_v9 _ = V c main_v9 _
  congr 1
  funext a
  apply Fin.ext
  match a with
  | ⟨0, _⟩ => show win1_1.index ⟨n, hn⟩ (0 : Fin 2) * 64 + 1 * d.val = d.val; rw [e0]; omega
  | ⟨1, _⟩ => show win1_1.index ⟨n, hn⟩ (1 : Fin 2) * 2048 + 1 * k.val = 2048 * (n % 50) + k.val; rw [e1]; omega

theorem ohblk1_apply (c : Dev nD) (n : ℕ) (hn : n < cfg1.N) (k : Fin 2048) (cc : Fin 10) (h : 2048 * (n % 50) + k.val < 102400) :
    ohblk1 V c n hn (ix2 k cc) = ohA V c (ix2 ⟨2048 * (n % 50) + k.val, h⟩ cc) := by
  obtain ⟨-, -, -, -, e0, e1, -, -, -, -⟩ := Blocks.idx1 ⟨n, hn⟩
  have e0 : win1_2.index ⟨n, hn⟩ (0 : Fin 2) = n % 50 := e0
  show iblk1 V c 2 ⟨n, hn⟩ (ix2 k cc) = V c main_v7 (ix2 ⟨2048 * (n % 50) + k.val, h⟩ cc)
  unfold iblk1
  rw [View.read_apply]
  show V c main_v7 _ = V c main_v7 _
  congr 1
  funext a
  apply Fin.ext
  match a with
  | ⟨0, _⟩ => show win1_2.index ⟨n, hn⟩ (0 : Fin 2) * 2048 + 1 * k.val = 2048 * (n % 50) + k.val; rw [e0]; omega
  | ⟨1, _⟩ => show win1_2.index ⟨n, hn⟩ (1 : Fin 2) * 10 + 1 * cc.val = cc.val; rw [e1]; omega

theorem mkblk_apply (c : Dev nD) (n : ℕ) (hn : n < cfg1.N) (k : Fin 2048) (h : 2048 * (n % 50) + k.val < 102400) :
    mkblk V c n hn (ix2 0 k) = mkA V c (ix2 0 ⟨2048 * (n % 50) + k.val, h⟩) := by
  obtain ⟨-, -, -, -, -, -, e0, e1, -, -⟩ := Blocks.idx1 ⟨n, hn⟩
  have e1 : win1_3.index ⟨n, hn⟩ (1 : Fin 2) = n % 50 := e1
  show iblk1 V c 3 ⟨n, hn⟩ (ix2 0 k) = V c main_v14 (ix2 0 ⟨2048 * (n % 50) + k.val, h⟩)
  unfold iblk1
  rw [View.read_apply]
  show V c main_v14 _ = V c main_v14 _
  congr 1
  funext a
  apply Fin.ext
  match a with
  | ⟨0, _⟩ => show win1_3.index ⟨n, hn⟩ (0 : Fin 2) * 1 + 1 * (0 : Fin 1).val = (0 : Fin 1).val; rw [e0]; omega
  | ⟨1, _⟩ => show win1_3.index ⟨n, hn⟩ (1 : Fin 2) * 2048 + 1 * k.val = 2048 * (n % 50) + k.val; rw [e1]; omega

/-- Region 1's output array as one function of the row: row b holds row b % 512 of what tile 49 of half b / 512 stored. -/
def Blocks.outArr (c : Dev nD) : Vec F S1024x10 .f32 := fun i =>
  out1 V c ⟨50 * ((i 0).val / 512) + 49, by
      have h : (i 0).val < 1024 := (i 0).isLt
      have hN : cfg1.N = 100 := N_1
      omega⟩
    (ix2 (⟨(i 0).val % 512, Nat.mod_lt _ (by decide)⟩ : Fin 512) (⟨(i 1).val, (i 1).isLt⟩ : Fin 10))

/-- The stored block depends on the point and the index only through their values. -/
theorem Blocks.out1_congr (c : Dev nD) (t t' : Fin cfg1.N) (j j' : S512x10.Idx) (ht : t.val = t'.val)
    (h0 : (j 0).val = (j' 0).val) (h1 : (j 1).val = (j' 1).val) : out1 V c t j = out1 V c t' j' := by
  obtain rfl : t = t' := Fin.ext ht
  obtain rfl : j = j' := Shape.idx_ext₂ h0 h1
  rfl

/-- What a point that ends a half writes back is its block of that function: the block's rows are rows 512 h .. of half h. -/
theorem Blocks.flushed_out1 (c : Dev nD) (t : Fin cfg1.N) (hf : (cfg1.win 4).flush t = true) :
    (dat1 V c).flushed 4 t = ((cfg1.win 4).blk t).view.read (Elt F) (Blocks.outArr V c) := by
  have hN : cfg1.N = 100 := N_1
  have h49 : t.val % 50 = 49 := (flush1_4 t).mp hf
  have hlt : t.val < 100 := hN ▸ t.isLt
  obtain ⟨-, -, -, -, -, -, -, -, e0, e1⟩ := Blocks.idx1 t
  show (cfg1.win 4).cut (grid1.coords t) ((dat1 V c).after 4 t) = _
  rw [after1_4]
  funext y
  rw [View.read_apply]
  have hy0 : (y 0).val < 512 := (y 0).isLt
  have hy1 : (y 1).val < 10 := (y 1).isLt
  refine Blocks.out1_congr V c _ _ _ _ ?_ ?_ ?_
  · show t.val = 50 * ((win1_4.index t (0 : Fin 2) * 512 + 1 * (y 0).val) / 512) + 49
    rw [e0]; omega
  · show (y 0).val = (win1_4.index t (0 : Fin 2) * 512 + 1 * (y 0).val) % 512
    rw [e0]; omega
  · show (y 1).val = win1_4.index t (1 : Fin 2) * 10 + 1 * (y 1).val
    rw [e1]; omega

/-- An index of the 1024 x 10 array is in point t's output block iff each coordinate is in the block's range on its axis. -/
theorem Blocks.mem_out1 (t : Fin cfg1.N) (i : S1024x10.Idx) :
    i ∈ ((cfg1.win 4).blk t).view.set ↔ ∀ a : Fin 2, win1_4.index t a * S512x10.size a ≤ (i a).val ∧ (i a).val < win1_4.index t a * S512x10.size a + S512x10.size a := by
  show i ∈ ((View.whole main_v21).slice (win1_4.rect t)).set ↔ _
  rw [View.set_slice_whole, Rect.mem_set_unit]
  exact Iff.rfl

/-- Region 1's output array after the region: row b of half h = b / 512 is what tile 49 of that half stored. -/
theorem arrAt1_4 (c : Dev nD) (b : Fin 1024) (cc : Fin 10) (ht : 50 * (b.val / 512) + 49 < cfg1.N) (hr : b.val % 512 < 512) :
    ((dat1 V c).arrAt 4 cfg1.N : Vec F S1024x10 .f32) (ix2 b cc) = out1 V c ⟨50 * (b.val / 512) + 49, ht⟩ (ix2 ⟨b.val % 512, hr⟩ cc) := by
  have hN : cfg1.N = 100 := N_1
  have hfin : @Eq (Vec F S1024x10 .f32) ((dat1 V c).arrAt 4 cfg1.N) (Blocks.outArr V c) := by
    refine (dat1 V c).arrAt_eq_of_cover 4 (Blocks.outArr V c) (Blocks.flushed_out1 V c) (fun i => ?_)
    have h0 : (i 0).val < 1024 := (i 0).isLt
    have h1 : (i 1).val < 10 := (i 1).isLt
    have hp : 50 * ((i 0).val / 512) + 49 < cfg1.N := by omega
    obtain ⟨-, -, -, -, -, -, -, -, e0, e1⟩ := Blocks.idx1 ⟨50 * ((i 0).val / 512) + 49, hp⟩
    have e0 : win1_4.index ⟨50 * ((i 0).val / 512) + 49, hp⟩ (0 : Fin 2) = (50 * ((i 0).val / 512) + 49) / 50 := e0
    refine ⟨⟨50 * ((i 0).val / 512) + 49, hp⟩, (flush1_4 _).mpr (by show (50 * ((i 0).val / 512) + 49) % 50 = 49; omega), ?_⟩
    rw [Blocks.mem_out1]
    intro a
    match a with
    | ⟨0, _⟩ =>
      show win1_4.index ⟨50 * ((i 0).val / 512) + 49, hp⟩ (0 : Fin 2) * 512 ≤ (i 0).val ∧ (i 0).val < win1_4.index ⟨50 * ((i 0).val / 512) + 49, hp⟩ (0 : Fin 2) * 512 + 512
      rw [e0]; omega
    | ⟨1, _⟩ =>
      show win1_4.index ⟨50 * ((i 0).val / 512) + 49, hp⟩ (1 : Fin 2) * 10 ≤ (i 1).val ∧ (i 1).val < win1_4.index ⟨50 * ((i 0).val / 512) + 49, hp⟩ (1 : Fin 2) * 10 + 10
      rw [e1]; omega
  refine (congrFun hfin (ix2 b cc)).trans ?_
  exact Blocks.out1_congr V c _ _ _ _ rfl rfl rfl

end Cert.KernelIdeal.Hand

end
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.KI.Val0.lean ====
/-
  Region 0 at the ideal instance: the output buffer after the last tile is the one-hot table transposed times the padded
  W1, a sum over all 102400 padded items; a tile's step adds its 4096 products to what the buffer held.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Blocks
import proofs.«428240_j80616536146381_2_alg».proof.Proof.LibIdealReal
import Idealize.ShloMosaic.PureOps.Ideal.Laws
import Idealize.ShloMosaic.Lib.ValueIdx
import Mathlib.Algebra.BigOperators.Fin

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The operand indices of the contraction over the tile's rows -/

theorem lhs_mm0_0 (i : S10x64.Idx) (q : dot_S4096x10_S4096x64_S10x64_0_0_1_1_n_n.contr.Idx) :
    (dot_S4096x10_S4096x64_S10x64_0_0_1_1_n_n.lhsIdx i q 0).val = (q ⟨0, by decide⟩).val :=
  dot_S4096x10_S4096x64_S10x64_0_0_1_1_n_n.lhsIdx_val_of_single rfl i q
theorem lhs_mm0_1 (i : S10x64.Idx) (q : dot_S4096x10_S4096x64_S10x64_0_0_1_1_n_n.contr.Idx) :
    (dot_S4096x10_S4096x64_S10x64_0_0_1_1_n_n.lhsIdx i q 1).val = (i 0).val := by
  unfold DotDims.lhsIdx
  rw [dif_neg (show ¬(1 : Fin S4096x10.rank) ∈ dot_S4096x10_S4096x64_S10x64_0_0_1_1_n_n.lhsBatch by decide), dif_pos (show (1 : Fin S4096x10.rank) ∈ dot_S4096x10_S4096x64_S10x64_0_0_1_1_n_n.lhsNonContracting by decide)]
  rfl
theorem rhs_mm0_0 (i : S10x64.Idx) (q : dot_S4096x10_S4096x64_S10x64_0_0_1_1_n_n.contr.Idx) :
    (dot_S4096x10_S4096x64_S10x64_0_0_1_1_n_n.rhsIdx i q 0).val = (q ⟨0, by decide⟩).val :=
  dot_S4096x10_S4096x64_S10x64_0_0_1_1_n_n.rhsIdx_val_of_single rfl i q
theorem rhs_mm0_1 (i : S10x64.Idx) (q : dot_S4096x10_S4096x64_S10x64_0_0_1_1_n_n.contr.Idx) :
    (dot_S4096x10_S4096x64_S10x64_0_0_1_1_n_n.rhsIdx i q 1).val = (i 1).val := by
  unfold DotDims.rhsIdx
  rw [dif_neg (show ¬(1 : Fin S4096x64.rank) ∈ dot_S4096x10_S4096x64_S10x64_0_0_1_1_n_n.rhsBatch by decide), dif_pos (show (1 : Fin S4096x64.rank) ∈ dot_S4096x10_S4096x64_S10x64_0_0_1_1_n_n.rhsNonContracting by decide)]
  rfl

/-- The matrix unit into a zero accumulator, contracting the rows of both operands: entry (cc, d) is the sum over the
    4096 rows k of left (k, cc) times right (k, d). -/
theorem mm0_apply (l : FVec Ideal S4096x10 .bf16) (r : FVec Ideal S4096x64 .bf16) (cc : Fin 10) (d : Fin 64) :
    (matmul dot_S4096x10_S4096x64_S10x64_0_0_1_1_n_n none l r (constant (F := Ideal) S10x64 .f32 0x00000000#32)) (ix2 cc d)
      = ∑ k : Fin 4096, l (ix2 k cc) * r (ix2 k d) := by
  simp only [matmul]
  rw [Ideal.matmul_constant_zero_apply, ← Equiv.sum_comp (ValueIdx.contrEquiv1 dot_S4096x10_S4096x64_S10x64_0_0_1_1_n_n 4096 rfl rfl).symm]
  refine Finset.sum_congr rfl fun k _ => ?_
  have hk := ValueIdx.contrEquiv1_symm_val dot_S4096x10_S4096x64_S10x64_0_0_1_1_n_n 4096 rfl rfl k
  have el : dot_S4096x10_S4096x64_S10x64_0_0_1_1_n_n.lhsIdx (ix2 cc d) ((ValueIdx.contrEquiv1 dot_S4096x10_S4096x64_S10x64_0_0_1_1_n_n 4096 rfl rfl).symm k) = ix2 k cc := funext fun a => Fin.ext (by
    match a with
    | ⟨0, _⟩ => exact (lhs_mm0_0 _ _).trans hk
    | ⟨1, _⟩ => exact lhs_mm0_1 _ _)
  have er : dot_S4096x10_S4096x64_S10x64_0_0_1_1_n_n.rhsIdx (ix2 cc d) ((ValueIdx.contrEquiv1 dot_S4096x10_S4096x64_S10x64_0_0_1_1_n_n 4096 rfl rfl).symm k) = ix2 k d := funext fun a => Fin.ext (by
    match a with
    | ⟨0, _⟩ => exact (rhs_mm0_0 _ _).trans hk
    | ⟨1, _⟩ => exact rhs_mm0_1 _ _)
  rw [el, er]

/-- The reset payload is zero. -/
theorem k0_pay1_apply (j : S10x64.Idx) : (k0_pay1 (F := Ideal)) j = 0 := by
  unfold k0_pay1
  show Ideal.ofBits .f32 0x00000000#32 = 0
  exact Ideal.ofBits_zero_f32

/-- One tile's payload: what the buffer held plus the tile's products (formats are the identity, the matrix unit an exact sum). -/
theorem k0_pay2_apply (x : Vec Ideal S4096x64 .f32) (oh : Vec Ideal S4096x10 .bf16) (o : Vec Ideal S10x64 .f32) (cc : Fin 10) (d : Fin 64) :
    k0_pay2 (F := Ideal) x oh o (ix2 cc d) = o (ix2 cc d) + ∑ k : Fin 4096, oh (ix2 k cc) * x (ix2 k d) := by
  unfold k0_pay2
  rw [shapeCast_self, shapeCast_self, shapeCast_self]
  rw [addf_apply, mm0_apply]
  rfl

/-- Item j's product of the one-hot entry and the W1 entry, for the naturals: zero past the padded table. -/
def prod0 (oh : Fin 102400 → Fin 10 → ℝ) (w : Fin 102400 → Fin 64 → ℝ) (cc : Fin 10) (d : Fin 64) (j : ℕ) : ℝ :=
  if h : j < 102400 then oh ⟨j, h⟩ cc * w ⟨j, h⟩ d else 0

/-- Tile n's 4096 products are the products of items 4096 n .. 4096 n + 4095. -/
theorem tile0_sum (c : Dev nD) (oh : Fin 102400 → Fin 10 → ℝ) (w : Fin 102400 → Fin 64 → ℝ)
    (hoh : ∀ j cc, ohA V c (ix2 j cc) = ((oh j cc : ℝ) : EReal)) (hw : ∀ j d, w1A V c (ix2 j d) = ((w j d : ℝ) : EReal))
    (cc : Fin 10) (d : Fin 64) (n : ℕ) (hn : n < cfg0.N) :
    ∑ k : Fin 4096, ohblk0 V c n hn (ix2 k cc) * w1blk V c n hn (ix2 k d)
      = ((∑ k ∈ Finset.range 4096, prod0 oh w cc d (4096 * n + k) : ℝ) : EReal) := by
  have hN : cfg0.N = 25 := N_0
  rw [← Fin.sum_univ_eq_sum_range (fun k => prod0 oh w cc d (4096 * n + k)) 4096, ← IdealReal.coe_sum]
  refine Finset.sum_congr rfl fun k _ => ?_
  have h : 4096 * n + k.val < 102400 := by have := k.isLt; omega
  rw [ohblk0_apply V c n hn k cc h, w1blk_apply V c n hn k d h, hoh, hw, ← EReal.coe_mul]
  unfold prod0
  rw [dif_pos h]

/-- The output buffer after tile n: the sum of the products of the first 4096 (n + 1) items. -/
theorem acc0_range (c : Dev nD) (oh : Fin 102400 → Fin 10 → ℝ) (w : Fin 102400 → Fin 64 → ℝ)
    (hoh : ∀ j cc, ohA V c (ix2 j cc) = ((oh j cc : ℝ) : EReal)) (hw : ∀ j d, w1A V c (ix2 j d) = ((w j d : ℝ) : EReal))
    (cc : Fin 10) (d : Fin 64) : ∀ (n : ℕ) (hn : n < cfg0.N),
    acc0 V c n hn (ix2 cc d) = ((∑ j ∈ Finset.range (4096 * (n + 1)), prod0 oh w cc d j : ℝ) : EReal) := by
  intro n
  induction n with
  | zero =>
    intro hn
    rw [acc0, k0_pay2_apply, k0_pay1_apply, zero_add, tile0_sum V c oh w hoh hw cc d 0 hn]
    simp
  | succ n ih =>
    intro hn
    have e : 4096 * (n + 1 + 1) = 4096 * (n + 1) + 4096 := by omega
    rw [acc0, k0_pay2_apply, ih (Nat.lt_of_succ_lt hn), tile0_sum V c oh w hoh hw cc d (n + 1) hn, ← EReal.coe_add, e,
      Finset.sum_range_add]

/-- The output buffer after the last tile, when the one-hot table and the padded W1 hold reals. -/
theorem acc0_real (c : Dev nD) (oh : Fin 102400 → Fin 10 → ℝ) (w : Fin 102400 → Fin 64 → ℝ)
    (hoh : ∀ j cc, ohA V c (ix2 j cc) = ((oh j cc : ℝ) : EReal)) (hw : ∀ j d, w1A V c (ix2 j d) = ((w j d : ℝ) : EReal))
    (cc : Fin 10) (d : Fin 64) :
    acc0 V c 24 (by decide) (ix2 cc d) = ((∑ j : Fin 102400, oh j cc * w j d : ℝ) : EReal) := by
  rw [acc0_range V c oh w hoh hw cc d 24 (by decide)]
  refine congrArg Real.toEReal ?_
  rw [(by norm_num : 4096 * (24 + 1) = 102400), ← Fin.sum_univ_eq_sum_range (prod0 oh w cc d) 102400]
  refine Finset.sum_congr rfl fun j _ => ?_
  unfold prod0
  rw [dif_pos j.isLt]

end Cert.KernelIdeal.Hand

end
-- ==== Proof.KI.Lay1.lean ====
/-
  Layout and lane reductions of one 512 x 2048 tile, read at an index: a vector of row values cast to a column, a column
  broadcast along its rows, the row sum from zero as a sum over the 2048 lanes, the row maximum from minus infinity as a
  fold of max over the lanes, and that fold over embedded reals as the embedded real maximum.
-/
import proofs.«428240_j80616536146381_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«428240_j80616536146381_2_alg».proof.Proof.LibIdealReal

noncomputable section

namespace Cert.KernelIdeal.Hand

open Cert.KernelIdeal Cert.KernelIdeal.Gen
open Idealize.ShloMosaic Idealize.ShloMosaic.TcCoe
open Idealize.ShloMosaic.ValueIdx
open scoped BigOperators
/-- An [a] array cast to [a, 1] reads, at (i, u), the operand at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index r with the lane k put back is (r, k). -/
theorem lift_row (r : Fin 512) (k : Fin 2048) : Shape.Reduces.lift reduces_S512x2048_S512 (ix1 r) k = ix2 r k :=
  funext fun a => Fin.ext (by match a with | ⟨0, _⟩ => rfl | ⟨1, _⟩ => rfl)

/-- The row sum from the zero word: the sum over the 2048 lanes. -/
theorem rowsum_apply (src : FVec Ideal S512x2048 .f32) (hφ : FKind.Formats .f32)
    (hacc : (0x00000000#32 : BitVec 32) = 0x00000000#32) (r : Fin 512) :
    multiReduction .add [1] S512 src 0x00000000#32 reduces_S512x2048_S512 hφ hacc (ix1 r)
      = ∑ k : Fin 2048, (src (ix2 r k) : EReal) := by
  refine (Ideal.multiReduction_add_single src 0x00000000#32 reduces_S512x2048_S512 hφ hacc (ix1 r)).trans ?_
  exact Finset.sum_congr rfl fun k _ => congrArg src (lift_row r k)

/-- The word of minus infinity denotes the bottom of the extended reals. -/
theorem ofBits_neg_inf : Ideal.ofBits .f32 0xFF800000#32 = (⊥ : EReal) := by
  simp [Ideal.ofBits, Ideal.ieee]

/-- The row maximum from the word of minus infinity: the fold of max from bottom over the 2048 lanes. -/
theorem rowmax_apply (src : FVec Ideal S512x2048 .f32) (hφ : FKind.Formats .f32)
    (hacc : (0xFF800000#32 : BitVec 32) = 0xFF800000#32) (r : Fin 512) :
    multiReduction .maximumf [1] S512 src 0xFF800000#32 reduces_S512x2048_S512 hφ hacc (ix1 r)
      = (Finset.univ : Finset (Fin 2048)).fold max (⊥ : EReal) (fun k => (src (ix2 r k) : EReal)) := by
  refine (Ideal.multiReduction_maximumf_single src 0xFF800000#32 reduces_S512x2048_S512 hφ hacc (ix1 r)).trans ?_
  have hf : (src ∘ Shape.Reduces.lift reduces_S512x2048_S512 (ix1 r)) = fun k : Fin 2048 => (src (ix2 r k) : EReal) :=
    funext fun k => congrArg src (lift_row r k)
  have hb : (FloatOps.ofBits (F := Ideal) .f32 0xFF800000#32 : EReal) = ⊥ := ofBits_neg_inf
  rw [hf, hb]
  rfl

/-- The embedding of the reals into the extended reals keeps a maximum. -/
theorem coe_max_real (x y : ℝ) : ((max x y : ℝ) : EReal) = max (x : EReal) (y : EReal) := (IdealReal.max_coe x y).symm

/-- A fold of max from bottom over a nonempty finite family of embedded reals is the embedded real maximum. -/
theorem fold_max_bot_coe {ι : Type*} (s : Finset ι) (hs : s.Nonempty) (f : ι → ℝ) :
    s.fold max (⊥ : EReal) (fun i => ((f i : ℝ) : EReal)) = ((s.sup' hs f : ℝ) : EReal) := by
  have h1 : ((s.sup' hs f : ℝ) : EReal) = s.sup' hs (fun i => ((f i : ℝ) : EReal)) :=
    Finset.comp_sup'_eq_sup'_comp hs (fun x : ℝ => (x : EReal)) (fun x y => coe_max_real x y)
  rw [h1, Finset.sup'_eq_sup]
  rfl

/-- Bottom minus a real is bottom. -/
theorem bot_sub_coe (y : ℝ) : (⊥ : EReal) - (y : EReal) = ⊥ := by
  rw [sub_eq_add_neg, EReal.bot_add]
end Cert.KernelIdeal.Hand

end
-- ==== Proof.KI.Mat1.lean ====
/-
  The two matrix products of one tile of the online softmax, read at an index, at the ideal instance: the tile's logits
  are the sum over the 64 features of block times W2 tile; the new numerators are the rescaled old ones plus the sum over
  the tile's 2048 items of weight times one-hot.
-/
import proofs.«428240_j80616536146381_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe
open Idealize.ShloMosaic.ValueIdx
open scoped BigOperators

/-! ## The operand indices of the two products, axis by axis -/

private theorem qk_lhs_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
private theorem qk_lhs_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
private theorem qk_rhs_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
private theorem qk_rhs_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

private theorem pv_lhs_0 (i : S512x10.Idx) (q : dot_S512x2048_S2048x10_S512x10_1_0_0_1_n_n.contr.Idx) :
    (dot_S512x2048_S2048x10_S512x10_1_0_0_1_n_n.lhsIdx i q 0).val = (i 0).val := by
  unfold DotDims.lhsIdx
  rw [dif_neg (show ¬(0 : Fin S512x2048.rank) ∈ dot_S512x2048_S2048x10_S512x10_1_0_0_1_n_n.lhsBatch by decide), dif_pos (show (0 : Fin S512x2048.rank) ∈ dot_S512x2048_S2048x10_S512x10_1_0_0_1_n_n.lhsNonContracting by decide)]
  rfl
private theorem pv_lhs_1 (i : S512x10.Idx) (q : dot_S512x2048_S2048x10_S512x10_1_0_0_1_n_n.contr.Idx) :
    (dot_S512x2048_S2048x10_S512x10_1_0_0_1_n_n.lhsIdx i q 1).val = (q ⟨0, by decide⟩).val :=
  dot_S512x2048_S2048x10_S512x10_1_0_0_1_n_n.lhsIdx_val_of_single rfl i q
private theorem pv_rhs_0 (i : S512x10.Idx) (q : dot_S512x2048_S2048x10_S512x10_1_0_0_1_n_n.contr.Idx) :
    (dot_S512x2048_S2048x10_S512x10_1_0_0_1_n_n.rhsIdx i q 0).val = (q ⟨0, by decide⟩).val :=
  dot_S512x2048_S2048x10_S512x10_1_0_0_1_n_n.rhsIdx_val_of_single rfl i q
private theorem pv_rhs_1 (i : S512x10.Idx) (q : dot_S512x2048_S2048x10_S512x10_1_0_0_1_n_n.contr.Idx) :
    (dot_S512x2048_S2048x10_S512x10_1_0_0_1_n_n.rhsIdx i q 1).val = (i 1).val := by
  unfold DotDims.rhsIdx
  rw [dif_neg (show ¬(1 : Fin S2048x10.rank) ∈ dot_S512x2048_S2048x10_S512x10_1_0_0_1_n_n.rhsBatch by decide), dif_pos (show (1 : Fin S2048x10.rank) ∈ dot_S512x2048_S2048x10_S512x10_1_0_0_1_n_n.rhsNonContracting by decide)]
  rfl

/-! ## The two products into a zero accumulator, at an index -/

/-- A 512 x 64 by 64 x 2048 product into zero is the sum over the 64. -/
private theorem qk_apply (l : FVec Ideal S512x64 .bf16) (r : FVec Ideal S64x2048 .bf16) (p : Fin 512) (q : Fin 2048) :
    FloatOps.matmul (F := Ideal) dot_S512x64_S64x2048_S512x2048_1_0_0_1_n_n none l r (constant (F := Ideal) S512x2048 .f32 0x00000000#32) (ix2 p q) = ∑ k : Fin 64, l (ix2 p k) * r (ix2 k q) := by
  rw [Ideal.matmul_constant_zero_apply, ← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx (ix2 p q) ((ValueIdx.contrEquiv1 dot_S512x64_S64x2048_S512x2048_1_0_0_1_n_n 64 rfl rfl).symm k) = ix2 p k := funext fun a => Fin.ext (by
    match a with
    | ⟨0, _⟩ => exact qk_lhs_0 _ _
    | ⟨1, _⟩ => exact (qk_lhs_1 _ _).trans hk)
  have er : dot_S512x64_S64x2048_S512x2048_1_0_0_1_n_n.rhsIdx (ix2 p q) ((ValueIdx.contrEquiv1 dot_S512x64_S64x2048_S512x2048_1_0_0_1_n_n 64 rfl rfl).symm k) = ix2 k q := funext fun a => Fin.ext (by
    match a with
    | ⟨0, _⟩ => exact (qk_rhs_0 _ _).trans hk
    | ⟨1, _⟩ => exact qk_rhs_1 _ _)
  rw [el, er]

/-- A 512 x 2048 by 2048 x 10 product into zero is the sum over the 2048. -/
private theorem pv_apply (l : FVec Ideal S512x2048 .bf16) (r : FVec Ideal S2048x10 .bf16) (p : Fin 512) (q : Fin 10) :
    FloatOps.matmul (F := Ideal) dot_S512x2048_S2048x10_S512x10_1_0_0_1_n_n none l r (constant (F := Ideal) S512x10 .f32 0x00000000#32) (ix2 p q) = ∑ k : Fin 2048, l (ix2 p k) * r (ix2 k q) := by
  rw [Ideal.matmul_constant_zero_apply, ← Equiv.sum_comp (ValueIdx.contrEquiv1 dot_S512x2048_S2048x10_S512x10_1_0_0_1_n_n 2048 rfl rfl).symm]
  refine Finset.sum_congr rfl fun k _ => ?_
  have hk := ValueIdx.contrEquiv1_symm_val dot_S512x2048_S2048x10_S512x10_1_0_0_1_n_n 2048 rfl rfl k
  have el : dot_S512x2048_S2048x10_S512x10_1_0_0_1_n_n.lhsIdx (ix2 p q) ((ValueIdx.contrEquiv1 dot_S512x2048_S2048x10_S512x10_1_0_0_1_n_n 2048 rfl rfl).symm k) = ix2 p k := funext fun a => Fin.ext (by
    match a with
    | ⟨0, _⟩ => exact pv_lhs_0 _ _
    | ⟨1, _⟩ => exact (pv_lhs_1 _ _).trans hk)
  have er : dot_S512x2048_S2048x10_S512x10_1_0_0_1_n_n.rhsIdx (ix2 p q) ((ValueIdx.contrEquiv1 dot_S512x2048_S2048x10_S512x10_1_0_0_1_n_n 2048 rfl rfl).symm k) = ix2 k q := funext fun a => Fin.ext (by
    match a with
    | ⟨0, _⟩ => exact (pv_rhs_0 _ _).trans hk
    | ⟨1, _⟩ => exact pv_rhs_1 _ _)
  rw [el, er]

/-- A column broadcast along ten columns reads the column's entry of the row. -/
theorem mat1_bcast_col10_apply {α : Type} (v : S512x1.Idx → α) (p : Fin 512) (q : Fin 10) :
    broadcastTo S512x10 v broadcasts_S512x1_S512x10 (ix2 p q) = v (ix2 p (0 : Fin 1)) := by
  refine broadcastTo_apply v broadcasts_S512x1_S512x10 (ix2 p q) (ix2 p (0 : Fin 1)) fun ax => ?_
  match ax with
  | ⟨0, _⟩ =>
    show p.val = if (512 : ℕ) = 1 then 0 else p.val
    rw [if_neg (by decide)]
  | ⟨1, _⟩ =>
    show (0 : Fin 1).val = if (1 : ℕ) = 1 then 0 else q.val
    rw [if_pos rfl]; rfl

/-- The tile's logits at (r, k): the sum over the features d of block (r, d) times W2 tile (d, k). -/
theorem k1_pay7_apply (x3 : Vec Ideal S512x64 .f32) (x6 : Vec Ideal S64x2048 .f32) (r : Fin 512) (k : Fin 2048) :
    k1_pay7 (F := Ideal) x3 x6 (ix2 r k) = ∑ d : Fin 64, (x3 (ix2 r d) : EReal) * (x6 (ix2 d k) : EReal) := by
  unfold k1_pay7
  dsimp only [matmul]
  refine (qk_apply _ _ r k).trans ?_
  refine Finset.sum_congr rfl fun d _ => ?_
  rw [truncf_apply, truncf_apply, shapeCast_self, shapeCast_self]

/-- The new numerators at (r, c): the rescaling factor of row r times the old numerator, plus the sum over the tile's
    items k of weight (r, k) times one-hot (k, c). -/
theorem k1_pay1_apply (v16 : FVec Ideal S512x1 .f32) (v33 : FVec Ideal S2048x10 .bf16) (v34 : FVec Ideal S512x2048 .bf16)
    (v36 : Vec Ideal S512x10 .f32) (r : Fin 512) (cc : Fin 10) :
    k1_pay1 (F := Ideal) v16 v33 v34 v36 (ix2 r cc)
      = (v16 (ix2 r 0) : EReal) * (v36 (ix2 r cc) : EReal) + ∑ k : Fin 2048, (v34 (ix2 r k) : EReal) * (v33 (ix2 k cc) : EReal) := by
  unfold k1_pay1
  dsimp only [matmul]
  rw [shapeCast_self, addf_apply, mulf_apply, mat1_bcast_col10_apply]
  exact congrArg (v16 (ix2 r 0) * v36 (ix2 r cc) + ·) (pv_apply v34 v33 r cc)

end Cert.KernelIdeal.Hand

end
-- ==== Proof.KI.Pay1a.lean ====
/-
  The running maximum, the rescaling factor and the tile's weights of one tile of the online softmax, read at an index,
  at the ideal instance: m' = max m (row maximum of the logits), exp (m'' - m') for a carried m'', and
  exp (logit - m') times the mask.
-/
import proofs.«428240_j80616536146381_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«428240_j80616536146381_2_alg».proof.Proof.KI.Lay1

noncomputable section

namespace Cert.KernelIdeal.Hand

open Cert.KernelIdeal Cert.KernelIdeal.Gen
open Idealize.ShloMosaic Idealize.ShloMosaic.TcCoe
open Idealize.ShloMosaic.ValueIdx
open scoped BigOperators
/-- The new running maximum of row r: the maximum of the carried one and the fold of max from bottom over the row's logits. -/
theorem k1_pay8_apply (x3 : Vec Ideal S512x64 .f32) (x6 : Vec Ideal S64x2048 .f32) (m : Vec Ideal S512x1 .f32) (r : Fin 512) :
    k1_pay8 (F := Ideal) x3 x6 m (ix2 r 0)
      = max (m (ix2 r 0) : EReal)
          ((Finset.univ : Finset (Fin 2048)).fold max (⊥ : EReal) (fun k => (k1_pay7 (F := Ideal) x3 x6 (ix2 r k) : EReal))) := by
  unfold k1_pay8
  -- a pointwise maximum; its second operand is the row maximum, reduced over the lanes and cast to a column
  refine (maximumf_apply _ _ _).trans (congrArg (max (m (ix2 r 0) : EReal)) ?_)
  refine (shapeCast_a_a1_apply _ shapeCasts_S512_S512x1 r 0).trans ?_
  exact rowmax_apply (k1_pay7 (F := Ideal) x3 x6) _ _ r

/-- The rescaling factor of row r: the exponential of a carried value minus the new running maximum. -/
theorem k1_pay9_apply (x3 : Vec Ideal S512x64 .f32) (x6 : Vec Ideal S64x2048 .f32) (m m' : Vec Ideal S512x1 .f32) (r : Fin 512) :
    k1_pay9 (F := Ideal) x3 x6 m m' (ix2 r 0)
      = Ideal.exp ((m' (ix2 r 0) : EReal) - (k1_pay8 (F := Ideal) x3 x6 m (ix2 r 0) : EReal)) := by
  -- the exponential and the difference are entry by entry
  unfold k1_pay9
  rfl

/-- The weight of item k in row r: the exponential of its logit minus the new running maximum, times the mask at k. -/
theorem k1_pay10_apply (x3 : Vec Ideal S512x64 .f32) (x6 : Vec Ideal S64x2048 .f32) (m : Vec Ideal S512x1 .f32)
    (x20 : Vec Ideal S1x2048 .f32) (r : Fin 512) (k : Fin 2048) :
    k1_pay10 (F := Ideal) x3 x6 m x20 (ix2 r k)
      = Ideal.exp ((k1_pay7 (F := Ideal) x3 x6 (ix2 r k) : EReal) - (k1_pay8 (F := Ideal) x3 x6 m (ix2 r 0) : EReal))
          * (x20 (ix2 0 k) : EReal) := by
  -- the running maximum is a column broadcast along its row: at (r, k) it is the entry of row r
  have hL : exp (subf (k1_pay7 (F := Ideal) x3 x6)
        (broadcastTo S512x2048 (k1_pay8 (F := Ideal) x3 x6 m) broadcasts_S512x1_S512x2048)) (ix2 r k)
      = Ideal.exp ((k1_pay7 (F := Ideal) x3 x6 (ix2 r k) : EReal) - (k1_pay8 (F := Ideal) x3 x6 m (ix2 r 0) : EReal)) :=
    congrArg (fun y : EReal => Ideal.exp ((k1_pay7 (F := Ideal) x3 x6 (ix2 r k) : EReal) - y))
      (broadcastTo_a1_ab_apply (k1_pay8 (F := Ideal) x3 x6 m) broadcasts_S512x1_S512x2048 r k)
  -- the mask is a row broadcast down the columns: at (r, k) it is the entry of column k
  have hR : broadcastTo S512x2048 (shapeCast S1x2048 x20 shapeCasts_S1x2048_S1x2048) broadcasts_S1x2048_S512x2048 (ix2 r k)
      = (x20 (ix2 0 k) : EReal) :=
    (broadcastTo_1b_ab_apply _ broadcasts_S1x2048_S512x2048 r k).trans
      (congrFun (shapeCast_self x20 shapeCasts_S1x2048_S1x2048) (ix2 0 k))
  unfold k1_pay10
  exact (mulf_apply _ _ _).trans (congrArg₂ (· * ·) hL hR)
end Cert.KernelIdeal.Hand

end
-- ==== Proof.KI.Pay1b.lean ====
/-
  The running denominator of one tile of the online softmax read at an index, at the ideal instance:
  l' = (rescaling factor) l + the row sum of the tile's weights; the payloads that are their operand (a cast to the same
  shape, a change of format); and the reset payloads: minus infinity, zero, zero.
-/
import proofs.«428240_j80616536146381_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«428240_j80616536146381_2_alg».proof.Proof.KI.Lay1

noncomputable section

namespace Cert.KernelIdeal.Hand

open Cert.KernelIdeal Cert.KernelIdeal.Gen
open Idealize.ShloMosaic Idealize.ShloMosaic.TcCoe
open Idealize.ShloMosaic.ValueIdx
open scoped BigOperators
/-- The new denominator of row r: the rescaling factor times the carried denominator, plus the sum of the row's weights. -/
theorem k1_pay11_apply (x3 : Vec Ideal S512x64 .f32) (x6 : Vec Ideal S64x2048 .f32) (m m' : Vec Ideal S512x1 .f32)
    (x20 : Vec Ideal S1x2048 .f32) (l : Vec Ideal S512x1 .f32) (r : Fin 512) :
    k1_pay11 (F := Ideal) x3 x6 m m' x20 l (ix2 r 0)
      = (k1_pay9 (F := Ideal) x3 x6 m m' (ix2 r 0) : EReal) * (l (ix2 r 0) : EReal)
          + ∑ k : Fin 2048, (k1_pay10 (F := Ideal) x3 x6 m x20 (ix2 r k) : EReal) := by
  unfold k1_pay11
  dsimp only
  rw [shapeCast_self]
  rw [addf_apply, mulf_apply]
  refine congrArg (fun z : EReal => (k1_pay9 (F := Ideal) x3 x6 m m' (ix2 r 0) : EReal) * (l (ix2 r 0) : EReal) + z) ?_
  refine (shapeCast_a_a1_apply _ _ r 0).trans ?_
  exact rowsum_apply _ _ _ r

/-- The weights after the change of format are the weights. -/
theorem k1_pay13_apply (x3 : Vec Ideal S512x64 .f32) (x6 : Vec Ideal S64x2048 .f32) (m : Vec Ideal S512x1 .f32)
    (x20 : Vec Ideal S1x2048 .f32) (i : S512x2048.Idx) :
    (k1_pay13 (F := Ideal) x3 x6 m x20 i : EReal) = (k1_pay10 (F := Ideal) x3 x6 m x20 i : EReal) := by
  unfold k1_pay13
  rfl

/-- The one-hot tile cast to its own shape is itself. -/
theorem k1_pay12_eq (x32 : Vec Ideal S2048x10 .bf16) : k1_pay12 (F := Ideal) x32 = x32 := by
  unfold k1_pay12
  exact shapeCast_self _ _

/-- The running maximum cast to its own shape is itself. -/
theorem k1_pay2_eq (v : FVec Ideal S512x1 .f32) : k1_pay2 (F := Ideal) v = v := by
  unfold k1_pay2
  exact shapeCast_self _ _

/-- The reset running maximum is minus infinity everywhere. -/
theorem k1_pay4_apply (i : S512x1.Idx) : (k1_pay4 (F := Ideal) i : EReal) = ⊥ := by
  unfold k1_pay4
  rw [shapeCast_self]
  exact ofBits_neg_inf

/-- The reset denominator is zero everywhere. -/
theorem k1_pay5_apply (i : S512x1.Idx) : (k1_pay5 (F := Ideal) i : EReal) = 0 := by
  unfold k1_pay5
  rw [shapeCast_self]
  exact Ideal.ofBits_zero_f32

/-- The reset numerators are zero everywhere. -/
theorem k1_pay6_apply (i : S512x10.Idx) : (k1_pay6 (F := Ideal) i : EReal) = 0 := by
  unfold k1_pay6
  rw [shapeCast_self]
  exact Ideal.ofBits_zero_f32
end Cert.KernelIdeal.Hand

end
-- ==== Proof.KI.Pay3.lean ====
/-
  The last tile's output block at an index, on real data: numerator over denominator, the denominator a nonzero real.
-/
import proofs.«428240_j80616536146381_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«428240_j80616536146381_2_alg».proof.Proof.LibIdealReal

noncomputable section

namespace Cert.KernelIdeal.Hand

open Cert.KernelIdeal Cert.KernelIdeal.Gen
open Idealize.ShloMosaic Idealize.ShloMosaic.TcCoe
open Idealize.ShloMosaic.ValueIdx
open scoped BigOperators
/-- A [a, 1] array broadcast to [a, b] reads, at (p, c), the operand's row p at its one column. -/
theorem pay3_bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The output at (r, c): the real quotient of the numerator at (r, c) by the denominator of row r. -/
theorem k1_pay3_real (va : Vec Ideal S512x10 .f32) (vl : Vec Ideal S512x1 .f32) (ra : Fin 512 → Fin 10 → ℝ) (rl : Fin 512 → ℝ)
    (ha : ∀ r cc, va (ix2 r cc) = ((ra r cc : ℝ) : EReal)) (hl : ∀ r, vl (ix2 r 0) = ((rl r : ℝ) : EReal)) (r : Fin 512) (cc : Fin 10)
    (hne : rl r ≠ 0) :
    k1_pay3 (F := Ideal) va vl (ix2 r cc) = ((ra r cc / rl r : ℝ) : EReal) := by
  unfold k1_pay3
  show Ideal.div (va (ix2 r cc)) (broadcastTo S512x10 vl broadcasts_S512x1_S512x10 (ix2 r cc)) = _
  rw [pay3_bcast_col_apply vl broadcasts_S512x1_S512x10 r cc, ha, hl]
  exact IdealReal.div_coe_coe (ra r cc) (rl r) hne
end Cert.KernelIdeal.Hand

end
-- ==== Proof.KI.Step1.lean ====
/-
  One tile of the online softmax at the ideal instance, on real data.  With t the tile's logits (512 rows by 2048 items),
  k the mask, o the one-hot tile and (m, l, a) the carried state: m' = max m (row maximum of t),
  l' = exp (m - m') l + sum_k exp (t_k - m') k_k, a'_c = exp (m - m') a_c + sum_k exp (t_k - m') k_k o_kc.
  From the reset state (m = -inf, l = 0, a = 0) the carried terms vanish: exp (-inf) = 0.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Data
import Idealize.ShloMosaic.PureOps.Ideal.Laws
import Idealize.ShloMosaic.Lib.ValueIdx
import Idealize.ShloMosaic.Lib.ValueLayout
import Idealize.ShloMosaic.Lib.Pipeline.Value
import Mathlib.Analysis.SpecialFunctions.Exp
import proofs.«428240_j80616536146381_2_alg».proof.Proof.LibIdealReal
import proofs.«428240_j80616536146381_2_alg».proof.Proof.KI.Lay1
import proofs.«428240_j80616536146381_2_alg».proof.Proof.KI.Mat1
import proofs.«428240_j80616536146381_2_alg».proof.Proof.KI.Pay1a
import proofs.«428240_j80616536146381_2_alg».proof.Proof.KI.Pay1b
import proofs.«428240_j80616536146381_2_alg».proof.Proof.KI.Pay3

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (x3 : Vec Ideal S512x64 .f32) (x6 : Vec Ideal S64x2048 .f32) (x32 : Vec Ideal S2048x10 .bf16) (x20 : Vec Ideal S1x2048 .f32)
variable (a3 : Fin 512 → Fin 64 → ℝ) (a6 : Fin 64 → Fin 2048 → ℝ) (a32 : Fin 2048 → Fin 10 → ℝ) (a20 : Fin 2048 → ℝ)

/-- The tile's logits and their row maximum. -/
def tlog (r : Fin 512) (k : Fin 2048) : ℝ := ∑ d : Fin 64, a3 r d * a6 d k
def tmax (r : Fin 512) : ℝ := Finset.univ.sup' Finset.univ_nonempty (tlog a3 a6 r)

/-- The tile's logits on real data. -/
theorem k1_pay7_real
    (h3 : ∀ r d, x3 (ix2 r d) = ((a3 r d : ℝ) : EReal)) (h6 : ∀ d k, x6 (ix2 d k) = ((a6 d k : ℝ) : EReal))
    (r : Fin 512) (k : Fin 2048) :
    (k1_pay7 (F := Ideal) x3 x6 (ix2 r k) : EReal) = ((tlog a3 a6 r k : ℝ) : EReal) := by
  rw [k1_pay7_apply]
  refine Eq.trans ?_ (IdealReal.coe_sum Finset.univ (fun d => a3 r d * a6 d k))
  refine Finset.sum_congr rfl fun d _ => ?_
  rw [h3, h6, EReal.coe_mul]

/-- The row maximum of the tile's logits on real data: the real maximum. -/
theorem rowmax_real
    (h3 : ∀ r d, x3 (ix2 r d) = ((a3 r d : ℝ) : EReal)) (h6 : ∀ d k, x6 (ix2 d k) = ((a6 d k : ℝ) : EReal))
    (r : Fin 512) :
    (Finset.univ : Finset (Fin 2048)).fold max (⊥ : EReal) (fun k => (k1_pay7 (F := Ideal) x3 x6 (ix2 r k) : EReal))
      = ((tmax a3 a6 r : ℝ) : EReal) := by
  have hf : (fun k : Fin 2048 => (k1_pay7 (F := Ideal) x3 x6 (ix2 r k) : EReal)) = fun k => ((tlog a3 a6 r k : ℝ) : EReal) :=
    funext fun k => k1_pay7_real x3 x6 a3 a6 h3 h6 r k
  rw [hf]
  exact fold_max_bot_coe Finset.univ Finset.univ_nonempty (tlog a3 a6 r)

/-- One row of one tile, from a carried state whose maximum with the row maximum is the real M, whose rescaling factor
    exp (m - M) is the real E, and whose rescaled denominator and numerators are the reals L and A. -/
theorem step1_row (s : Sc Ideal)
    (h3 : ∀ r d, x3 (ix2 r d) = ((a3 r d : ℝ) : EReal)) (h6 : ∀ d k, x6 (ix2 d k) = ((a6 d k : ℝ) : EReal))
    (h32 : ∀ k cc, x32 (ix2 k cc) = ((a32 k cc : ℝ) : EReal)) (h20 : ∀ k, x20 (ix2 0 k) = ((a20 k : ℝ) : EReal))
    (r : Fin 512) (M E L : ℝ) (A : Fin 10 → ℝ)
    (hM : max (s.m (ix2 r 0) : EReal) ((tmax a3 a6 r : ℝ) : EReal) = ((M : ℝ) : EReal))
    (hE : Ideal.exp ((s.m (ix2 r 0) : EReal) - ((M : ℝ) : EReal)) = ((E : ℝ) : EReal))
    (hL : ((E : ℝ) : EReal) * (s.l (ix2 r 0) : EReal) = ((L : ℝ) : EReal))
    (hA : ∀ cc, ((E : ℝ) : EReal) * (s.a (ix2 r cc) : EReal) = ((A cc : ℝ) : EReal)) :
    (step1 x3 x6 x32 x20 s).m (ix2 r 0) = ((M : ℝ) : EReal)
    ∧ (step1 x3 x6 x32 x20 s).l (ix2 r 0)
        = ((L + ∑ k : Fin 2048, Real.exp (tlog a3 a6 r k - M) * a20 k : ℝ) : EReal)
    ∧ ∀ cc : Fin 10, (step1 x3 x6 x32 x20 s).a (ix2 r cc)
        = ((A cc + ∑ k : Fin 2048, Real.exp (tlog a3 a6 r k - M) * a20 k * a32 k cc : ℝ) : EReal) := by
  have h8 : (k1_pay8 (F := Ideal) x3 x6 s.m (ix2 r 0) : EReal) = ((M : ℝ) : EReal) := by
    rw [k1_pay8_apply, rowmax_real x3 x6 a3 a6 h3 h6 r]
    exact hM
  have h9 : (k1_pay9 (F := Ideal) x3 x6 s.m s.m (ix2 r 0) : EReal) = ((E : ℝ) : EReal) := by
    rw [k1_pay9_apply, h8]
    exact hE
  have h10 : ∀ k : Fin 2048, (k1_pay10 (F := Ideal) x3 x6 s.m x20 (ix2 r k) : EReal)
      = ((Real.exp (tlog a3 a6 r k - M) * a20 k : ℝ) : EReal) := by
    intro k
    rw [k1_pay10_apply, h8, k1_pay7_real x3 x6 a3 a6 h3 h6 r k, h20, ← EReal.coe_sub, IdealReal.exp_coe', ← EReal.coe_mul]
  refine ⟨?_, ?_, ?_⟩
  · show (k1_pay2 (F := Ideal) (k1_pay8 (F := Ideal) x3 x6 s.m) (ix2 r 0) : EReal) = _
    rw [k1_pay2_eq]
    exact h8
  · show (k1_pay11 (F := Ideal) x3 x6 s.m s.m x20 s.l (ix2 r 0) : EReal) = _
    rw [k1_pay11_apply, h9, hL, EReal.coe_add, ← IdealReal.coe_sum]
    exact congrArg (_ + ·) (Finset.sum_congr rfl fun k _ => h10 k)
  · intro cc
    show (k1_pay1 (F := Ideal) (k1_pay9 (F := Ideal) x3 x6 s.m s.m) (k1_pay12 (F := Ideal) x32)
      (k1_pay13 (F := Ideal) x3 x6 s.m x20) s.a (ix2 r cc) : EReal) = _
    rw [k1_pay1_apply, h9, hA, k1_pay12_eq, EReal.coe_add, ← IdealReal.coe_sum]
    refine congrArg (_ + ·) (Finset.sum_congr rfl fun k _ => ?_)
    rw [k1_pay13_apply, h10 k, h32, ← EReal.coe_mul]

/-- The first tile of a half, from the reset state. -/
theorem step1_first
    (h3 : ∀ r d, x3 (ix2 r d) = ((a3 r d : ℝ) : EReal)) (h6 : ∀ d k, x6 (ix2 d k) = ((a6 d k : ℝ) : EReal))
    (h32 : ∀ k cc, x32 (ix2 k cc) = ((a32 k cc : ℝ) : EReal)) (h20 : ∀ k, x20 (ix2 0 k) = ((a20 k : ℝ) : EReal))
    (r : Fin 512) :
    (step1 x3 x6 x32 x20 (sc0 (F := Ideal))).m (ix2 r 0) = ((tmax a3 a6 r : ℝ) : EReal)
    ∧ (step1 x3 x6 x32 x20 (sc0 (F := Ideal))).l (ix2 r 0)
        = ((∑ k : Fin 2048, Real.exp (tlog a3 a6 r k - tmax a3 a6 r) * a20 k : ℝ) : EReal)
    ∧ ∀ cc : Fin 10, (step1 x3 x6 x32 x20 (sc0 (F := Ideal))).a (ix2 r cc)
        = ((∑ k : Fin 2048, Real.exp (tlog a3 a6 r k - tmax a3 a6 r) * a20 k * a32 k cc : ℝ) : EReal) := by
  have hm0 : ((sc0 (F := Ideal)).m (ix2 r 0) : EReal) = ⊥ := k1_pay4_apply (ix2 r 0)
  have h := step1_row x3 x6 x32 x20 a3 a6 a32 a20 (sc0 (F := Ideal)) h3 h6 h32 h20 r (tmax a3 a6 r) 0 0 (fun _ => 0)
    (by rw [hm0]; exact max_eq_right bot_le)
    (by rw [hm0, bot_sub_coe, Ideal.exp_bot]; exact EReal.coe_zero.symm)
    (by rw [EReal.coe_zero, zero_mul])
    (fun cc => by rw [EReal.coe_zero, zero_mul])
  simpa only [zero_add] using h

/-- A later tile, from a real state. -/
theorem step1_next (s : Sc Ideal) (sm sl : Fin 512 → ℝ) (sa : Fin 512 → Fin 10 → ℝ)
    (h3 : ∀ r d, x3 (ix2 r d) = ((a3 r d : ℝ) : EReal)) (h6 : ∀ d k, x6 (ix2 d k) = ((a6 d k : ℝ) : EReal))
    (h32 : ∀ k cc, x32 (ix2 k cc) = ((a32 k cc : ℝ) : EReal)) (h20 : ∀ k, x20 (ix2 0 k) = ((a20 k : ℝ) : EReal))
    (hm : ∀ r, s.m (ix2 r 0) = ((sm r : ℝ) : EReal)) (hl : ∀ r, s.l (ix2 r 0) = ((sl r : ℝ) : EReal))
    (ha : ∀ r cc, s.a (ix2 r cc) = ((sa r cc : ℝ) : EReal)) (r : Fin 512) :
    (step1 x3 x6 x32 x20 s).m (ix2 r 0) = ((max (sm r) (tmax a3 a6 r) : ℝ) : EReal)
    ∧ (step1 x3 x6 x32 x20 s).l (ix2 r 0)
        = ((Real.exp (sm r - max (sm r) (tmax a3 a6 r)) * sl r
            + ∑ k : Fin 2048, Real.exp (tlog a3 a6 r k - max (sm r) (tmax a3 a6 r)) * a20 k : ℝ) : EReal)
    ∧ ∀ cc : Fin 10, (step1 x3 x6 x32 x20 s).a (ix2 r cc)
        = ((Real.exp (sm r - max (sm r) (tmax a3 a6 r)) * sa r cc
            + ∑ k : Fin 2048, Real.exp (tlog a3 a6 r k - max (sm r) (tmax a3 a6 r)) * a20 k * a32 k cc : ℝ) : EReal) := by
  have h := step1_row x3 x6 x32 x20 a3 a6 a32 a20 s h3 h6 h32 h20 r (max (sm r) (tmax a3 a6 r))
    (Real.exp (sm r - max (sm r) (tmax a3 a6 r))) (Real.exp (sm r - max (sm r) (tmax a3 a6 r)) * sl r)
    (fun cc => Real.exp (sm r - max (sm r) (tmax a3 a6 r)) * sa r cc)
    (by rw [hm]; exact IdealReal.max_coe _ _)
    (by rw [hm, ← EReal.coe_sub]; exact IdealReal.exp_coe' _)
    (by rw [hl, ← EReal.coe_mul])
    (fun cc => by rw [ha, ← EReal.coe_mul])
  exact h

/-- The last tile's output: numerators over denominator, the denominator a nonzero real. -/
theorem k1_pay3_apply (va : Vec Ideal S512x10 .f32) (vl : Vec Ideal S512x1 .f32) (ra : Fin 512 → Fin 10 → ℝ) (rl : Fin 512 → ℝ)
    (ha : ∀ r cc, va (ix2 r cc) = ((ra r cc : ℝ) : EReal)) (hl : ∀ r, vl (ix2 r 0) = ((rl r : ℝ) : EReal)) (r : Fin 512) (cc : Fin 10)
    (hne : rl r ≠ 0) :
    k1_pay3 (F := Ideal) va vl (ix2 r cc) = ((ra r cc / rl r : ℝ) : EReal) := by
  exact k1_pay3_real va vl ra rl ha hl r cc hne

end Cert.KernelIdeal.Hand

end
-- ==== Proof.KI.SoftmaxAlg.lean ====
/-
  The real algebra of an online softmax over tiles of 2048 items.  A function on Fin N is extended to the naturals by zero,
  so that sums over the first 2048 (i + 1) items are sums over Finset.range and no cast between index types appears.
  With carried sums taken relative to a shift m, moving to a new shift m' multiplies them by exp (m - m'), because
  exp (m - m') * exp (x - m) = exp (x - m'); this holds for any two reals m, m'.  After the last tile the quotient of the
  two full sums does not depend on the shift.
-/
import Mathlib.Analysis.SpecialFunctions.Exp
import Mathlib.Algebra.BigOperators.Fin
import Mathlib.Algebra.BigOperators.Intervals

noncomputable section

open scoped BigOperators

namespace Cert.KernelIdeal.Hand

/-- A function on Fin N, extended to every natural number by zero. -/
def ext1 {N : ℕ} (f : Fin N → ℝ) (n : ℕ) : ℝ := if h : n < N then f ⟨n, h⟩ else 0

/-- The extension at a number equal to an index's value is the function at that index. -/
theorem ext1_eq {N : ℕ} (f : Fin N → ℝ) (n : ℕ) (h : n < N) (m : ℕ) (hm : m = n) : f ⟨n, h⟩ = ext1 f m := by
  subst hm
  unfold ext1
  rw [dif_pos h]

theorem ext1_val {N : ℕ} (f : Fin N → ℝ) (j : Fin N) : ext1 f j.val = f j := by
  unfold ext1
  rw [dif_pos j.isLt]

/-- The first tile: its 2048 terms are the sum over the first 2048 items. -/
theorem osm_first (f g : ℕ → ℝ) (m : ℝ) :
    ∑ k : Fin 2048, Real.exp (f (2048 * 0 + k.val) - m) * g (2048 * 0 + k.val)
      = ∑ n ∈ Finset.range (2048 * (0 + 1)), Real.exp (f n - m) * g n := by
  simp only [Nat.mul_zero, Nat.zero_add, Nat.mul_one]
  exact Fin.sum_univ_eq_sum_range (fun n => Real.exp (f n - m) * g n) 2048

theorem osm_first3 (f g o : ℕ → ℝ) (m : ℝ) :
    ∑ k : Fin 2048, Real.exp (f (2048 * 0 + k.val) - m) * g (2048 * 0 + k.val) * o (2048 * 0 + k.val)
      = ∑ n ∈ Finset.range (2048 * (0 + 1)), Real.exp (f n - m) * g n * o n := by
  simp only [Nat.mul_zero, Nat.zero_add, Nat.mul_one]
  exact Fin.sum_univ_eq_sum_range (fun n => Real.exp (f n - m) * g n * o n) 2048

/-- exp (m - m') * exp (x - m) = exp (x - m'), for any reals. -/
theorem osm_exp_move (x m m' : ℝ) : Real.exp (m - m') * Real.exp (x - m) = Real.exp (x - m') := by
  rw [← Real.exp_add]
  congr 1
  ring

theorem osm_move2 (x m m' G : ℝ) : Real.exp (m - m') * (Real.exp (x - m) * G) = Real.exp (x - m') * G := by
  rw [← osm_exp_move x m m']
  ring

theorem osm_move3 (x m m' G O : ℝ) :
    Real.exp (m - m') * (Real.exp (x - m) * G * O) = Real.exp (x - m') * G * O := by
  rw [← osm_exp_move x m m']
  ring

/-- A tile's T terms, taken from offset a, are the terms at a + n for n below T. -/
theorem osm_tile_range (h : ℕ → ℝ) (a T : ℕ) :
    ∑ k : Fin T, h (a + k.val) = ∑ n ∈ Finset.range T, h (a + n) :=
  Fin.sum_univ_eq_sum_range (fun n => h (a + n)) T

/-- If r * h n = h' n for every n, then r times the sum of h over the first a numbers, plus the T terms of h' from
    offset a, is the sum of h' over the first a + T numbers. -/
theorem osm_step (h h' : ℕ → ℝ) (a T : ℕ) (r : ℝ) (hr : ∀ n, r * h n = h' n) :
    r * (∑ n ∈ Finset.range a, h n) + ∑ k : Fin T, h' (a + k.val) = ∑ n ∈ Finset.range (a + T), h' n := by
  rw [Finset.sum_range_add, Finset.mul_sum, osm_tile_range h' a T]
  congr 1
  exact Finset.sum_congr rfl fun n _ => hr n

/-- A later tile: the carried sum over the first 2048 (i + 1) items, moved from shift m to shift m', plus the tile's
    2048 terms at shift m', is the sum over the first 2048 (i + 2) items at shift m'. -/
theorem osm_next (f g : ℕ → ℝ) (i : ℕ) (m m' : ℝ) :
    Real.exp (m - m') * (∑ n ∈ Finset.range (2048 * (i + 1)), Real.exp (f n - m) * g n)
        + ∑ k : Fin 2048, Real.exp (f (2048 * (i + 1) + k.val) - m') * g (2048 * (i + 1) + k.val)
      = ∑ n ∈ Finset.range (2048 * (i + 1 + 1)), Real.exp (f n - m') * g n := by
  have e : 2048 * (i + 1 + 1) = 2048 * (i + 1) + 2048 := by ring
  rw [e]
  exact osm_step (fun n => Real.exp (f n - m) * g n) (fun n => Real.exp (f n - m') * g n) (2048 * (i + 1)) 2048
    (Real.exp (m - m')) (fun n => osm_move2 (f n) m m' (g n))

theorem osm_next3 (f g o : ℕ → ℝ) (i : ℕ) (m m' : ℝ) :
    Real.exp (m - m') * (∑ n ∈ Finset.range (2048 * (i + 1)), Real.exp (f n - m) * g n * o n)
        + ∑ k : Fin 2048, Real.exp (f (2048 * (i + 1) + k.val) - m') * g (2048 * (i + 1) + k.val) * o (2048 * (i + 1) + k.val)
      = ∑ n ∈ Finset.range (2048 * (i + 1 + 1)), Real.exp (f n - m') * g n * o n := by
  have e : 2048 * (i + 1 + 1) = 2048 * (i + 1) + 2048 := by ring
  rw [e]
  exact osm_step (fun n => Real.exp (f n - m) * g n * o n) (fun n => Real.exp (f n - m') * g n * o n) (2048 * (i + 1)) 2048
    (Real.exp (m - m')) (fun n => osm_move3 (f n) m m' (g n) (o n))

/-- exp (x - M) = exp x * exp (-M). -/
theorem osm_exp_shift (x M : ℝ) : Real.exp (x - M) = Real.exp x * Real.exp (-M) := by
  rw [sub_eq_add_neg, Real.exp_add]

/-- Over any number N of items: with a positive unshifted denominator, the shifted denominator is not zero and the
    quotient of the shifted sums over the first N numbers is the quotient of the unshifted sums over Fin N. -/
theorem osm_final_aux (N : ℕ) (L mk oh : Fin N → ℝ) (M : ℝ) (f : ℕ → ℝ) (hf : ∀ j : Fin N, f j.val = L j)
    (hpos : 0 < ∑ j : Fin N, Real.exp (L j) * mk j) :
    (∑ n ∈ Finset.range N, Real.exp (f n - M) * ext1 mk n) ≠ 0
    ∧ (∑ n ∈ Finset.range N, Real.exp (f n - M) * ext1 mk n * ext1 oh n)
          / (∑ n ∈ Finset.range N, Real.exp (f n - M) * ext1 mk n)
        = (∑ j : Fin N, Real.exp (L j) * mk j * oh j) / (∑ j : Fin N, Real.exp (L j) * mk j) := by
  have hM : Real.exp (-M) ≠ 0 := (Real.exp_pos _).ne'
  have hD : (∑ n ∈ Finset.range N, Real.exp (f n - M) * ext1 mk n)
      = (∑ j : Fin N, Real.exp (L j) * mk j) * Real.exp (-M) := by
    rw [← Fin.sum_univ_eq_sum_range (fun n => Real.exp (f n - M) * ext1 mk n) N, Finset.sum_mul]
    refine Finset.sum_congr rfl fun j _ => ?_
    rw [hf, ext1_val, osm_exp_shift]
    ring
  have hN : (∑ n ∈ Finset.range N, Real.exp (f n - M) * ext1 mk n * ext1 oh n)
      = (∑ j : Fin N, Real.exp (L j) * mk j * oh j) * Real.exp (-M) := by
    rw [← Fin.sum_univ_eq_sum_range (fun n => Real.exp (f n - M) * ext1 mk n * ext1 oh n) N, Finset.sum_mul]
    refine Finset.sum_congr rfl fun j _ => ?_
    rw [hf, ext1_val, ext1_val, osm_exp_shift]
    ring
  rw [hD, hN]
  exact ⟨mul_ne_zero hpos.ne' hM, mul_div_mul_right _ _ hM⟩

/-- After tile 49 all 102400 items are in.  The mask is 1 on the first 100000 items and 0 on the tail, so the denominator
    is positive (item 0 contributes exp (..) > 0, every term is >= 0); and the shift M cancels in the quotient:
    exp (x - M) = exp x * exp (-M) factors out of both sums. -/
theorem osm_final (L mk oh : Fin 102400 → ℝ) (M : ℝ) (f : ℕ → ℝ) (hf : ∀ j : Fin 102400, f j.val = L j)
    (hmkv : ∀ j : Fin 102400, mk j = if j.val < 100000 then 1 else 0) :
    (∑ n ∈ Finset.range (2048 * (49 + 1)), Real.exp (f n - M) * ext1 mk n) ≠ 0
    ∧ (∑ n ∈ Finset.range (2048 * (49 + 1)), Real.exp (f n - M) * ext1 mk n * ext1 oh n)
          / (∑ n ∈ Finset.range (2048 * (49 + 1)), Real.exp (f n - M) * ext1 mk n)
        = (∑ j : Fin 102400, Real.exp (L j) * mk j * oh j) / (∑ j : Fin 102400, Real.exp (L j) * mk j) := by
  have hpos : 0 < ∑ j : Fin 102400, Real.exp (L j) * mk j := by
    refine Finset.sum_pos' (fun j _ => ?_) ⟨⟨0, by norm_num⟩, Finset.mem_univ _, ?_⟩
    · rw [hmkv]
      split_ifs
      · rw [mul_one]
        exact (Real.exp_pos _).le
      · rw [mul_zero]
    · rw [hmkv, if_pos (show (0 : ℕ) < 100000 by norm_num), mul_one]
      exact Real.exp_pos _
  have e : (2048 * (49 + 1) : ℕ) = 102400 := by norm_num
  rw [e]
  exact osm_final_aux 102400 L mk oh M f hf hpos

end Cert.KernelIdeal.Hand

end
-- ==== Proof.KI.Val1.lean ====
/-
  Region 1 at the ideal instance, on real data: after tile i of a half the carried state is the shifted softmax sums over
  the first 2048 (i + 1) padded items (shift = their running maximum), and the block stored at tile 49 is the quotient of
  the two full sums, in which the shift cancels.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Blocks
import proofs.«428240_j80616536146381_2_alg».proof.Proof.KI.Step1
import proofs.«428240_j80616536146381_2_alg».proof.Proof.KI.SoftmaxAlg
import Mathlib.Analysis.SpecialFunctions.Exp
import Mathlib.Algebra.BigOperators.Fin

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The carried state, point by point -/

/-- At the first point of a half the state is one step from the reset state. -/
theorem scAt_first (c : Dev nD) (n : ℕ) (hn : n < cfg1.N) (h0 : n % 50 = 0) :
    scAt V c n hn = step1 (inblk V c n hn) (w2blk V c n hn) (ohblk1 V c n hn) (mkblk V c n hn) (sc0 (F := Ideal)) := by
  cases n with
  | zero => rw [scAt]
  | succ n => rw [scAt, if_pos h0]

/-- At any other point the state is one step from the state of the point before. -/
theorem scAt_later (c : Dev nD) (n p : ℕ) (hn : n < cfg1.N) (hp : p < cfg1.N) (e : n = p + 1) (h0 : n % 50 ≠ 0) :
    scAt V c n hn = step1 (inblk V c n hn) (w2blk V c n hn) (ohblk1 V c n hn) (mkblk V c n hn) (scAt V c p hp) := by
  subst e
  rw [scAt, if_neg h0]

/-! ## The real tiles of point 50 h + i -/

/-- Rows 512 h .. of the product. -/
def rIn (inR : Fin 1024 → Fin 64 → ℝ) (h : ℕ) : Fin 512 → Fin 64 → ℝ := fun r d => ext1 (fun b => inR b d) (512 * h + r.val)
/-- Columns 2048 i .. of the padded W2. -/
def rW2 (w2R : Fin 64 → Fin 102400 → ℝ) (i : ℕ) : Fin 64 → Fin 2048 → ℝ := fun d k => ext1 (w2R d) (2048 * i + k.val)
/-- Rows 2048 i .. of the one-hot table. -/
def rOh (ohR : Fin 102400 → Fin 10 → ℝ) (i : ℕ) : Fin 2048 → Fin 10 → ℝ := fun k cc => ext1 (fun j => ohR j cc) (2048 * i + k.val)
/-- Columns 2048 i .. of the mask. -/
def rMk (mkR : Fin 102400 → ℝ) (i : ℕ) : Fin 2048 → ℝ := fun k => ext1 mkR (2048 * i + k.val)
/-- The padded logit of item n for row r of half h. -/
def rLg (inR : Fin 1024 → Fin 64 → ℝ) (w2R : Fin 64 → Fin 102400 → ℝ) (h : ℕ) (r : Fin 512) (n : ℕ) : ℝ :=
  ∑ d : Fin 64, rIn inR h r d * ext1 (w2R d) n

theorem inblk_real (c : Dev nD) (inR : Fin 1024 → Fin 64 → ℝ) (hin : ∀ b d, inA V c (ix2 b d) = ((inR b d : ℝ) : EReal))
    (h i : ℕ) (hh : h < 2) (hi : i < 50) (hn : 50 * h + i < cfg1.N) (r : Fin 512) (d : Fin 64) :
    inblk V c (50 * h + i) hn (ix2 r d) = ((rIn inR h r d : ℝ) : EReal) := by
  have e : (50 * h + i) / 50 = h := by omega
  have hr : r.val < 512 := r.isLt
  have hb : 512 * ((50 * h + i) / 50) + r.val < 1024 := by rw [e]; omega
  rw [inblk_apply V c (50 * h + i) hn r d hb, hin]
  exact congrArg (fun x : ℝ => (x : EReal)) (ext1_eq (fun b => inR b d) _ hb (512 * h + r.val) (by rw [e]))

theorem w2blk_real (c : Dev nD) (w2R : Fin 64 → Fin 102400 → ℝ) (hw2 : ∀ d j, w2A V c (ix2 d j) = ((w2R d j : ℝ) : EReal))
    (h i : ℕ) (hh : h < 2) (hi : i < 50) (hn : 50 * h + i < cfg1.N) (d : Fin 64) (k : Fin 2048) :
    w2blk V c (50 * h + i) hn (ix2 d k) = ((rW2 w2R i d k : ℝ) : EReal) := by
  have e : (50 * h + i) % 50 = i := by omega
  have hk : k.val < 2048 := k.isLt
  have hb : 2048 * ((50 * h + i) % 50) + k.val < 102400 := by rw [e]; omega
  rw [w2blk_apply V c (50 * h + i) hn d k hb, hw2]
  exact congrArg (fun x : ℝ => (x : EReal)) (ext1_eq (w2R d) _ hb (2048 * i + k.val) (by rw [e]))

theorem ohblk1_real (c : Dev nD) (ohR : Fin 102400 → Fin 10 → ℝ) (hoh : ∀ j cc, ohA V c (ix2 j cc) = ((ohR j cc : ℝ) : EReal))
    (h i : ℕ) (hh : h < 2) (hi : i < 50) (hn : 50 * h + i < cfg1.N) (k : Fin 2048) (cc : Fin 10) :
    ohblk1 V c (50 * h + i) hn (ix2 k cc) = ((rOh ohR i k cc : ℝ) : EReal) := by
  have e : (50 * h + i) % 50 = i := by omega
  have hk : k.val < 2048 := k.isLt
  have hb : 2048 * ((50 * h + i) % 50) + k.val < 102400 := by rw [e]; omega
  rw [ohblk1_apply V c (50 * h + i) hn k cc hb, hoh]
  exact congrArg (fun x : ℝ => (x : EReal)) (ext1_eq (fun j => ohR j cc) _ hb (2048 * i + k.val) (by rw [e]))

theorem mkblk_real (c : Dev nD) (mkR : Fin 102400 → ℝ) (hmk : ∀ j, mkA V c (ix2 0 j) = ((mkR j : ℝ) : EReal))
    (h i : ℕ) (hh : h < 2) (hi : i < 50) (hn : 50 * h + i < cfg1.N) (k : Fin 2048) :
    mkblk V c (50 * h + i) hn (ix2 0 k) = ((rMk mkR i k : ℝ) : EReal) := by
  have e : (50 * h + i) % 50 = i := by omega
  have hk : k.val < 2048 := k.isLt
  have hb : 2048 * ((50 * h + i) % 50) + k.val < 102400 := by rw [e]; omega
  rw [mkblk_apply V c (50 * h + i) hn k hb, hmk]
  exact congrArg (fun x : ℝ => (x : EReal)) (ext1_eq mkR _ hb (2048 * i + k.val) (by rw [e]))

/-! ## The invariant -/

/-- After tile i of half h there is a shift sm r for every row r (the running maximum; only its being a real matters)
    with: m = sm r, l = the sum over the first 2048 (i + 1) items of exp (logit - sm r) * mask, and a cc = the same sum
    with the one-hot factor of cluster cc. -/
theorem scAt_real (c : Dev nD) (inR : Fin 1024 → Fin 64 → ℝ) (w2R : Fin 64 → Fin 102400 → ℝ)
    (ohR : Fin 102400 → Fin 10 → ℝ) (mkR : Fin 102400 → ℝ)
    (hin : ∀ b d, inA V c (ix2 b d) = ((inR b d : ℝ) : EReal)) (hw2 : ∀ d j, w2A V c (ix2 d j) = ((w2R d j : ℝ) : EReal))
    (hoh : ∀ j cc, ohA V c (ix2 j cc) = ((ohR j cc : ℝ) : EReal)) (hmk : ∀ j, mkA V c (ix2 0 j) = ((mkR j : ℝ) : EReal))
    (h : ℕ) (hh : h < 2) :
    ∀ i : ℕ, i < 50 → ∀ hn : 50 * h + i < cfg1.N, ∃ sm : Fin 512 → ℝ,
      (∀ r, (scAt V c (50 * h + i) hn).m (ix2 r 0) = ((sm r : ℝ) : EReal))
      ∧ (∀ r, (scAt V c (50 * h + i) hn).l (ix2 r 0)
          = ((∑ n ∈ Finset.range (2048 * (i + 1)), Real.exp (rLg inR w2R h r n - sm r) * ext1 mkR n : ℝ) : EReal))
      ∧ (∀ r cc, (scAt V c (50 * h + i) hn).a (ix2 r cc)
          = ((∑ n ∈ Finset.range (2048 * (i + 1)),
                Real.exp (rLg inR w2R h r n - sm r) * ext1 mkR n * ext1 (fun j => ohR j cc) n : ℝ) : EReal)) := by
  intro i
  induction i with
  | zero =>
    intro hi hn
    have hs := scAt_first V c (50 * h + 0) hn (by omega)
    have key := step1_first (inblk V c (50 * h + 0) hn) (w2blk V c (50 * h + 0) hn) (ohblk1 V c (50 * h + 0) hn)
      (mkblk V c (50 * h + 0) hn) (rIn inR h) (rW2 w2R 0) (rOh ohR 0) (rMk mkR 0)
      (inblk_real V c inR hin h 0 hh hi hn) (w2blk_real V c w2R hw2 h 0 hh hi hn)
      (ohblk1_real V c ohR hoh h 0 hh hi hn) (mkblk_real V c mkR hmk h 0 hh hi hn)
    rw [hs]
    refine ⟨fun r => tmax (rIn inR h) (rW2 w2R 0) r, fun r => (key r).1, fun r => ?_, fun r cc => ?_⟩
    · rw [(key r).2.1]
      exact congrArg (fun x : ℝ => (x : EReal)) (osm_first (rLg inR w2R h r) (ext1 mkR) _)
    · rw [(key r).2.2 cc]
      exact congrArg (fun x : ℝ => (x : EReal)) (osm_first3 (rLg inR w2R h r) (ext1 mkR) (ext1 (fun j => ohR j cc)) _)
  | succ i ih =>
    intro hi hn
    have hN : cfg1.N = 100 := N_1
    have hp : 50 * h + i < cfg1.N := by omega
    obtain ⟨sm, hm, hl, ha⟩ := ih (by omega) hp
    have hs := scAt_later V c (50 * h + (i + 1)) (50 * h + i) hn hp (by omega) (by omega)
    have key := step1_next (inblk V c (50 * h + (i + 1)) hn) (w2blk V c (50 * h + (i + 1)) hn)
      (ohblk1 V c (50 * h + (i + 1)) hn) (mkblk V c (50 * h + (i + 1)) hn)
      (rIn inR h) (rW2 w2R (i + 1)) (rOh ohR (i + 1)) (rMk mkR (i + 1)) (scAt V c (50 * h + i) hp) sm
      (fun r => ∑ n ∈ Finset.range (2048 * (i + 1)), Real.exp (rLg inR w2R h r n - sm r) * ext1 mkR n)
      (fun r cc => ∑ n ∈ Finset.range (2048 * (i + 1)),
        Real.exp (rLg inR w2R h r n - sm r) * ext1 mkR n * ext1 (fun j => ohR j cc) n)
      (inblk_real V c inR hin h (i + 1) hh hi hn) (w2blk_real V c w2R hw2 h (i + 1) hh hi hn)
      (ohblk1_real V c ohR hoh h (i + 1) hh hi hn) (mkblk_real V c mkR hmk h (i + 1) hh hi hn) hm hl ha
    rw [hs]
    refine ⟨fun r => max (sm r) (tmax (rIn inR h) (rW2 w2R (i + 1)) r), fun r => (key r).1, fun r => ?_, fun r cc => ?_⟩
    · rw [(key r).2.1]
      exact congrArg (fun x : ℝ => (x : EReal)) (osm_next (rLg inR w2R h r) (ext1 mkR) i (sm r) _)
    · rw [(key r).2.2 cc]
      exact congrArg (fun x : ℝ => (x : EReal))
        (osm_next3 (rLg inR w2R h r) (ext1 mkR) (ext1 (fun j => ohR j cc)) i (sm r) _)

/-- On an item of the padded range the logit function is the sum the statement names. -/
theorem rLg_val (inR : Fin 1024 → Fin 64 → ℝ) (w2R : Fin 64 → Fin 102400 → ℝ) (h : ℕ) (r : Fin 512)
    (hb : 512 * h + r.val < 1024) (j : Fin 102400) :
    rLg inR w2R h r j.val = ∑ d : Fin 64, inR ⟨512 * h + r.val, hb⟩ d * w2R d j := by
  refine Finset.sum_congr rfl fun d _ => ?_
  show ext1 (fun b => inR b d) (512 * h + r.val) * ext1 (w2R d) j.val = inR ⟨512 * h + r.val, hb⟩ d * w2R d j
  rw [ext1_val (w2R d) j, ← ext1_eq (fun b => inR b d) (512 * h + r.val) hb (512 * h + r.val) rfl]

/-! ## The stored block -/

/-- What the last tile of half h stores at row r, cluster cc: the masked exponentials of the padded logits of user
    512 h + r, the cluster's over all.  (The mask is 1 on the first 100000 items and 0 on the tail, so the denominator is a
    positive real.) -/
theorem out1_real (c : Dev nD) (inR : Fin 1024 → Fin 64 → ℝ) (w2R : Fin 64 → Fin 102400 → ℝ)
    (ohR : Fin 102400 → Fin 10 → ℝ) (mkR : Fin 102400 → ℝ)
    (hin : ∀ b d, inA V c (ix2 b d) = ((inR b d : ℝ) : EReal)) (hw2 : ∀ d j, w2A V c (ix2 d j) = ((w2R d j : ℝ) : EReal))
    (hoh : ∀ j cc, ohA V c (ix2 j cc) = ((ohR j cc : ℝ) : EReal)) (hmk : ∀ j, mkA V c (ix2 0 j) = ((mkR j : ℝ) : EReal))
    (hmkv : ∀ j : Fin 102400, mkR j = if j.val < 100000 then 1 else 0)
    (h : Fin 2) (r : Fin 512) (cc : Fin 10) (ht : 50 * h.val + 49 < cfg1.N) (hb : 512 * h.val + r.val < 1024) :
    out1 V c ⟨50 * h.val + 49, ht⟩ (ix2 r cc)
      = (((∑ j : Fin 102400, Real.exp (∑ d : Fin 64, inR ⟨512 * h.val + r.val, hb⟩ d * w2R d j) * mkR j * ohR j cc)
          / (∑ j : Fin 102400, Real.exp (∑ d : Fin 64, inR ⟨512 * h.val + r.val, hb⟩ d * w2R d j) * mkR j) : ℝ) : EReal) := by
  obtain ⟨sm, hm, hl, ha⟩ := scAt_real V c inR w2R ohR mkR hin hw2 hoh hmk h.val h.isLt 49 (by norm_num) ht
  have hfin := osm_final (fun j : Fin 102400 => ∑ d : Fin 64, inR ⟨512 * h.val + r.val, hb⟩ d * w2R d j) mkR
    (fun j => ohR j cc) (sm r) (rLg inR w2R h.val r) (rLg_val inR w2R h.val r hb) hmkv
  show k1_pay3 (F := Ideal) (scAt V c (50 * h.val + 49) ht).a (scAt V c (50 * h.val + 49) ht).l (ix2 r cc) = _
  rw [k1_pay3_apply (scAt V c (50 * h.val + 49) ht).a (scAt V c (50 * h.val + 49) ht).l
    (fun r cc => ∑ n ∈ Finset.range (2048 * (49 + 1)),
      Real.exp (rLg inR w2R h.val r n - sm r) * ext1 mkR n * ext1 (fun j => ohR j cc) n)
    (fun r => ∑ n ∈ Finset.range (2048 * (49 + 1)), Real.exp (rLg inR w2R h.val r n - sm r) * ext1 mkR n)
    ha hl r cc hfin.1]
  exact congrArg (fun x : ℝ => (x : EReal)) hfin.2

end Cert.KernelIdeal.Hand

end
-- ==== Proof.KI.Spec.lean ====
/-
  The mathematics both programs compute, over the reals.

  With x the cluster scores (1024 users by 10 clusters), cl the cluster of each of the 100000 items, w1 (items by 64) and
  w2 (64 by items): every item's score is its cluster's score, the logits are ((scores * w1) * w2), and the result is, per
  user and cluster, the softmax mass of the cluster's items divided by the cluster's size (clamped below by 1).  A softmax
  mass is a quotient of two sums of exponentials, so any common shift of the logits cancels: the reference shifts by the
  row maximum, the kernel by a running maximum that also sees the zero logits of the padded tail.
-/
import Idealize.ShloMosaic.PureOps.Ideal
import Idealize.ShloMosaic.Lib.ValueIdx
import Mathlib.Analysis.SpecialFunctions.Exp
import Mathlib.Algebra.BigOperators.Fin

noncomputable section

open scoped BigOperators

namespace Cert.Spec

open Idealize.ShloMosaic Idealize.ShloMosaic.ValueIdx

/-- The four inputs as real arrays, the cluster ids as numbers below 10. -/
structure Inputs where
  x : Fin 1024 → Fin 10 → ℝ
  cl : Fin 100000 → Fin 10
  w1 : Fin 100000 → Fin 64 → ℝ
  w2 : Fin 64 → Fin 100000 → ℝ

variable (I : Inputs)

/-- The sum over a cluster's items of their w1 rows. -/
def csum (c : Fin 10) (d : Fin 64) : ℝ := ∑ j : Fin 100000, if I.cl j = c then I.w1 j d else 0
/-- Scores times w1: by clusters, -/
def inner (b : Fin 1024) (d : Fin 64) : ℝ := ∑ c : Fin 10, I.x b c * csum I c d
/-- and item by item (the same number: inner_eq_inner'). -/
def inner' (b : Fin 1024) (d : Fin 64) : ℝ := ∑ j : Fin 100000, I.x b (I.cl j) * I.w1 j d
/-- The logits. -/
def logit (b : Fin 1024) (j : Fin 100000) : ℝ := ∑ d : Fin 64, inner I b d * I.w2 d j
/-- The softmax numerator of a cluster and the denominator, unshifted. -/
def num (b : Fin 1024) (c : Fin 10) : ℝ := ∑ j : Fin 100000, if I.cl j = c then Real.exp (logit I b j) else 0
def den (b : Fin 1024) : ℝ := ∑ j : Fin 100000, Real.exp (logit I b j)
/-- The softmax mass of a cluster's items. -/
def mass (b : Fin 1024) (c : Fin 10) : ℝ := num I b c / den I b

/-- A cluster's size, and the result: the mass over the size clamped below by 1. -/
def cnt (c : Fin 10) : ℝ := ∑ j : Fin 100000, if I.cl j = c then (1 : ℝ) else 0
def res (b : Fin 1024) (c : Fin 10) : ℝ := mass I b c / max (cnt I c) 1

/-- The padded forms the kernel reads (item axis 102400): the one-hot table, the padded w1 and w2, the tail mask. -/
def ohP (j : Fin 102400) (c : Fin 10) : ℝ := if h : j.val < 100000 then (if I.cl ⟨j.val, h⟩ = c then 1 else 0) else 0
def w1P (j : Fin 102400) (d : Fin 64) : ℝ := if h : j.val < 100000 then I.w1 ⟨j.val, h⟩ d else 0
def w2P (d : Fin 64) (j : Fin 102400) : ℝ := if h : j.val < 100000 then I.w2 d ⟨j.val, h⟩ else 0
def mkP (j : Fin 102400) : ℝ := if j.val < 100000 then 1 else 0
/-- The cluster sums over the padded axis, the padded logits. -/
def csumP (c : Fin 10) (d : Fin 64) : ℝ := ∑ j : Fin 102400, ohP I j c * w1P I j d
def innerP (b : Fin 1024) (d : Fin 64) : ℝ := ∑ c : Fin 10, I.x b c * csumP I c d
def logitP (b : Fin 1024) (j : Fin 102400) : ℝ := ∑ d : Fin 64, innerP I b d * w2P I d j
/-- The kernel's quotient: masked exponentials of the padded logits, by cluster over all. -/
def massP (b : Fin 1024) (c : Fin 10) : ℝ :=
  (∑ j : Fin 102400, Real.exp (logitP I b j) * mkP j * ohP I j c) / (∑ j : Fin 102400, Real.exp (logitP I b j) * mkP j)

/-- The reference's own arrangement: logits from the item-by-item product, shifted by the row maximum, each item's
    probability, summed by cluster. -/
def logit' (b : Fin 1024) (j : Fin 100000) : ℝ := ∑ d : Fin 64, inner' I b d * I.w2 d j
def rmax (b : Fin 1024) : ℝ := Finset.univ.sup' Finset.univ_nonempty (logit' I b)
def prob (b : Fin 1024) (j : Fin 100000) : ℝ :=
  Real.exp (logit' I b j - rmax I b) / (∑ j' : Fin 100000, Real.exp (logit' I b j' - rmax I b))
def refMass (b : Fin 1024) (c : Fin 10) : ℝ := ∑ j : Fin 100000, if I.cl j = c then prob I b j else 0
def refRes (b : Fin 1024) (c : Fin 10) : ℝ := refMass I b c / max (cnt I c) 1

/-- The four argument arrays hold these reals (the ids as 32-bit words). -/
structure Holds (X : (⟨2, ![1024, 10]⟩ : Shape).Idx → EReal) (CL : (⟨1, ![100000]⟩ : Shape).Idx → BitVec 32)
    (A1 : (⟨2, ![100000, 64]⟩ : Shape).Idx → EReal) (A2 : (⟨2, ![64, 100000]⟩ : Shape).Idx → EReal) : Prop where
  hx : ∀ b k, X (ix2 b k) = ((I.x b k : ℝ) : EReal)
  hcl : ∀ j, CL (ix1 j) = BitVec.ofNat 32 (I.cl j).val
  hw1 : ∀ j d, A1 (ix2 j d) = ((I.w1 j d : ℝ) : EReal)
  hw2 : ∀ d j, A2 (ix2 d j) = ((I.w2 d j : ℝ) : EReal)

end Cert.Spec

end
-- ==== Proof.KI.HostCnt.lean ====
/-
  The cluster sizes the host stretch before region 0 leaves, at the ideal instance: a scatter-add of ones at the cluster ids
  into ten zeros is, at cluster k, the number of items whose id is k.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Fold
import proofs.«428240_j80616536146381_2_alg».proof.Proof.KI.Blocks
import proofs.«428240_j80616536146381_2_alg».proof.Proof.KI.Spec
import Idealize.ShloMosaic.Lib.StableHlo.Run
import Idealize.ShloMosaic.Lib.Pipeline.Value
import Idealize.ShloMosaic.Lib.ValueLayout
import Idealize.ShloMosaic.Lib.KernelVsHost
import Idealize.ShloMosaic.Lib.IdealHost
import Idealize.ShloMosaic.Lib.StableHlo.Predicate
import proofs.«428240_j80616536146381_2_alg».proof.Proof.LibIdealReal

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- A rank-1 index set is its coordinate range. -/
def HostCnt.idxEquiv1 {n : ℕ} : (⟨1, ![n]⟩ : Shape).Idx ≃ Fin n where
  toFun i := i 0
  invFun := ix1
  left_inv i := (eq_ix1 i).symm
  right_inv _ := rfl

/-- A rank-1 index has its coordinate on its one axis, however the axis is written. -/
theorem HostCnt.ix1_val {n : ℕ} (a : Fin n) (d : Fin 1) : (ix1 a d).val = a.val := by
  match d with | ⟨0, _⟩ => rfl

/-- The scatter has no window axis: every update lands at its start. -/
theorem HostCnt.window_eq (j : Fin 100000) (a : Fin 1) :
    scatter_S10_S100000x1_S100000_n_0_0_1.window (ix1 j) a = 0 := by
  obtain rfl : a = 0 := Subsingleton.elim _ _
  unfold ScatterDims.window
  rw [dif_neg (by decide)]

/-- The start of update j on the one operand axis is the id word of row j, read signed. -/
theorem HostCnt.start_eq (idx : IVec S100000x1 32) (j : Fin 100000) (a : Fin 1) :
    scatter_S10_S100000x1_S100000_n_0_0_1.start (ix1 j) idx a = (idx (ix2 j (0 : Fin 1))).toInt := by
  obtain rfl : a = 0 := Subsingleton.elim _ _
  unfold ScatterDims.start
  split
  · refine congrArg (fun t => (idx t).toInt) (funext fun b => Fin.ext ?_)
    match b with
    | ⟨0, hb⟩ =>
      unfold ScatterDims.siIdx
      split
      · next h => exact absurd h Nat.zero_ne_one
      · unfold ScatterDims.siCoord
        exact HostCnt.ix1_val j _
    | ⟨1, hb⟩ =>
      have hl : ∀ x : Fin (S100000x1.size ⟨1, hb⟩), x.val = 0 := fun x => by
        have h : x.val < 1 := x.isLt
        omega
      exact (hl _).trans (hl _).symm
  · next h => exact absurd (List.mem_cons_self : (0 : Fin 1) ∈ [0]) h

/-- So update j lands at the cell its id names, when the id is a cluster number. -/
theorem HostCnt.resultIdx_eq (idx : IVec S100000x1 32) (j : Fin 100000) (k : Fin 10)
    (h : idx (ix2 j (0 : Fin 1)) = BitVec.ofNat 32 k.val) :
    scatter_S10_S100000x1_S100000_n_0_0_1.resultIdx? (ix1 j) idx = some (ix1 k) := by
  have hk : k.val < 10 := k.isLt
  have hs : ∀ a : Fin 1, scatter_S10_S100000x1_S100000_n_0_0_1.start (ix1 j) idx a
      + scatter_S10_S100000x1_S100000_n_0_0_1.window (ix1 j) a = (k.val : ℤ) := fun a => by
    rw [HostCnt.start_eq, HostCnt.window_eq, h, StableHlo.Predicate.toInt_ofNat_small k.val (by omega)]
    simp
  unfold ScatterDims.resultIdx?
  split
  · refine congrArg some (funext fun a => Fin.ext ?_)
    obtain rfl : a = (0 : Fin 1) := Subsingleton.elim _ _
    show (scatter_S10_S100000x1_S100000_n_0_0_1.start (ix1 j) idx 0
      + scatter_S10_S100000x1_S100000_n_0_0_1.window (ix1 j) 0).toNat = k.val
    rw [hs 0]
    exact Int.toNat_natCast k.val
  · next hout =>
    refine absurd (fun a => ?_) hout
    obtain rfl : a = (0 : Fin 1) := Subsingleton.elim _ _
    rw [hs 0]
    show (0 : ℤ) ≤ (k.val : ℤ) ∧ (k.val : ℤ) < ((10 : ℕ) : ℤ)
    omega

/-- The scatter-add at ids that are cluster numbers, read at cell cc: the cell plus the updates whose id is cc. -/
theorem HostCnt.scatterAdd_apply (x : FVec Ideal S10 .f32) (idx : IVec S100000x1 32) (upd : FVec Ideal S100000 .f32)
    (cl : Fin 100000 → Fin 10) (hidx : ∀ j : Fin 100000, idx (ix2 j (0 : Fin 1)) = BitVec.ofNat 32 (cl j).val) (cc : Fin 10) :
    (Host.scatterAdd scatter_S10_S100000x1_S100000_n_0_0_1 x idx upd (ix1 cc) : EReal)
      = (x (ix1 cc) : EReal) + ∑ j : Fin 100000, if cl j = cc then (upd (ix1 j) : EReal) else 0 := by
  show (x (ix1 cc) : EReal) + ∑ j ∈ Finset.univ.filter (fun j => scatter_S10_S100000x1_S100000_n_0_0_1.resultIdx? j idx = some (ix1 cc)), (upd j : EReal) = _
  refine congrArg (fun t : EReal => (x (ix1 cc) : EReal) + t) ?_
  rw [Finset.sum_filter, ← Equiv.sum_comp (HostCnt.idxEquiv1 (n := 100000)).symm]
  refine Finset.sum_congr rfl fun j _ => ?_
  show (if scatter_S10_S100000x1_S100000_n_0_0_1.resultIdx? (ix1 j) idx = some (ix1 cc) then (upd (ix1 j) : EReal) else 0) = _
  rw [HostCnt.resultIdx_eq idx j (cl j) (hidx j)]
  refine if_congr ⟨fun h => ?_, fun h => ?_⟩ rfl rfl
  · exact congrFun (Option.some.inj h) 0
  · rw [h]

variable (m : (ℓ : Loc nD τ sig) → Buf (Elt Ideal) ℓ) (I : Cert.Spec.Inputs)

/-- The cluster sizes: when the id array holds the specification's cluster ids as 32-bit words, entry k of the scatter-add
    of ones is the number of items in cluster k. -/
theorem cnt_of_ids (c : Dev nD)
    (hcl : ∀ j : Fin 100000, (m ((c : Thread nD τ).loc main_arg1) : (⟨1, ![100000]⟩ : Shape).Idx → BitVec 32) (ix1 j)
      = BitVec.ofNat 32 (I.cl j).val) (cc : Fin 10) :
    (V7 m c main_v18 : Vec Ideal S10 .f32) (ix1 cc) = ((Cert.Spec.cnt I cc : ℝ) : EReal) := by
  have e : (V7 m c main_v18 : Vec Ideal S10 .f32) = (Host.scatterAdd (F := Ideal) (φ := .f32) scatter_S10_S100000x1_S100000_n_0_0_1
      (broadcastInDim S10 ![] bcast_S_S10 (constant (F := Ideal) S_ .f32 0x00000000#32))
      (broadcastInDim S100000x1 ![0] bcast_S100000_S100000x1_0 (m ((c : Thread nD τ).loc main_arg1) : IVec S100000 32))
      (broadcastInDim S100000 ![] bcast_S_S100000 (constant (F := Ideal) S_ .f32 0x3F800000#32)) : Vec Ideal S10 .f32) := by
    dsimp only [V7]; unfold W7; after_results
  refine (congrFun e (ix1 cc)).trans ?_
  refine (HostCnt.scatterAdd_apply _ _ _ I.cl (fun j => ?_) cc).trans ?_
  · refine (broadcastInDim_apply ![0] bcast_S100000_S100000x1_0 _ (ix2 j (0 : Fin 1)) (ix1 j) (fun a => ?_)).trans (hcl j)
    match a with
    | ⟨0, _⟩ => show j.val = if (100000 : ℕ) = 1 then 0 else j.val; rw [if_neg (by decide)]
  · rw [broadcastInDim_scalar_apply, constant_apply, Ideal.ofBits_zero_f32, zero_add]
    unfold Cert.Spec.cnt
    rw [← IdealReal.coe_sum]
    refine Finset.sum_congr rfl fun j _ => ?_
    rw [broadcastInDim_scalar_apply, constant_apply, Ideal.ofBits_one_f32]
    split <;> simp

end Cert.KernelIdeal.Hand

end
-- ==== Proof.KI.HostV7.lean ====
/-
  What the host stretches before region 0 leave, at the ideal instance, when the arguments hold the specification's reals:
  the one-hot table of the padded cluster ids (the pad value -1 matches no cluster), W1 and W2 padded with zeros to
  102400 items, the tail mask, and the cluster sizes (a scatter-add of ones).
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Fold
import proofs.«428240_j80616536146381_2_alg».proof.Proof.KI.Blocks
import proofs.«428240_j80616536146381_2_alg».proof.Proof.KI.Spec
import proofs.«428240_j80616536146381_2_alg».proof.Proof.KI.HostCnt
import Idealize.ShloMosaic.Lib.StableHlo.Run
import Idealize.ShloMosaic.Lib.Pipeline.Value
import Idealize.ShloMosaic.Lib.ValueLayout
import Idealize.ShloMosaic.Lib.KernelVsHost
import Idealize.ShloMosaic.Lib.StableHlo.Predicate

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (I : Cert.Spec.Inputs)

/-- The arguments on core c hold the specification's reals. -/
abbrev HoldsAt (c : Dev nD) : Prop :=
  Cert.Spec.Holds I (m ((c : Thread nD τ).loc main_arg0)) (m ((c : Thread nD τ).loc main_arg1))
    (m ((c : Thread nD τ).loc main_arg2)) (m ((c : Thread nD τ).loc main_arg3))

/-! ## Words and bits -/

/-- A one-bit word converted to a float is the real 1 or 0 according to the proposition the bit decides. -/
theorem uitofp_bit (φ : FTy) (b : BitVec 1) (p : Prop) [Decidable p] (h : b = 1#1 ↔ p) :
    (FloatOps.uitofp (F := Ideal) φ b : EReal) = (((if p then 1 else 0 : ℝ)) : EReal) := by
  by_cases hp : p
  · rw [if_pos hp, h.mpr hp]
    show ((((1#1 : BitVec 1).toNat : ℝ)) : EReal) = ((1 : ℝ) : EReal)
    simp
  · rw [if_neg hp, eq_zero_of_ne_one (fun hb => hp (h.mp hb))]
    show ((((0#1 : BitVec 1).toNat : ℝ)) : EReal) = ((0 : ℝ) : EReal)
    simp

/-- A number below 2^32 is read back from its 32-bit word. -/
theorem toNat_ofNat32 (n : ℕ) (hn : n < 4294967296) : (BitVec.ofNat 32 n).toNat = n := by
  rw [BitVec.toNat_ofNat]; exact Nat.mod_eq_of_lt hn

/-- An item number, as a word, is below the word 100000 in the signed order exactly when it is below 100000. -/
theorem slt_item (j : ℕ) (hj : j < 102400) : IntOp.cmpi .slt (BitVec.ofNat 32 j) 100000#32 = 1#1 ↔ j < 100000 := by
  have h1 : (BitVec.ofNat 32 j).toNat = j := toNat_ofNat32 j (by omega)
  have h2 : (100000#32 : BitVec 32).toNat = 100000 := by decide
  rw [StableHlo.Predicate.slt_iff_toNat (by rw [h1]; omega) (by rw [h2]; omega), h1, h2]

/-- Two numbers below 2^32 are equal exactly when their 32-bit words are. -/
theorem ofNat32_eq_iff (a b : ℕ) (ha : a < 4294967296) (hb : b < 4294967296) : BitVec.ofNat 32 a = BitVec.ofNat 32 b ↔ a = b := by
  constructor
  · intro h
    have := congrArg BitVec.toNat h
    rwa [toNat_ofNat32 a ha, toNat_ofNat32 b hb] at this
  · intro h; rw [h]

/-- The rank-1 index at a coordinate, in its two spellings. -/
theorem ofFin_eq_ix1 {n : ℕ} (k : Fin n) : Shape.Idx.ofFin k = ix1 k := by
  funext a
  match a with
  | ⟨0, _⟩ => exact Fin.ext rfl

/-! ## The one-hot table -/

/-- The 100000 cluster ids padded with 2400 more entries, read at an index. -/
theorem padIds_apply (x : IVec S100000 32) (v : IVec S_ 32) (j : Fin 102400) :
    pad S102400 ![0] ![2400] ![0] x v pads_S100000_S102400_024000 h_S_ (ix1 j)
      = if h : j.val < 100000 then x (ix1 ⟨j.val, h⟩) else v ix0 := by
  by_cases h : j.val < 100000
  · rw [dif_pos h]
    refine pad_apply_of_inside _ _ _ x v _ _ (ix1 j) (ix1 ⟨j.val, h⟩) ?_
    intro a
    match a with
    | ⟨0, _⟩ => show j.val = 0 + j.val * (0 + 1); omega
  · rw [dif_neg h]
    refine (pad_apply_of_not_inside _ _ _ x v _ _ (ix1 j) (0 : Fin 1) ?_).trans ?_
    · show ¬ (0 ≤ j.val ∧ (j.val - 0) % (0 + 1) = 0 ∧ (j.val - 0) / (0 + 1) < 100000)
      omega
    · exact congrArg v (funext fun a => a.elim0)

/-- The one-hot table as the operations' term: the padded ids laid along the rows, the cluster numbers along the columns,
    compared for equality and converted. -/
theorem oh_term (c : Dev nD) :
    (V7 m c main_v7 : Vec Ideal S102400x10 .bf16) =
      uitofp (F := Ideal) .bf16 (cmpi .eq
        (broadcastInDim S102400x10 ![0, 1] bcast_S102400x1_S102400x10_0_1
          (broadcastInDim S102400x1 ![0] bcast_S102400_S102400x1_0
            (pad S102400 ![0] ![2400] ![0] (m ((c : Thread nD τ).loc main_arg1) : IVec S100000 32)
              (constantI S_ 32 4294967295#32) pads_S100000_S102400_024000 h_S_)))
        (broadcastInDim S102400x10 ![0, 1] bcast_S1x10_S102400x10_0_1
          (broadcastInDim S1x10 ![1] bcast_S10_S1x10_1 (iotaInDim S10 32 0)))) := by
  dsimp only [V7]
  unfold W7
  dsimp only [W6, W5, W4, W3, W2, W1, W0]
  after_results
  rfl

/-! ## The padded W1 and W2 -/

/-- A 100000 x 64 array padded below with 2400 rows, read at an index: the array above row 100000, the padding value from
    there on. -/
theorem padRows_apply (x : Vec Ideal S100000x64 .f32) (v : Vec Ideal S_ .f32) (j : Fin 102400) (d : Fin 64) :
    pad S102400x64 ![0, 0] ![2400, 0] ![0, 0] x v pads_S100000x64_S102400x64_024000_000 h_S_ (ix2 j d)
      = if h : j.val < 100000 then x (ix2 ⟨j.val, h⟩ d) else v ix0 := by
  by_cases h : j.val < 100000
  · rw [dif_pos h]
    refine pad_apply_of_inside _ _ _ x v _ _ (ix2 j d) (ix2 ⟨j.val, h⟩ d) ?_
    intro a
    match a with
    | ⟨0, _⟩ => show j.val = 0 + j.val * (0 + 1); omega
    | ⟨1, _⟩ => show d.val = 0 + d.val * (0 + 1); omega
  · rw [dif_neg h]
    refine (pad_apply_of_not_inside _ _ _ x v _ _ (ix2 j d) (0 : Fin 2) ?_).trans ?_
    · show ¬ (0 ≤ j.val ∧ (j.val - 0) % (0 + 1) = 0 ∧ (j.val - 0) / (0 + 1) < 100000)
      omega
    · exact congrArg v (funext fun a => a.elim0)

/-- A 64 x 100000 array padded on the right with 2400 columns, read at an index. -/
theorem padCols_apply (x : Vec Ideal S64x100000 .f32) (v : Vec Ideal S_ .f32) (d : Fin 64) (j : Fin 102400) :
    pad S64x102400 ![0, 0] ![0, 2400] ![0, 0] x v pads_S64x100000_S64x102400_000_024000 h_S_ (ix2 d j)
      = if h : j.val < 100000 then x (ix2 d ⟨j.val, h⟩) else v ix0 := by
  by_cases h : j.val < 100000
  · rw [dif_pos h]
    refine pad_apply_of_inside _ _ _ x v _ _ (ix2 d j) (ix2 d ⟨j.val, h⟩) ?_
    intro a
    match a with
    | ⟨0, _⟩ => show d.val = 0 + d.val * (0 + 1); omega
    | ⟨1, _⟩ => show j.val = 0 + j.val * (0 + 1); omega
  · rw [dif_neg h]
    refine (pad_apply_of_not_inside _ _ _ x v _ _ (ix2 d j) (1 : Fin 2) ?_).trans ?_
    · show ¬ (0 ≤ j.val ∧ (j.val - 0) % (0 + 1) = 0 ∧ (j.val - 0) / (0 + 1) < 100000)
      omega
    · exact congrArg v (funext fun a => a.elim0)

/-- The padded W1 as the operations' term: W1 padded with the integer constant 0 converted to a float. -/
theorem w1_term (c : Dev nD) :
    (V7 m c main_v8 : Vec Ideal S102400x64 .f32) =
      pad S102400x64 ![0, 0] ![2400, 0] ![0, 0] (m ((c : Thread nD τ).loc main_arg2) : Vec Ideal S100000x64 .f32)
        (sitofp (F := Ideal) .f32 (constantI S_ 32 0#32) : Vec Ideal S_ .f32) pads_S100000x64_S102400x64_024000_000 h_S_ := by
  dsimp only [V7]
  unfold W7
  dsimp only [W6, W5, W4, W3, W2, W1, W0]
  after_results
  rfl

/-- The padded W2 as the operations' term. -/
theorem w2_term (c : Dev nD) :
    (V7 m c main_v9 : Vec Ideal S64x102400 .f32) =
      pad S64x102400 ![0, 0] ![0, 2400] ![0, 0] (m ((c : Thread nD τ).loc main_arg3) : Vec Ideal S64x100000 .f32)
        (sitofp (F := Ideal) .f32 (constantI S_ 32 0#32) : Vec Ideal S_ .f32) pads_S64x100000_S64x102400_000_024000 h_S_ := by
  dsimp only [V7]
  unfold W7
  dsimp only [W6, W5, W4, W3, W2, W1, W0]
  after_results
  rfl

/-- The integer constant 0 converted to a float is the real 0. -/
theorem sitofp_const_zero : (sitofp (F := Ideal) .f32 (constantI S_ 32 0#32) : Vec Ideal S_ .f32) ix0 = ((0 : ℝ) : EReal) := by
  show ((((0#32 : BitVec 32).toInt : ℝ)) : EReal) = ((0 : ℝ) : EReal)
  simp

/-! ## The tail mask -/

/-- The tail mask as the operations' term: the item numbers compared with 100000, converted, laid as one row. -/
theorem mk_term (c : Dev nD) :
    (V7 m c main_v14 : Vec Ideal S1x102400 .f32) =
      broadcastInDim S1x102400 ![1] bcast_S102400_S1x102400_1
        (uitofp (F := Ideal) .f32 (cmpi .slt (iotaInDim S102400 32 0)
          (broadcastInDim S102400 ![] bcast_S_S102400 (constantI S_ 32 100000#32)))) := by
  dsimp only [V7]
  unfold W7
  after_results

theorem ohA_V7 (c : Dev nD) (H : HoldsAt m I c) (j : Fin 102400) (cc : Fin 10) :
    ohA (V7 m) c (ix2 j cc) = ((Cert.Spec.ohP I j cc : ℝ) : EReal) := by
  show (V7 m c main_v7 : Vec Ideal S102400x10 .bf16) (ix2 j cc) = _
  rw [oh_term]
  show FloatOps.uitofp (F := Ideal) .bf16 (IntOp.cmpi .eq
      (broadcastInDim S102400x10 ![0, 1] bcast_S102400x1_S102400x10_0_1
          (broadcastInDim S102400x1 ![0] bcast_S102400_S102400x1_0
            (pad S102400 ![0] ![2400] ![0] (m ((c : Thread nD τ).loc main_arg1) : IVec S100000 32)
              (constantI S_ 32 4294967295#32) pads_S100000_S102400_024000 h_S_)) (ix2 j cc))
      (broadcastInDim S102400x10 ![0, 1] bcast_S1x10_S102400x10_0_1
          (broadcastInDim S1x10 ![1] bcast_S10_S1x10_1 (iotaInDim S10 32 0)) (ix2 j cc))) = _
  rw [show (ix2 j cc : S102400x10.Idx) = StableHlo.Predicate.ij j cc from rfl,
    StableHlo.Predicate.bcast_rows, StableHlo.Predicate.bcast_cols, ofFin_eq_ix1, ofFin_eq_ix1]
  show FloatOps.uitofp (F := Ideal) .bf16 (IntOp.cmpi .eq
      (pad S102400 ![0] ![2400] ![0] (m ((c : Thread nD τ).loc main_arg1) : IVec S100000 32)
              (constantI S_ 32 4294967295#32) pads_S100000_S102400_024000 h_S_ (ix1 j))
      (BitVec.ofNat 32 cc.val)) = _
  rw [padIds_apply]
  unfold Cert.Spec.ohP
  have hc := cc.isLt
  by_cases h : j.val < 100000
  · rw [dif_pos h, dif_pos h, H.hcl ⟨j.val, h⟩]
    have hk := (I.cl ⟨j.val, h⟩).isLt
    exact uitofp_bit _ _ _ (StableHlo.Predicate.cmpi_eq_iff.trans
      ((ofNat32_eq_iff _ _ (by omega) (by omega)).trans Fin.val_inj))
  · rw [dif_neg h, dif_neg h]
    refine (uitofp_bit _ _ False (StableHlo.Predicate.cmpi_eq_iff.trans ⟨fun e => ?_, False.elim⟩)).trans (by rw [if_neg not_false])
    have e' := (ofNat32_eq_iff 4294967295 cc.val (by omega) (by omega)).mp e
    omega

theorem w1A_V7 (c : Dev nD) (H : HoldsAt m I c) (j : Fin 102400) (d : Fin 64) :
    w1A (V7 m) c (ix2 j d) = ((Cert.Spec.w1P I j d : ℝ) : EReal) := by
  show (V7 m c main_v8 : Vec Ideal S102400x64 .f32) (ix2 j d) = _
  rw [w1_term, padRows_apply]
  unfold Cert.Spec.w1P
  by_cases h : j.val < 100000
  · rw [dif_pos h, dif_pos h]; exact H.hw1 ⟨j.val, h⟩ d
  · rw [dif_neg h, dif_neg h]; exact sitofp_const_zero

theorem w2A_V7 (c : Dev nD) (H : HoldsAt m I c) (d : Fin 64) (j : Fin 102400) :
    w2A (V7 m) c (ix2 d j) = ((Cert.Spec.w2P I d j : ℝ) : EReal) := by
  show (V7 m c main_v9 : Vec Ideal S64x102400 .f32) (ix2 d j) = _
  rw [w2_term, padCols_apply]
  unfold Cert.Spec.w2P
  by_cases h : j.val < 100000
  · rw [dif_pos h, dif_pos h]; exact H.hw2 d ⟨j.val, h⟩
  · rw [dif_neg h, dif_neg h]; exact sitofp_const_zero

theorem mkA_V7 (c : Dev nD) (j : Fin 102400) :
    mkA (V7 m) c (ix2 0 j) = ((Cert.Spec.mkP j : ℝ) : EReal) := by
  show (V7 m c main_v14 : Vec Ideal S1x102400 .f32) (ix2 0 j) = _
  rw [mk_term]
  refine (broadcastInDim_apply ![1] bcast_S102400_S1x102400_1 _ (ix2 0 j) (ix1 j) ?_).trans ?_
  · intro a
    match a with
    | ⟨0, _⟩ => rfl
  show FloatOps.uitofp (F := Ideal) .f32 (IntOp.cmpi .slt (BitVec.ofNat 32 j.val) 100000#32) = _
  unfold Cert.Spec.mkP
  exact uitofp_bit _ _ _ (slt_item j.val j.isLt)

/-- The cluster sizes, at their literal type. -/
abbrev cntV7 (c : Dev nD) : Vec Ideal S10 .f32 := V7 m c main_v18

theorem cnt_V7 (c : Dev nD) (H : HoldsAt m I c) (cc : Fin 10) :
    cntV7 m c (ix1 cc) = ((Cert.Spec.cnt I cc : ℝ) : EReal) :=
  cnt_of_ids m I c H.hcl cc

end Cert.KernelIdeal.Hand

end
-- ==== Proof.KI.HostMid.lean ====
/-
  The host operations between and after the regions, at the ideal instance: the product of the scores with region 0's
  cluster sums, the arrays region 1 reads unchanged since region 0's entry, and the final division by the clamped sizes.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Fold
import proofs.«428240_j80616536146381_2_alg».proof.Proof.KI.Blocks
import Idealize.ShloMosaic.Lib.StableHlo.Run
import Idealize.ShloMosaic.Lib.Pipeline.Value
import Idealize.ShloMosaic.Lib.Pipeline.FrameSuffix
import Idealize.ShloMosaic.Lib.ValueLayout
import Idealize.ShloMosaic.PureOps.Ideal.Laws
import Idealize.ShloMosaic.Lib.IdealHost
import proofs.«428240_j80616536146381_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ)

/-- The arrays of this module at their literal types: the scores, region 0's output array before and after the
    boundary, the sizes, region 1's output array, the result. -/
abbrev xArg (c : Dev nD) : Vec Ideal S1024x10 .f32 := m ((c : Thread nD τ).loc main_arg0)
abbrev csA (c : Dev nD) : Vec Ideal S10x64 .f32 := V8 m c main_v19
abbrev cs0 (c : Dev nD) : Vec Ideal S10x64 .f32 := (dat0 (V7 m) c).arrAt 2 cfg0.N
abbrev cntA (c : Dev nD) : Vec Ideal S10 .f32 := V7 m c main_v18
abbrev outA (c : Dev nD) : Vec Ideal S1024x10 .f32 := (dat1 (V9 m) c).arrAt 4 cfg1.N
abbrev resA (c : Dev nD) : Vec Ideal S1024x10 .f32 := W11 m c (Proc.devRef .tc main_v26)

/-! ## The fold at single buffers -/

/-- Region 0 leaves each of its arrays at what its pipeline leaves there, -/
private theorem r0_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
/-- and every other buffer as entered. -/
private theorem r0_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
/-- The same for region 1. -/
private theorem r1_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
private theorem r1_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
/-- The product writes only its own result. -/
private theorem mid_of_ne (c : Dev nD) (b : Ref sig .tc) (hb : b ∉ hostOps1_W) :
    W9 m c (Proc.devRef .tc b) = W8 m c (Proc.devRef .tc b) := by
  unfold W9; exact StableHlo.after_of_writes_sub hostOps1 (W8 m c) hostOps1_writes hb

/-- Nothing before region 1 writes the scores: they are the launch memory. -/
private theorem arg0_W8 (c : Dev nD) : W8 m c (Proc.devRef .tc main_arg0) = m ((c : Thread nD τ).loc main_arg0) :=
  calc W8 m c (Proc.devRef .tc main_arg0)
    _ = W7 m c (Proc.devRef .tc main_arg0) := r0_of_ne m c main_arg0 (by decide)
    _ = W6 m c (Proc.devRef .tc main_arg0) := by
          unfold W7; exact StableHlo.after_of_writes_sub hostOps0_6 (W6 m c) hostOps0_6_writes (by decide)
    _ = W5 m c (Proc.devRef .tc main_arg0) := StableHlo.after_of_writes_sub hostOps0_5 (W5 m c) hostOps0_5_writes (by decide)
    _ = W4 m c (Proc.devRef .tc main_arg0) := StableHlo.after_of_writes_sub hostOps0_4 (W4 m c) hostOps0_4_writes (by decide)
    _ = W3 m c (Proc.devRef .tc main_arg0) := StableHlo.after_of_writes_sub hostOps0_3 (W3 m c) hostOps0_3_writes (by decide)
    _ = W2 m c (Proc.devRef .tc main_arg0) := StableHlo.after_of_writes_sub hostOps0_2 (W2 m c) hostOps0_2_writes (by decide)
    _ = W1 m c (Proc.devRef .tc main_arg0) := StableHlo.after_of_writes_sub hostOps0_1 (W1 m c) hostOps0_1_writes (by decide)
    _ = W0 m c (Proc.devRef .tc main_arg0) := StableHlo.after_of_writes_sub hostOps0 (W0 m c) hostOps0_writes (by decide)
    _ = m ((c : Thread nD τ).loc main_arg0) := rfl

/-- Region 0's output array, as region 1's side finds it. -/
theorem v19_V8 (c : Dev nD) (cc : Fin 10) (d : Fin 64) : csA m c (ix2 cc d) = cs0 m c (ix2 cc d) :=
  congrFun (r0_arr m c 2) (ix2 cc d)

/-! ## The small product read at an index -/

/-- The operand indices of the product, axis by axis: the left operand's row is the result's row, its column the
    contraction index; the right operand's row is the contraction index, its column the result's column. -/
private theorem lhs_dot_0 (i : S1024x64.Idx) (q : dot_S1024x10_S10x64_S1024x64_1_0_0_1_n_n.contr.Idx) :
    (dot_S1024x10_S10x64_S1024x64_1_0_0_1_n_n.lhsIdx i q 0).val = (i 0).val := by
  unfold DotDims.lhsIdx
  rw [dif_neg (show ¬(0 : Fin S1024x10.rank) ∈ dot_S1024x10_S10x64_S1024x64_1_0_0_1_n_n.lhsBatch by decide), dif_pos (show (0 : Fin S1024x10.rank) ∈ dot_S1024x10_S10x64_S1024x64_1_0_0_1_n_n.lhsNonContracting by decide)]
  rfl
private theorem lhs_dot_1 (i : S1024x64.Idx) (q : dot_S1024x10_S10x64_S1024x64_1_0_0_1_n_n.contr.Idx) :
    (dot_S1024x10_S10x64_S1024x64_1_0_0_1_n_n.lhsIdx i q 1).val = (q ⟨0, by decide⟩).val :=
  dot_S1024x10_S10x64_S1024x64_1_0_0_1_n_n.lhsIdx_val_of_single rfl i q
private theorem rhs_dot_0 (i : S1024x64.Idx) (q : dot_S1024x10_S10x64_S1024x64_1_0_0_1_n_n.contr.Idx) :
    (dot_S1024x10_S10x64_S1024x64_1_0_0_1_n_n.rhsIdx i q 0).val = (q ⟨0, by decide⟩).val :=
  dot_S1024x10_S10x64_S1024x64_1_0_0_1_n_n.rhsIdx_val_of_single rfl i q
private theorem rhs_dot_1 (i : S1024x64.Idx) (q : dot_S1024x10_S10x64_S1024x64_1_0_0_1_n_n.contr.Idx) :
    (dot_S1024x10_S10x64_S1024x64_1_0_0_1_n_n.rhsIdx i q 1).val = (i 1).val := by
  unfold DotDims.rhsIdx
  rw [dif_neg (show ¬(1 : Fin S10x64.rank) ∈ dot_S1024x10_S10x64_S1024x64_1_0_0_1_n_n.rhsBatch by decide), dif_pos (show (1 : Fin S10x64.rank) ∈ dot_S1024x10_S10x64_S1024x64_1_0_0_1_n_n.rhsNonContracting by decide)]
  rfl

/-- At the ideal values the host's product of a 1024 x 10 by a 10 x 64 array is the sum over the ten. -/
private theorem dot_apply (x : FVec Ideal S1024x10 .f32) (y : FVec Ideal S10x64 .f32) (b : Fin 1024) (d : Fin 64) :
    Host.dotGeneral (F := Ideal) (φ₁ := .f32) (φ₂ := .f32) dot_S1024x10_S10x64_S1024x64_1_0_0_1_n_n none x y (ix2 b d) = ∑ cc : Fin 10, x (ix2 b cc) * y (ix2 cc d) := by
  simp only [Host.dotGeneral]
  rw [Ideal.dotGeneral_apply, ← Equiv.sum_comp (ValueIdx.contrEquiv1 dot_S1024x10_S10x64_S1024x64_1_0_0_1_n_n 10 rfl rfl).symm]
  refine Finset.sum_congr rfl fun k _ => ?_
  have hk := ValueIdx.contrEquiv1_symm_val dot_S1024x10_S10x64_S1024x64_1_0_0_1_n_n 10 rfl rfl k
  have el : dot_S1024x10_S10x64_S1024x64_1_0_0_1_n_n.lhsIdx (ix2 b d) ((ValueIdx.contrEquiv1 dot_S1024x10_S10x64_S1024x64_1_0_0_1_n_n 10 rfl rfl).symm k) = ix2 b k := funext fun a => Fin.ext (by
    match a with
    | ⟨0, _⟩ => exact lhs_dot_0 _ _
    | ⟨1, _⟩ => exact (lhs_dot_1 _ _).trans hk)
  have er : dot_S1024x10_S10x64_S1024x64_1_0_0_1_n_n.rhsIdx (ix2 b d) ((ValueIdx.contrEquiv1 dot_S1024x10_S10x64_S1024x64_1_0_0_1_n_n 10 rfl rfl).symm k) = ix2 k d := funext fun a => Fin.ext (by
    match a with
    | ⟨0, _⟩ => exact (rhs_dot_0 _ _).trans hk
    | ⟨1, _⟩ => exact rhs_dot_1 _ _)
  rw [el, er]

/-- What the product stretch leaves in its result array. -/
private theorem v20_W9 (c : Dev nD) : (W9 m c (Proc.devRef .tc main_v20) : Vec Ideal S1024x64 .f32)
    = Host.dotGeneral (F := Ideal) (φ₁ := .f32) (φ₂ := .f32) dot_S1024x10_S10x64_S1024x64_1_0_0_1_n_n none
        (W8 m c (Proc.devRef .tc main_arg0) : Vec Ideal S1024x10 .f32) (W8 m c (Proc.devRef .tc main_v19) : Vec Ideal S10x64 .f32) := by
  unfold W9
  dsimp only [hostOps1]
  after_results

/-- The small product: scores times cluster sums. -/
theorem inA_V9 (c : Dev nD) (b : Fin 1024) (d : Fin 64) :
    inA (V9 m) c (ix2 b d) = ∑ cc : Fin 10, xArg m c (ix2 b cc) * csA m c (ix2 cc d) := by
  show (W9 m c (Proc.devRef .tc main_v20) : Vec Ideal S1024x64 .f32) (ix2 b d) = _
  rw [v20_W9, arg0_W8]
  exact dot_apply _ _ b d

/-- Region 0 and the product write none of the padded W2, the one-hot table, the mask, the sizes. -/
theorem w2A_V9 (c : Dev nD) : w2A (V9 m) c = w2A (V7 m) c :=
  (mid_of_ne m c main_v9 (by decide)).trans (r0_of_ne m c main_v9 (by decide))
theorem ohA_V9 (c : Dev nD) : ohA (V9 m) c = ohA (V7 m) c :=
  (mid_of_ne m c main_v7 (by decide)).trans
    ((r0_arr m c 1).trans (((dat0 (V7 m) c).arrAt_in 1 rfl _).trans (A_eq0 (V7 m) c 1)))
theorem mkA_V9 (c : Dev nD) : mkA (V9 m) c = mkA (V7 m) c :=
  (mid_of_ne m c main_v14 (by decide)).trans (r0_of_ne m c main_v14 (by decide))

/-! ## The final division read at an index -/

/-- What the last stretch leaves in the result array. -/
private theorem v26_W11 (c : Dev nD) : (W11 m c (Proc.devRef .tc main_v26) : Vec Ideal S1024x10 .f32)
    = Host.divf (F := Ideal) (φ := .f32) (W10 m c (Proc.devRef .tc main_v21) : Vec Ideal S1024x10 .f32)
        (broadcastInDim S1024x10 ![0, 1] bcast_S1x10_S1024x10_0_1 (broadcastInDim S1x10 ![1] bcast_S10_S1x10_1
          (maximumf (F := Ideal) (φ := .f32) (W10 m c (Proc.devRef .tc main_v18) : Vec Ideal S10 .f32)
            (broadcastInDim S10 ![] bcast_S_S10 (constant (F := Ideal) S_ .f32 0x3F800000#32))))) := by
  unfold W11
  dsimp only [hostOps2]
  after_results

/-- At the ideal values: the quotient by the larger of the size and one, the size read at the column. -/
private theorem tail_apply (o : FVec Ideal S1024x10 .f32) (n : FVec Ideal S10 .f32) (b : Fin 1024) (cc : Fin 10) :
    Host.divf (F := Ideal) (φ := .f32) o
        (broadcastInDim S1024x10 ![0, 1] bcast_S1x10_S1024x10_0_1 (broadcastInDim S1x10 ![1] bcast_S10_S1x10_1
          (maximumf (F := Ideal) (φ := .f32) n
            (broadcastInDim S10 ![] bcast_S_S10 (constant (F := Ideal) S_ .f32 0x3F800000#32))))) (ix2 b cc)
      = Ideal.div (o (ix2 b cc)) (max (n (ix1 cc)) 1) := by
  rw [ValueIdx.hostDivf_apply]
  refine congrArg (Ideal.div (o (ix2 b cc))) ?_
  rw [broadcastInDim_apply _ bcast_S1x10_S1024x10_0_1 _ (ix2 b cc) (ix2 (0 : Fin 1) cc) (fun a => match a with
    | ⟨0, _⟩ => by show (0 : Fin 1).val = if (1 : Nat) = 1 then 0 else b.val; rw [if_pos rfl]; rfl
    | ⟨1, _⟩ => by show cc.val = if (10 : Nat) = 1 then 0 else cc.val; rw [if_neg (by decide)])]
  rw [broadcastInDim_apply _ bcast_S10_S1x10_1 _ (ix2 (0 : Fin 1) cc) (ix1 cc) (fun a => match a with
    | ⟨0, _⟩ => by show cc.val = if (10 : Nat) = 1 then 0 else cc.val; rw [if_neg (by decide)])]
  show max (n (ix1 cc)) (broadcastInDim S10 ![] bcast_S_S10 (constant (F := Ideal) S_ .f32 0x3F800000#32) (ix1 cc)) = _
  rw [ValueIdx.broadcastInDim_scalar_apply]
  show max (n (ix1 cc)) (Ideal.ofBits .f32 0x3F800000#32) = _
  rw [Ideal.ofBits_one_f32]

/-- The sizes are as region 0 found them: neither region and neither later stretch writes them before they are read. -/
private theorem v18_W10 (c : Dev nD) : W10 m c (Proc.devRef .tc main_v18) = W7 m c (Proc.devRef .tc main_v18) :=
  (r1_of_ne m c main_v18 (by decide)).trans ((mid_of_ne m c main_v18 (by decide)).trans (r0_of_ne m c main_v18 (by decide)))

/-- The result: region 1's output array over the sizes clamped below by 1. -/
theorem result_W11 (c : Dev nD) (b : Fin 1024) (cc : Fin 10) :
    resA m c (ix2 b cc) = Ideal.div (outA m c (ix2 b cc)) (max (cntA m c (ix1 cc)) 1) := by
  show (W11 m c (Proc.devRef .tc main_v26) : Vec Ideal S1024x10 .f32) (ix2 b cc) = _
  rw [v26_W11, v18_W10, r1_arr m c 4]
  exact tail_apply _ _ b cc

end Cert.KernelIdeal.Hand

end
-- ==== Proof.KI.SpecMath.lean ====
/-
  The two arrangements agree.  Summing an item's score times w1 by clusters or item by item gives the same product; the
  padded tail adds zeros to every sum; and a softmax mass is unchanged by shifting every logit by the same number.
-/
import proofs.«428240_j80616536146381_2_alg».proof.Proof.KI.Spec

noncomputable section

open scoped BigOperators

namespace Cert.Spec

variable (I : Inputs)

/-! ## Sums by clusters -/

/-- A weighted sum taken cluster by cluster is the same sum taken item by item. -/
theorem sum_by_cluster {ι κ : Type} [Fintype ι] [Fintype κ] [DecidableEq κ] (x : κ → ℝ) (cl : ι → κ) (w : ι → ℝ) :
    ∑ c : κ, x c * (∑ j : ι, if cl j = c then w j else 0) = ∑ j : ι, x (cl j) * w j := by
  simp_rw [Finset.mul_sum]
  rw [Finset.sum_comm]
  refine Finset.sum_congr rfl fun j _ => ?_
  simp only [mul_ite, mul_zero]
  rw [Finset.sum_ite_eq]
  simp

/-- By clusters or item by item. -/
theorem inner_eq_inner' (b : Fin 1024) (d : Fin 64) : inner I b d = inner' I b d := by
  unfold inner inner' csum
  exact sum_by_cluster (fun c => I.x b c) I.cl (fun j => I.w1 j d)

/-! ## A common shift cancels -/

/-- Dividing every selected term by S divides the selected sum by S. -/
theorem sum_ite_div {ι : Type} [Fintype ι] (p : ι → Prop) [DecidablePred p] (e : ι → ℝ) (S : ℝ) :
    (∑ j : ι, if p j then e j / S else 0) = (∑ j : ι, if p j then e j else 0) / S := by
  rw [Finset.sum_div]
  refine Finset.sum_congr rfl fun j _ => ?_
  split_ifs
  · rfl
  · rw [zero_div]

/-- exp (L - M) = exp L * exp (-M). -/
theorem exp_shift (L M : ℝ) : Real.exp (L - M) = Real.exp L * Real.exp (-M) := by
  rw [sub_eq_add_neg, Real.exp_add]

/-- Shifting every logit by M multiplies numerator and denominator by exp (-M), which cancels. -/
theorem mass_shift {ι : Type} [Fintype ι] (p : ι → Prop) [DecidablePred p] (L : ι → ℝ) (M : ℝ) :
    (∑ j : ι, if p j then Real.exp (L j - M) / (∑ j' : ι, Real.exp (L j' - M)) else 0)
      = (∑ j : ι, if p j then Real.exp (L j) else 0) / (∑ j : ι, Real.exp (L j)) := by
  rw [sum_ite_div]
  have hM : Real.exp (-M) ≠ 0 := (Real.exp_pos _).ne'
  have hn : (∑ j : ι, if p j then Real.exp (L j - M) else 0)
      = (∑ j : ι, if p j then Real.exp (L j) else 0) * Real.exp (-M) := by
    rw [Finset.sum_mul]
    refine Finset.sum_congr rfl fun j _ => ?_
    rw [exp_shift, ite_mul, zero_mul]
  have hd : (∑ j : ι, Real.exp (L j - M)) = (∑ j : ι, Real.exp (L j)) * Real.exp (-M) := by
    rw [Finset.sum_mul]
    exact Finset.sum_congr rfl fun j _ => exp_shift (L j) M
  rw [hn, hd, mul_div_mul_right _ _ hM]

/-- The two products give the same logits. -/
theorem logit'_eq_logit (b : Fin 1024) (j : Fin 100000) : logit' I b j = logit I b j := by
  unfold logit' logit
  refine Finset.sum_congr rfl fun d _ => ?_
  rw [inner_eq_inner']

/-- The reference's mass, shifted by the row maximum, is the unshifted mass. -/
theorem refMass_eq_mass (b : Fin 1024) (c : Fin 10) : refMass I b c = mass I b c := by
  unfold refMass mass prob num den
  simp only [logit'_eq_logit]
  exact mass_shift (fun j => I.cl j = c) (fun j => logit I b j) (rmax I b)

/-- The reference's arrangement is the specification. -/
theorem refRes_eq_res (b : Fin 1024) (c : Fin 10) : refRes I b c = res I b c := by
  unfold refRes res
  rw [refMass_eq_mass]

/-! ## The padded tail adds zeros -/

/-- A sum over a padded axis whose tail terms vanish is the sum over the unpadded axis. -/
theorem sum_pad (N n : ℕ) (hN : n ≤ N) (f : Fin N → ℝ) (h : ∀ j : Fin N, n ≤ j.val → f j = 0) :
    ∑ j : Fin N, f j = ∑ j : Fin n, f ⟨j.val, lt_of_lt_of_le j.isLt hN⟩ := by
  obtain ⟨m, rfl⟩ := Nat.exists_eq_add_of_le hN
  rw [Fin.sum_univ_add]
  have ht : ∑ i : Fin m, f (Fin.natAdd n i) = 0 :=
    Finset.sum_eq_zero fun i _ => h _ (by rw [Fin.coe_natAdd]; exact Nat.le_add_right _ _)
  rw [ht, add_zero]
  exact Finset.sum_congr rfl fun i _ => congrArg f (Fin.ext rfl)

/-- The padded tables below 100000 are the unpadded ones, -/
theorem ohP_lt (j : Fin 100000) (c : Fin 10) (h : j.val < 102400) :
    ohP I ⟨j.val, h⟩ c = if I.cl j = c then 1 else 0 := by
  unfold ohP
  rw [dif_pos j.isLt]

theorem w1P_lt (j : Fin 100000) (d : Fin 64) (h : j.val < 102400) : w1P I ⟨j.val, h⟩ d = I.w1 j d := by
  unfold w1P
  rw [dif_pos j.isLt]

theorem w2P_lt (d : Fin 64) (j : Fin 100000) (h : j.val < 102400) : w2P I d ⟨j.val, h⟩ = I.w2 d j := by
  unfold w2P
  rw [dif_pos j.isLt]

theorem mkP_lt (j : Fin 100000) (h : j.val < 102400) : mkP ⟨j.val, h⟩ = 1 := by
  unfold mkP
  rw [if_pos j.isLt]

/-- and from 100000 on they are zero. -/
theorem ohP_ge (j : Fin 102400) (c : Fin 10) (h : 100000 ≤ j.val) : ohP I j c = 0 := by
  unfold ohP
  rw [dif_neg (not_lt.mpr h)]

theorem mkP_ge (j : Fin 102400) (h : 100000 ≤ j.val) : mkP j = 0 := by
  unfold mkP
  rw [if_neg (not_lt.mpr h)]

/-- The cluster sums over the padded axis are the cluster sums. -/
theorem csumP_eq_csum (c : Fin 10) (d : Fin 64) : csumP I c d = csum I c d := by
  unfold csumP csum
  rw [sum_pad 102400 100000 (by norm_num) (fun j => ohP I j c * w1P I j d)
    (fun j hj => by rw [ohP_ge I j c hj, zero_mul])]
  refine Finset.sum_congr rfl fun j _ => ?_
  simp only [ohP_lt, w1P_lt, ite_mul, one_mul, zero_mul]

theorem innerP_eq_inner (b : Fin 1024) (d : Fin 64) : innerP I b d = inner I b d := by
  unfold innerP inner
  simp only [csumP_eq_csum]

/-- The padded logits below 100000 are the logits. -/
theorem logitP_lt (b : Fin 1024) (j : Fin 100000) (h : j.val < 102400) : logitP I b ⟨j.val, h⟩ = logit I b j := by
  unfold logitP logit
  refine Finset.sum_congr rfl fun d _ => ?_
  rw [innerP_eq_inner, w2P_lt]

/-- The kernel's padded, masked arrangement is the specification's mass. -/
theorem massP_eq_mass (b : Fin 1024) (c : Fin 10) : massP I b c = mass I b c := by
  unfold massP mass num den
  rw [sum_pad 102400 100000 (by norm_num) (fun j => Real.exp (logitP I b j) * mkP j * ohP I j c)
      (fun j hj => by rw [ohP_ge I j c hj, mul_zero]),
    sum_pad 102400 100000 (by norm_num) (fun j => Real.exp (logitP I b j) * mkP j)
      (fun j hj => by rw [mkP_ge j hj, mul_zero])]
  simp only [logitP_lt, mkP_lt, ohP_lt, mul_one, mul_ite, mul_zero]

end Cert.Spec

end
-- ==== Proof.KI.KernelValue.lean ====
/-
  The kernel's result, read at an index, in the real numbers of the specification: the final division of region 1's output
  by the clamped sizes; region 1's output the softmax mass over the padded, masked items of the logits
  (scores x cluster sums of W1) x W2; region 0's output the cluster sums.
-/
import proofs.«428240_j80616536146381_2_alg».proof.Proof.Gen.KernelIdeal.Launch
import proofs.«428240_j80616536146381_2_alg».proof.Proof.Gen.KernelIdeal.Skeleton
import proofs.«428240_j80616536146381_2_alg».proof.Proof.Gen.KernelIdeal.Points
import proofs.«428240_j80616536146381_2_alg».proof.Proof.KI.Fold
import proofs.«428240_j80616536146381_2_alg».proof.Proof.KI.Blocks
import proofs.«428240_j80616536146381_2_alg».proof.Proof.KI.Val0
import proofs.«428240_j80616536146381_2_alg».proof.Proof.KI.Val1
import proofs.«428240_j80616536146381_2_alg».proof.Proof.KI.HostV7
import proofs.«428240_j80616536146381_2_alg».proof.Proof.KI.HostMid
import proofs.«428240_j80616536146381_2_alg».proof.Proof.KI.Spec
import proofs.«428240_j80616536146381_2_alg».proof.Proof.KI.SpecMath
import proofs.«428240_j80616536146381_2_alg».proof.Proof.LibIdealReal

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (I : Cert.Spec.Inputs)

/-- The kernel's result at user b, cluster cc, when the arguments hold the specification's reals. -/
theorem kernel_result (c : Dev nD) (H : HoldsAt m I c) (b : Fin 1024) (cc : Fin 10) :
    resA m c (ix2 b cc) = ((Cert.Spec.res I b cc : ℝ) : EReal) := by
  have hbl : b.val < 1024 := b.isLt
  have hN : cfg1.N = 100 := N_1
  have hq : b.val / 512 < 2 := by omega
  have hr : b.val % 512 < 512 := Nat.mod_lt _ (by norm_num)
  have ht : 50 * (b.val / 512) + 49 < cfg1.N := by omega
  have hb' : 512 * (b.val / 512) + b.val % 512 < 1024 := by omega
  have hbb : (⟨512 * (b.val / 512) + b.val % 512, hb'⟩ : Fin 1024) = b := Fin.ext (Nat.div_add_mod b.val 512)
  -- region 0's output array is the padded cluster sums
  have hcs : ∀ (k : Fin 10) (d : Fin 64), csA m c (ix2 k d) = ((Cert.Spec.csumP I k d : ℝ) : EReal) := fun k d =>
    (v19_V8 m c k d).trans ((arrAt0_2 (V7 m) c k d).trans
      ((acc0_real (V7 m) c (Cert.Spec.ohP I) (Cert.Spec.w1P I) (ohA_V7 m I c H) (w1A_V7 m I c H) k d).trans rfl))
  -- region 1's first input is the scores times those sums
  have hin : ∀ (b' : Fin 1024) (d : Fin 64), inA (V9 m) c (ix2 b' d) = ((Cert.Spec.innerP I b' d : ℝ) : EReal) := fun b' d =>
    calc inA (V9 m) c (ix2 b' d)
        = ∑ k : Fin 10, xArg m c (ix2 b' k) * csA m c (ix2 k d) := inA_V9 m c b' d
      _ = ∑ k : Fin 10, ((I.x b' k * Cert.Spec.csumP I k d : ℝ) : EReal) :=
          Finset.sum_congr rfl fun k _ => by
            rw [show xArg m c (ix2 b' k) = ((I.x b' k : ℝ) : EReal) from H.hx b' k, hcs k d, EReal.coe_mul]
      _ = ((Cert.Spec.innerP I b' d : ℝ) : EReal) := IdealReal.coe_sum _ _
  have hw2 : ∀ (d : Fin 64) (j : Fin 102400), w2A (V9 m) c (ix2 d j) = ((Cert.Spec.w2P I d j : ℝ) : EReal) := fun d j => by
    rw [w2A_V9]; exact w2A_V7 m I c H d j
  have hoh : ∀ (j : Fin 102400) (k : Fin 10), ohA (V9 m) c (ix2 j k) = ((Cert.Spec.ohP I j k : ℝ) : EReal) := fun j k => by
    rw [ohA_V9]; exact ohA_V7 m I c H j k
  have hmk : ∀ j : Fin 102400, mkA (V9 m) c (ix2 0 j) = ((Cert.Spec.mkP j : ℝ) : EReal) := fun j => by
    rw [mkA_V9]; exact mkA_V7 m c j
  have hmkv : ∀ j : Fin 102400, Cert.Spec.mkP j = if j.val < 100000 then 1 else 0 := fun j => rfl
  -- the block tile 49 of the user's half stores, at the user's row
  have hout := out1_real (V9 m) c (Cert.Spec.innerP I) (Cert.Spec.w2P I) (Cert.Spec.ohP I) Cert.Spec.mkP hin hw2 hoh hmk hmkv
    ⟨b.val / 512, hq⟩ ⟨b.val % 512, hr⟩ cc ht hb'
  -- the row of half b / 512 at offset b % 512 is user b, and the exponents are the padded logits
  have key : ∀ (b2 : Fin 1024), b2 = b →
      (((∑ j : Fin 102400, Real.exp (∑ d : Fin 64, Cert.Spec.innerP I b2 d * Cert.Spec.w2P I d j) * Cert.Spec.mkP j * Cert.Spec.ohP I j cc)
          / (∑ j : Fin 102400, Real.exp (∑ d : Fin 64, Cert.Spec.innerP I b2 d * Cert.Spec.w2P I d j) * Cert.Spec.mkP j) : ℝ) : EReal)
        = ((Cert.Spec.massP I b cc : ℝ) : EReal) := by
    rintro _ rfl; rfl
  have hoA : outA m c (ix2 b cc) = ((Cert.Spec.massP I b cc : ℝ) : EReal) :=
    (arrAt1_4 (V9 m) c b cc ht hr).trans (hout.trans (key _ hbb))
  have hcnt : cntA m c (ix1 cc) = ((Cert.Spec.cnt I cc : ℝ) : EReal) := cnt_V7 m I c H cc
  have hmax : max ((Cert.Spec.cnt I cc : ℝ) : EReal) 1 = ((max (Cert.Spec.cnt I cc) 1 : ℝ) : EReal) := by
    rw [← EReal.coe_one]; exact IdealReal.max_coe _ _
  have hpos : max (Cert.Spec.cnt I cc) 1 ≠ 0 := ne_of_gt (lt_of_lt_of_le one_pos (le_max_right _ _))
  rw [result_W11 m c b cc, hoA, hcnt, hmax, IdealReal.div_coe_coe _ _ hpos, Cert.Spec.massP_eq_mass]
  rfl

end Cert.KernelIdeal.Hand

end
-- ==== Proof.LibSegmentSum.lean ====
/-
  A row scatter-add read at an index. A `stablehlo.scatter` with an `add` body whose scatter indices are one column
  `[E, 1]` of row numbers, whose updates are `E` rows of width `D` and whose operand has `M` rows of width `D`
  (what `jax.ops.segment_sum` of a rank-2 array lowers to) adds update row `e` onto operand row `idx e`: the element
  `(r, k)` of the result is the operand's plus the sum, over the update rows `e` whose index is `r`, of the update's
  element `(e, k)`. An index outside `[0, M)` names no row and its update row is dropped. The column `k` plays no part
  in which rows land, so a scatter of a wide update array restricted to some columns is the scatter of those columns.
-/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

/-- The dimension numbers of a row scatter: update axis 1 is the window (operand axis 1), operand axis 0 is the
    inserted one and the one the single index component names, the index vector lies along axis 1 of the indices. -/
abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

/-- On operand axis 0 the window starts at row `e`'s index word, read signed. -/
private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not named by the index vector: the window starts at 0 there. -/
private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

/-- Operand axis 0 is inserted: the window coordinate there is 0. -/
private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

/-- On operand axis 1 the window coordinate is the update's column. -/
private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

/-- Update element `(e, k')` lands on operand element `(r, k)` exactly when row `e`'s index is `r` and the columns agree. -/
theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

/-- THE ROW SCATTER-ADD AT `(r, k)`: the operand's element plus the update rows whose index is `r`, at column `k`. -/
theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.KI.RefLogit.lean ====
/-
  The reference's two matrix products on real data: once the gathered scores are the items' cluster scores, the first
  product is the item-by-item inner product and the second the logits.
-/
import proofs.«428240_j80616536146381_2_alg».proof.Proof.Gen.ReferenceIdeal.Run
import proofs.«428240_j80616536146381_2_alg».proof.Proof.Gen.ReferenceIdeal.Read
import proofs.«428240_j80616536146381_2_alg».proof.Proof.KI.Spec
import proofs.«428240_j80616536146381_2_alg».proof.Proof.LibIdealReal
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.IdealReal
/-- The logits: the gathered scores times w1, times w2, at user b and item j. -/
theorem v8_eq (I : Cert.Spec.Inputs)
    (X : (⟨S1024x10, .f32⟩ : BufTy).Contents (Elt Ideal)) (CL : (⟨S100000, .i32⟩ : BufTy).Contents (Elt Ideal))
    (A1 : (⟨S100000x64, .f32⟩ : BufTy).Contents (Elt Ideal)) (A2 : (⟨S64x100000, .f32⟩ : BufTy).Contents (Elt Ideal))
    (H : Cert.Spec.Holds I X CL A1 A2)
    (h6 : ∀ (b : Fin 1024) (j : Fin 100000), val_main_v6 (F := Ideal) X CL (ix2 b j) = ((I.x b (I.cl j) : ℝ) : EReal))
    (b : Fin 1024) (j : Fin 100000) :
    val_main_v8 (F := Ideal) X CL A1 A2 (ix2 b j) = ((Cert.Spec.logit' I b j : ℝ) : EReal) := by
  -- the contraction index k pairs entry (b, k) of the left factor with entry (k, column) of the right one
  have el7 : ∀ (d : Fin 64) (k : Fin 100000), lidx_main_v7 (ix2 b d) k = ix2 b k := fun d k =>
    funext fun a => Fin.ext (by match a with | ⟨0, _⟩ => rfl | ⟨1, _⟩ => rfl)
  have er7 : ∀ (d : Fin 64) (k : Fin 100000), ridx_main_v7 (ix2 b d) k = ix2 k d := fun d k =>
    funext fun a => Fin.ext (by match a with | ⟨0, _⟩ => rfl | ⟨1, _⟩ => rfl)
  have el8 : ∀ k : Fin 64, lidx_main_v8 (ix2 b j) k = ix2 b k := fun k =>
    funext fun a => Fin.ext (by match a with | ⟨0, _⟩ => rfl | ⟨1, _⟩ => rfl)
  have er8 : ∀ k : Fin 64, ridx_main_v8 (ix2 b j) k = ix2 k j := fun k =>
    funext fun a => Fin.ext (by match a with | ⟨0, _⟩ => rfl | ⟨1, _⟩ => rfl)
  -- the first product: each summand is a product of two reals, and a finite sum of reals is real
  have h7 : ∀ d : Fin 64, val_main_v7 (F := Ideal) X CL A1 (ix2 b d) = ((Cert.Spec.inner' I b d : ℝ) : EReal) := fun d =>
    calc val_main_v7 (F := Ideal) X CL A1 (ix2 b d)
        = ∑ k : Fin 100000, ((I.x b (I.cl k) * I.w1 k d : ℝ) : EReal) := by
          rw [val_main_v7_apply]
          exact Finset.sum_congr rfl fun k _ => by rw [el7, er7, h6, H.hw1, EReal.coe_mul]
      _ = ((Cert.Spec.inner' I b d : ℝ) : EReal) :=
          coe_sum Finset.univ (fun k : Fin 100000 => I.x b (I.cl k) * I.w1 k d)
  -- the second product, over the 64 inner coordinates
  calc val_main_v8 (F := Ideal) X CL A1 A2 (ix2 b j)
      = ∑ d : Fin 64, ((Cert.Spec.inner' I b d * I.w2 d j : ℝ) : EReal) := by
        rw [val_main_v8_apply]
        exact Finset.sum_congr rfl fun d _ => by rw [el8, er8, h7, H.hw2, EReal.coe_mul]
    _ = ((Cert.Spec.logit' I b j : ℝ) : EReal) :=
        coe_sum Finset.univ (fun d : Fin 64 => Cert.Spec.inner' I b d * I.w2 d j)

end Cert.ReferenceIdeal.RefValue

end
-- ==== Proof.KI.RefMax.lean ====
/-
  The reference's row maximum on real data: a maximum of finitely many reals taken from minus infinity, and once more
  against minus infinity, is the real maximum of the row's logits.
-/
import proofs.«428240_j80616536146381_2_alg».proof.Proof.Gen.ReferenceIdeal.Run
import proofs.«428240_j80616536146381_2_alg».proof.Proof.Gen.ReferenceIdeal.Read
import proofs.«428240_j80616536146381_2_alg».proof.Proof.KI.Spec
import proofs.«428240_j80616536146381_2_alg».proof.Proof.LibIdealReal
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.IdealReal

/-- The word 0xFF800000 denotes minus infinity. -/
theorem refmax_neg_inf_bits : Ideal.ofBits .f32 0xFF800000#32 = (⊥ : EReal) := by
  simp [Ideal.ofBits, Ideal.ieee]

/-- The maximum, taken from minus infinity, of a nonempty finite family of reals is their real maximum. -/
theorem refmax_fold_max_bot {ι : Type*} {S : Finset ι} (hS : S.Nonempty) (g : ι → EReal) (f : ι → ℝ)
    (hg : ∀ k, g k = ((f k : ℝ) : EReal)) :
    S.fold (FloatOps.maximumf (F := Ideal) (φ := .f32)) (⊥ : EReal) g = ((S.sup' hS f : ℝ) : EReal) := by
  induction hS using Finset.Nonempty.cons_induction with
  | singleton a =>
    rw [Finset.fold_singleton, Ideal.maximumf_def, hg a, Finset.sup'_singleton]
    exact max_eq_left bot_le
  | cons a s ha hs ih =>
    rw [Finset.fold_cons, ih, Ideal.maximumf_def, hg a, max_coe, Finset.sup'_cons hs f]

/-- The row maximum of the logits of user b. -/
theorem v11_eq (I : Cert.Spec.Inputs)
    (X : (⟨S1024x10, .f32⟩ : BufTy).Contents (Elt Ideal)) (CL : (⟨S100000, .i32⟩ : BufTy).Contents (Elt Ideal))
    (A1 : (⟨S100000x64, .f32⟩ : BufTy).Contents (Elt Ideal)) (A2 : (⟨S64x100000, .f32⟩ : BufTy).Contents (Elt Ideal))
    (h8 : ∀ (b : Fin 1024) (j : Fin 100000), val_main_v8 (F := Ideal) X CL A1 A2 (ix2 b j) = ((Cert.Spec.logit' I b j : ℝ) : EReal))
    (b : Fin 1024) :
    val_main_v11 (F := Ideal) X CL A1 A2 (ix1 b) = ((Cert.Spec.rmax I b : ℝ) : EReal) := by
  have hRed : S1024x100000.Reduces [1] S1024 := by decide
  rw [val_main_v11_apply, val_main_v10_apply, val_main_cst_1_apply, Ideal.ofBits_def, refmax_neg_inf_bits, Ideal.maximumf_def,
    max_eq_right bot_le]
  unfold val_main_v9
  generalize val_main_v8 (F := Ideal) X CL A1 A2 = y at h8 ⊢
  rw [Host.reduce_eq_fold_single _ y _ _ hRed _ (ix1 b), val_main_cst_apply, Ideal.ofBits_def, refmax_neg_inf_bits]
  refine refmax_fold_max_bot Finset.univ_nonempty _ (Cert.Spec.logit' I b) (fun k => ?_)
  show y (hRed.lift (ix1 b) k) = _
  have hk : hRed.lift (ix1 b) k = ix2 b k := by
    funext c
    apply Fin.ext
    match c with
    | ⟨0, _⟩ => rfl
    | ⟨1, _⟩ => rfl
  rw [hk]
  exact h8 b k

end Cert.ReferenceIdeal.RefValue

end
-- ==== Proof.KI.RefSoft.lean ====
/-
  The reference's softmax on real data: the logits shifted by the row maximum, exponentiated, and divided by the row's
  sum of exponentials, which is a positive real.
-/
import proofs.«428240_j80616536146381_2_alg».proof.Proof.Gen.ReferenceIdeal.Run
import proofs.«428240_j80616536146381_2_alg».proof.Proof.Gen.ReferenceIdeal.Read
import proofs.«428240_j80616536146381_2_alg».proof.Proof.KI.Spec
import proofs.«428240_j80616536146381_2_alg».proof.Proof.LibIdealReal
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.IdealReal
/-- The shifted exponential of item j for user b: the exponential of the logit minus the row maximum. -/
theorem v15_at (I : Cert.Spec.Inputs)
    (X : (⟨S1024x10, .f32⟩ : BufTy).Contents (Elt Ideal)) (CL : (⟨S100000, .i32⟩ : BufTy).Contents (Elt Ideal))
    (A1 : (⟨S100000x64, .f32⟩ : BufTy).Contents (Elt Ideal)) (A2 : (⟨S64x100000, .f32⟩ : BufTy).Contents (Elt Ideal))
    (h8 : ∀ (b : Fin 1024) (j : Fin 100000), val_main_v8 (F := Ideal) X CL A1 A2 (ix2 b j) = ((Cert.Spec.logit' I b j : ℝ) : EReal))
    (h11 : ∀ b : Fin 1024, val_main_v11 (F := Ideal) X CL A1 A2 (ix1 b) = ((Cert.Spec.rmax I b : ℝ) : EReal))
    (b : Fin 1024) (j : Fin 100000) :
    val_main_v15 (F := Ideal) X CL A1 A2 (ix2 b j) = ((Real.exp (Cert.Spec.logit' I b j - Cert.Spec.rmax I b) : ℝ) : EReal) := by
  have e13 : idx_main_v12 (idx_main_v13 (ix2 b j)) = ix1 b := funext fun a => Fin.ext (by match a with | ⟨0, _⟩ => rfl)
  rw [val_main_v15_apply, val_main_v14_apply, val_main_v13_apply, val_main_v12_apply, e13, h8, h11]
  rw [Ideal.hostUnary_exp_def, Ideal.subf_def, ← EReal.coe_sub, exp_coe']

/-- The row's sum of shifted exponentials. -/
theorem v16_at (I : Cert.Spec.Inputs)
    (X : (⟨S1024x10, .f32⟩ : BufTy).Contents (Elt Ideal)) (CL : (⟨S100000, .i32⟩ : BufTy).Contents (Elt Ideal))
    (A1 : (⟨S100000x64, .f32⟩ : BufTy).Contents (Elt Ideal)) (A2 : (⟨S64x100000, .f32⟩ : BufTy).Contents (Elt Ideal))
    (h8 : ∀ (b : Fin 1024) (j : Fin 100000), val_main_v8 (F := Ideal) X CL A1 A2 (ix2 b j) = ((Cert.Spec.logit' I b j : ℝ) : EReal))
    (h11 : ∀ b : Fin 1024, val_main_v11 (F := Ideal) X CL A1 A2 (ix1 b) = ((Cert.Spec.rmax I b : ℝ) : EReal))
    (b : Fin 1024) :
    val_main_v16 (F := Ideal) X CL A1 A2 (ix1 b)
      = ((∑ j' : Fin 100000, Real.exp (Cert.Spec.logit' I b j' - Cert.Spec.rmax I b) : ℝ) : EReal) := by
  rw [val_main_v16_apply, val_main_cst_2_apply, Ideal.ofBits_def, Ideal.ofBits_zero_f32, zero_add, ← coe_sum]
  refine Finset.sum_congr rfl fun k _ => ?_
  have e : idx_main_v16 (ix1 b) k = ix2 b k := funext fun a => Fin.ext (by match a with | ⟨0, _⟩ => rfl | ⟨1, _⟩ => rfl)
  rw [e, v15_at I X CL A1 A2 h8 h11 b k]

/-- The probability of item j for user b. -/
theorem v19_eq (I : Cert.Spec.Inputs)
    (X : (⟨S1024x10, .f32⟩ : BufTy).Contents (Elt Ideal)) (CL : (⟨S100000, .i32⟩ : BufTy).Contents (Elt Ideal))
    (A1 : (⟨S100000x64, .f32⟩ : BufTy).Contents (Elt Ideal)) (A2 : (⟨S64x100000, .f32⟩ : BufTy).Contents (Elt Ideal))
    (h8 : ∀ (b : Fin 1024) (j : Fin 100000), val_main_v8 (F := Ideal) X CL A1 A2 (ix2 b j) = ((Cert.Spec.logit' I b j : ℝ) : EReal))
    (h11 : ∀ b : Fin 1024, val_main_v11 (F := Ideal) X CL A1 A2 (ix1 b) = ((Cert.Spec.rmax I b : ℝ) : EReal))
    (b : Fin 1024) (j : Fin 100000) :
    val_main_v19 (F := Ideal) X CL A1 A2 (ix2 b j) = ((Cert.Spec.prob I b j : ℝ) : EReal) := by
  have e18 : idx_main_v17 (idx_main_v18 (ix2 b j)) = ix1 b := funext fun a => Fin.ext (by match a with | ⟨0, _⟩ => rfl)
  rw [val_main_v19_apply, val_main_v18_apply, val_main_v17_apply, e18, v15_at I X CL A1 A2 h8 h11 b j,
    v16_at I X CL A1 A2 h8 h11 b, Ideal.hostDivf_def]
  unfold Cert.Spec.prob
  exact div_coe_coe _ _ (ne_of_gt (Finset.sum_pos (fun j' _ => Real.exp_pos _) Finset.univ_nonempty))

end Cert.ReferenceIdeal.RefValue

end
-- ==== Proof.KI.RefTail.lean ====
/-
  The reference's last step on real data: the cluster masses, transposed back to users by clusters, divided by the
  cluster sizes clamped below by one (a real that is at least one, so not zero).
-/
import proofs.«428240_j80616536146381_2_alg».proof.Proof.Gen.ReferenceIdeal.Run
import proofs.«428240_j80616536146381_2_alg».proof.Proof.Gen.ReferenceIdeal.Read
import proofs.«428240_j80616536146381_2_alg».proof.Proof.KI.Spec
import proofs.«428240_j80616536146381_2_alg».proof.Proof.LibIdealReal
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.IdealReal
/-- The word 0x3F800000 is the float one: sign 0, exponent field 127 (the bias), fraction 0, so 2 ^ 23 * 2 ^ (-23). -/
private theorem ofBits_one_f32 : Ideal.ofBits .f32 0x3F800000#32 = ((1 : ℝ) : EReal) := by
  have h : (8388608 : ℝ) * ((2 : ℝ) ^ 23)⁻¹ = 1 := by norm_num
  simp [Ideal.ofBits, Ideal.ieee]
  exact_mod_cast h
/-- The result at user b and cluster cc: the mass over the clamped size. -/
theorem v33_eq (I : Cert.Spec.Inputs)
    (X : (⟨S1024x10, .f32⟩ : BufTy).Contents (Elt Ideal)) (CL : (⟨S100000, .i32⟩ : BufTy).Contents (Elt Ideal))
    (A1 : (⟨S100000x64, .f32⟩ : BufTy).Contents (Elt Ideal)) (A2 : (⟨S64x100000, .f32⟩ : BufTy).Contents (Elt Ideal))
    (h27 : ∀ (c : Fin 10) (b : Fin 1024), val_main_v27 (F := Ideal) X CL A1 A2 (ix2 c b) = ((Cert.Spec.refMass I b c : ℝ) : EReal))
    (h23 : ∀ c : Fin 10, val_main_v23 (F := Ideal) CL (ix1 c) = ((Cert.Spec.cnt I c : ℝ) : EReal))
    (b : Fin 1024) (cc : Fin 10) :
    val_main_v33 (F := Ideal) X CL A1 A2 (ix2 b cc) = ((Cert.Spec.refRes I b cc : ℝ) : EReal) := by
  rw [val_main_v33_apply, val_main_v28_apply, val_main_v32_apply, val_main_v31_apply, val_main_v30_apply, val_main_v29_apply,
    val_main_cst_6_apply]
  -- the transpose reads the masses at (cluster, user); the two broadcasts read the clamped sizes at the cluster
  rw [show idx_main_v28 (ix2 b cc) = ix2 cc b from
        funext fun a => Fin.ext (by match a with | ⟨0, _⟩ => rfl | ⟨1, _⟩ => rfl),
    show idx_main_v31 (idx_main_v32 (ix2 b cc)) = ix1 cc from
        funext fun a => Fin.ext (by match a with | ⟨0, _⟩ => rfl),
    h27 cc b, h23 cc]
  -- the divisor is the real max (size, 1), at least one
  have hpos : max (Cert.Spec.cnt I cc) 1 ≠ 0 := ne_of_gt (lt_of_lt_of_le one_pos (le_max_right _ _))
  rw [Ideal.hostDivf_def, Ideal.maximumf_def, Ideal.ofBits_def, ofBits_one_f32, max_coe, div_coe_coe _ _ hpos]
  rfl

end Cert.ReferenceIdeal.RefValue

end
-- ==== Proof.KI.Ref.lean ====
/-
  The reference's result, read at an index, in the real numbers of the specification: the gather of the scores at the
  items' clusters, the two matrix products, the softmax shifted by the row maximum, the scatter-adds by cluster (of ones:
  the sizes; of the probabilities: the masses), the division by the clamped sizes.
-/
import proofs.«428240_j80616536146381_2_alg».proof.Proof.Gen.ReferenceIdeal.Run
import proofs.«428240_j80616536146381_2_alg».proof.Proof.Gen.ReferenceIdeal.Read
import proofs.«428240_j80616536146381_2_alg».proof.Proof.KI.Spec
import Idealize.ShloMosaic.Lib.ValueIdx
import Idealize.ShloMosaic.PureOps.Ideal.Laws
import proofs.«428240_j80616536146381_2_alg».proof.Proof.LibIdealReal
import proofs.«428240_j80616536146381_2_alg».proof.Proof.LibSegmentSum
import proofs.«428240_j80616536146381_2_alg».proof.Proof.KI.RefLogit
import proofs.«428240_j80616536146381_2_alg».proof.Proof.KI.RefMax
import proofs.«428240_j80616536146381_2_alg».proof.Proof.KI.RefSoft
import proofs.«428240_j80616536146381_2_alg».proof.Proof.KI.RefTail

noncomputable section

open scoped BigOperators

namespace Cert.ReferenceIdeal.RefValue

open Cert.ReferenceIdeal Cert.ReferenceIdeal.Gen Cert.ReferenceIdeal.Read
open Idealize.ShloMosaic Idealize.ShloMosaic.ValueIdx
open Idealize.ShloMosaic.IdealReal

/-! ## Two operations the generated text does not read at an index, as general lemmas over natural-number extents -/

/-- The dimension numbers of a column take: the operand's rows are kept whole (result axis 0 is the offset axis), the
    operand's column axis is collapsed and is the one the single index component names, the index vector lies along
    axis 1 of the indices. -/
abbrev colTakeDims (R N E : Nat)
    (wf : GatherDims.WF (⟨2, ![R, N]⟩ : Shape) (⟨2, ![E, 1]⟩ : Shape) (⟨2, ![R, E]⟩ : Shape) [0] [1] [] [1] [] 1 ![R, 1]) :
    GatherDims (⟨2, ![R, N]⟩ : Shape) (⟨2, ![E, 1]⟩ : Shape) (⟨2, ![R, E]⟩ : Shape) where
  offsetDims := [0]
  collapsedSliceDims := [1]
  operandBatchingDims := []
  startIndicesBatchingDims := []
  startIndexMap := [1]
  indexVectorDim := 1
  sliceSizes := ![R, 1]
  wf := wf

/-- THE COLUMN TAKE AT (b, e): the operand's row b at the column the index word e names, read signed and clamped into
    [0, N - 1]. -/
theorem gather_colTake_apply {α : Type} {R N E w : Nat} (hN : 0 < N)
    (wf : GatherDims.WF (⟨2, ![R, N]⟩ : Shape) (⟨2, ![E, 1]⟩ : Shape) (⟨2, ![R, E]⟩ : Shape) [0] [1] [] [1] [] 1 ![R, 1])
    (x : (⟨2, ![R, N]⟩ : Shape).Idx → α) (idx : IVec (⟨2, ![E, 1]⟩ : Shape) w) (b : Fin R) (e : Fin E) :
    Host.gather (colTakeDims R N E wf) x idx (ix2 b e)
      = x (ix2 b (⟨min (idx (ix2 e (0 : Fin 1))).toInt.toNat (N - 1), by omega⟩ : Fin N)) := by
  unfold Host.gather
  congr 1
  funext a
  refine Fin.ext ?_
  match a with
  -- row axis: no index component names it (start 0), it is not batching (0), it is kept: the offset coordinate is the
  -- result's row b
  | ⟨0, _⟩ =>
    show (colTakeDims R N E wf).start (ix2 b e) idx 0 + (colTakeDims R N E wf).batchCoord (ix2 b e) 0
        + (colTakeDims R N E wf).offCoord (ix2 b e) 0 = b.val
    rw [GatherDims.batchCoord_eq_zero _ _ _ List.not_mem_nil]
    have hs : (colTakeDims R N E wf).start (ix2 b e) idx 0 = 0 := by
      unfold GatherDims.start
      rw [dif_neg (show (0 : Fin 2) ∉ ([1] : List (Fin 2)) by decide)]
    rw [hs]
    simp only [Nat.add_zero, Nat.zero_add]
    unfold GatherDims.offCoord
    rw [dif_pos ((GatherDims.mem_sKept _ _).mpr ⟨show (0 : Fin 2) ∉ ([1] : List (Fin 2)) by decide, List.not_mem_nil⟩)]
    rfl
  -- column axis: collapsed (offset 0), not batching (0); the start is the word at [e, 0] read signed and clamped to
  -- N - 1 = (extent N) - (slice size 1)
  | ⟨1, _⟩ =>
    show (colTakeDims R N E wf).start (ix2 b e) idx 1 + (colTakeDims R N E wf).batchCoord (ix2 b e) 1
        + (colTakeDims R N E wf).offCoord (ix2 b e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colTakeDims R N E wf).startIndexMap from List.mem_singleton.mpr rfl)]
    have hsi : (colTakeDims R N E wf).siIdx (ix2 b e) ⟨List.idxOf (1 : Fin 2) (colTakeDims R N E wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl

/-- The dimension numbers of a scatter of scalars into a vector: no window axis, operand axis 0 is inserted and is the
    one the single index component names, the index vector lies along axis 1 of the indices. -/
abbrev vecScatterDims (M E : Nat)
    (wf : ScatterDims.WF (⟨1, ![M]⟩ : Shape) (⟨2, ![E, 1]⟩ : Shape) (⟨1, ![E]⟩ : Shape) [] [0] [0] 1) :
    ScatterDims (⟨1, ![M]⟩ : Shape) (⟨2, ![E, 1]⟩ : Shape) (⟨1, ![E]⟩ : Shape) where
  updateWindowDims := []
  insertedWindowDims := [0]
  scatterDimsToOperandDims := [0]
  indexVectorDim := 1
  wf := wf

/-- A rank-1 index set is its one coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The operand's one axis is the one the index vector names: the window of update e starts at e's index word, read signed. -/
private theorem start_axis {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (a : Fin 1) :
    (vecScatterDims M E wf).start (ix1 e) idx a = (idx (ix2 e (0 : Fin 1))).toInt := by
  obtain rfl : a = 0 := Subsingleton.elim _ _
  unfold ScatterDims.start
  rw [dif_pos (show (0 : Fin 1) ∈ (vecScatterDims M E wf).scatterDimsToOperandDims from List.mem_singleton.mpr rfl)]
  refine congrArg (fun q => (idx q).toInt) ?_
  funext b; refine Fin.ext ?_
  match b with
  | ⟨0, _⟩ => rfl
  | ⟨1, _⟩ => rfl

/-- The operand's one axis is inserted: the window coordinate there is 0. -/
private theorem window_axis {M E : Nat}
    (wf : ScatterDims.WF (⟨1, ![M]⟩ : Shape) (⟨2, ![E, 1]⟩ : Shape) (⟨1, ![E]⟩ : Shape) [] [0] [0] 1)
    (j : (⟨1, ![E]⟩ : Shape).Idx) (a : Fin 1) :
    (vecScatterDims M E wf).window j a = 0 := by
  obtain rfl : a = 0 := Subsingleton.elim _ _
  unfold ScatterDims.window
  rw [dif_neg (show ¬ (0 : Fin 1) ∈ (vecScatterDims M E wf).sKept from
    (by decide : ¬ (0 : Fin 1) ∈ (List.finRange 1).filter (· ∉ [(0 : Fin 1)])))]

/-- Update e lands on element r exactly when e's index word, read signed, is r. -/
private theorem lands_iff {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (r : Fin M) :
    (vecScatterDims M E wf).resultIdx? (ix1 e) idx = some (ix1 r)
      ↔ (idx (ix2 e (0 : Fin 1))).toInt = (r.val : ℤ) := by
  have hr := r.isLt
  constructor
  · intro hres
    unfold ScatterDims.resultIdx? at hres
    split_ifs at hres with h
    have e0 : ((vecScatterDims M E wf).start (ix1 e) idx 0 + (vecScatterDims M E wf).window (ix1 e) 0).toNat = r.val :=
      congrArg Fin.val (congrFun (Option.some.inj hres) 0)
    have h0 := (h 0).1
    rw [start_axis, window_axis] at e0 h0
    omega
  · intro hidx
    unfold ScatterDims.resultIdx?
    have h : ∀ a, 0 ≤ (vecScatterDims M E wf).start (ix1 e) idx a + (vecScatterDims M E wf).window (ix1 e) a
        ∧ (vecScatterDims M E wf).start (ix1 e) idx a + (vecScatterDims M E wf).window (ix1 e) a
          < (⟨1, ![M]⟩ : Shape).size a := by
      intro a
      obtain rfl : a = 0 := Subsingleton.elim _ _
      rw [start_axis, window_axis]
      show 0 ≤ _ ∧ _ < (M : ℤ)
      omega
    rw [dif_pos h, Option.some.injEq]
    funext a
    obtain rfl : a = 0 := Subsingleton.elim _ _
    refine Fin.ext ?_
    show ((vecScatterDims M E wf).start (ix1 e) idx 0 + (vecScatterDims M E wf).window (ix1 e) 0).toNat = r.val
    rw [start_axis, window_axis]; omega
/-- THE SCATTER-ADD OF SCALARS AT r: the operand's element plus the updates whose index word, read signed, is r; an
    index outside [0, M) names no element and its update is dropped. -/
theorem vecScatterAdd_apply {M E w : Nat}
    (wf : ScatterDims.WF (⟨1, ![M]⟩ : Shape) (⟨2, ![E, 1]⟩ : Shape) (⟨1, ![E]⟩ : Shape) [] [0] [0] 1)
    (x : (⟨1, ![M]⟩ : Shape).Idx → EReal) (idx : IVec (⟨2, ![E, 1]⟩ : Shape) w)
    (u : (⟨1, ![E]⟩ : Shape).Idx → EReal) (r : Fin M) :
    Ideal.hostScatterAdd (vecScatterDims M E wf) x idx u (ix1 r)
      = x (ix1 r) + ∑ e : Fin E, if (idx (ix2 e (0 : Fin 1))).toInt = (r.val : ℤ) then u (ix1 e) else 0 := by
  unfold Ideal.hostScatterAdd
  congr 1
  rw [Finset.sum_filter, sum_idx1]
  refine Finset.sum_congr rfl fun e _ => ?_
  by_cases hi : (idx (ix2 e (0 : Fin 1))).toInt = (r.val : ℤ)
  · rw [if_pos ((lands_iff wf idx e r).2 hi), if_pos hi]
  · rw [if_neg (fun h => hi ((lands_iff wf idx e r).1 h)), if_neg hi]

/-! ## The cluster ids as words -/

/-- The word of a natural number below 2^31 reads, signed, as that number. -/
theorem toInt_ofNat_lt (a : ℕ) (ha : a < 2 ^ 31) : (BitVec.ofNat 32 a).toInt = (a : ℤ) := by
  rw [BitVec.toInt_ofNat']
  exact Int.bmod_eq_of_le_mul_two (by omega) (by omega)

/-- The f32 word 0x3F800000 is the real one. -/
theorem one_word : Ideal.ofBits .f32 0x3F800000#32 = ((1 : ℝ) : EReal) := by
  simp [Ideal.ofBits, Ideal.ieee]
  rw [← EReal.coe_mul, ← EReal.coe_one]
  congr 1
  norm_num

/-- An id that is a cluster number is not negative, so the wrap of negative ids keeps it. -/
theorem v4_eq (I : Cert.Spec.Inputs) (CL : (⟨S100000, .i32⟩ : BufTy).Contents (Elt Ideal))
    (hcl : ∀ j, CL (ix1 j) = BitVec.ofNat 32 (I.cl j).val) (j : Fin 100000) :
    val_main_v4 (F := Ideal) CL (ix1 j) = BitVec.ofNat 32 (I.cl j).val := by
  have hlt := (I.cl j).isLt
  rw [val_main_v4_apply, val_main_v1_apply, val_main_v0_apply, val_main_c_apply, hcl]
  have h0 : IntOp.cmpi .slt (BitVec.ofNat 32 (I.cl j).val) 0#32 = 0#1 := eq_zero_of_ne_one (fun h => by
    have h' := IntOp.cmpi_slt.mp h
    rw [toInt_ofNat_lt _ (by omega), BitVec.toInt_zero] at h'
    omega)
  rw [h0, select_zero]

/-- The same ids laid out as a column. -/
theorem v5_eq (I : Cert.Spec.Inputs) (CL : (⟨S100000, .i32⟩ : BufTy).Contents (Elt Ideal))
    (hcl : ∀ j, CL (ix1 j) = BitVec.ofNat 32 (I.cl j).val) (j : Fin 100000) :
    val_main_v5 (F := Ideal) CL (ix2 j (0 : Fin 1)) = BitVec.ofNat 32 (I.cl j).val := by
  have e : idx_main_v5 (ix2 j (0 : Fin 1)) = ix1 j := funext fun a => Fin.ext (by match a with | ⟨0, _⟩ => rfl)
  rw [val_main_v5_apply, e]
  exact v4_eq I CL hcl j
/-! ## The gather of the scores -/

/-- The gathered scores: item j's score for user b is the score of j's cluster (the id word, a cluster number, is inside
    [0, 9], so the clamp keeps it). -/
theorem v6_eq (I : Cert.Spec.Inputs)
    (X : (⟨S1024x10, .f32⟩ : BufTy).Contents (Elt Ideal)) (CL : (⟨S100000, .i32⟩ : BufTy).Contents (Elt Ideal))
    (hx : ∀ b k, X (ix2 b k) = ((I.x b k : ℝ) : EReal)) (hcl : ∀ j, CL (ix1 j) = BitVec.ofNat 32 (I.cl j).val)
    (b : Fin 1024) (j : Fin 100000) :
    val_main_v6 (F := Ideal) X CL (ix2 b j) = ((I.x b (I.cl j) : ℝ) : EReal) := by
  have hlt := (I.cl j).isLt
  have hm : min (val_main_v5 (F := Ideal) CL (ix2 j (0 : Fin 1))).toInt.toNat (10 - 1) = (I.cl j).val := by
    rw [v5_eq I CL hcl j, toInt_ofNat_lt _ (by omega), Int.toNat_natCast]
    omega
  unfold val_main_v6
  refine (gather_colTake_apply (by decide) Facts₀.gather_S1024x10_S100000x1_S1024x100000_0_1_n_n_1_1_10241_wf X
    (val_main_v5 (F := Ideal) CL) b j).trans ?_
  exact (congrArg (fun c : Fin 10 => X (ix2 b c)) (Fin.ext hm)).trans (hx b (I.cl j))

/-! ## The cluster sizes -/

/-- The scatter-add of ones by cluster id: the number of items of cluster c. -/
theorem v23_eq (I : Cert.Spec.Inputs) (CL : (⟨S100000, .i32⟩ : BufTy).Contents (Elt Ideal))
    (hcl : ∀ j, CL (ix1 j) = BitVec.ofNat 32 (I.cl j).val) (c : Fin 10) :
    val_main_v23 (F := Ideal) CL (ix1 c) = ((Cert.Spec.cnt I c : ℝ) : EReal) := by
  have e21 : val_main_v21 (F := Ideal) (ix1 c) = 0 := by
    rw [val_main_v21_apply, val_main_cst_4_apply]; exact Ideal.ofBits_zero_f32
  have e20 : ∀ e : Fin 100000, val_main_v20 (F := Ideal) (ix1 e) = ((1 : ℝ) : EReal) := fun e => by
    rw [val_main_v20_apply, val_main_cst_3_apply]; exact one_word
  have e22 : ∀ e : Fin 100000,
      (val_main_v22 (F := Ideal) CL (ix2 e (0 : Fin 1))).toInt = (c.val : ℤ) ↔ I.cl e = c := fun e => by
    have e' : idx_main_v22 (ix2 e (0 : Fin 1)) = ix1 e := funext fun a => Fin.ext (by match a with | ⟨0, _⟩ => rfl)
    have hlt := (I.cl e).isLt
    rw [val_main_v22_apply, e', hcl, toInt_ofNat_lt _ (by omega)]
    exact ⟨fun h => Fin.ext (by omega), fun h => by rw [h]⟩
  unfold val_main_v23
  refine (vecScatterAdd_apply Facts₀.scatter_S10_S100000x1_S100000_n_0_0_1_wf (val_main_v21 (F := Ideal))
    (val_main_v22 (F := Ideal) CL) (val_main_v20 (F := Ideal)) c).trans ?_
  rw [e21, zero_add]
  unfold Cert.Spec.cnt
  rw [← coe_sum]
  refine Finset.sum_congr rfl fun e _ => ?_
  rw [e20 e]
  by_cases h : I.cl e = c
  · rw [if_pos ((e22 e).mpr h), if_pos h]
  · rw [if_neg (fun h' => h ((e22 e).mp h')), if_neg h]; rfl
/-! ## The cluster masses -/

/-- The scatter-add of the transposed probabilities by cluster id: the mass of cluster c's items for user b. -/
theorem v27_eq (I : Cert.Spec.Inputs)
    (X : (⟨S1024x10, .f32⟩ : BufTy).Contents (Elt Ideal)) (CL : (⟨S100000, .i32⟩ : BufTy).Contents (Elt Ideal))
    (A1 : (⟨S100000x64, .f32⟩ : BufTy).Contents (Elt Ideal)) (A2 : (⟨S64x100000, .f32⟩ : BufTy).Contents (Elt Ideal))
    (hcl : ∀ j, CL (ix1 j) = BitVec.ofNat 32 (I.cl j).val)
    (h19 : ∀ (b : Fin 1024) (j : Fin 100000), val_main_v19 (F := Ideal) X CL A1 A2 (ix2 b j) = ((Cert.Spec.prob I b j : ℝ) : EReal))
    (c : Fin 10) (b : Fin 1024) :
    val_main_v27 (F := Ideal) X CL A1 A2 (ix2 c b) = ((Cert.Spec.refMass I b c : ℝ) : EReal) := by
  have e25 : val_main_v25 (F := Ideal) (ix2 c b) = 0 := by
    rw [val_main_v25_apply, val_main_cst_5_apply]; exact Ideal.ofBits_zero_f32
  have e24 : ∀ e : Fin 100000,
      val_main_v24 (F := Ideal) X CL A1 A2 (ix2 e b) = ((Cert.Spec.prob I b e : ℝ) : EReal) := fun e => by
    have e' : idx_main_v24 (ix2 e b) = ix2 b e :=
      funext fun a => Fin.ext (by match a with | ⟨0, _⟩ => rfl | ⟨1, _⟩ => rfl)
    rw [val_main_v24_apply, e']; exact h19 b e
  have e26 : ∀ e : Fin 100000,
      (val_main_v26 (F := Ideal) CL (ix2 e (0 : Fin 1))).toInt = (c.val : ℤ) ↔ I.cl e = c := fun e => by
    have e' : idx_main_v26 (ix2 e (0 : Fin 1)) = ix1 e := funext fun a => Fin.ext (by match a with | ⟨0, _⟩ => rfl)
    have hlt := (I.cl e).isLt
    rw [val_main_v26_apply, e', hcl, toInt_ofNat_lt _ (by omega)]
    exact ⟨fun h => Fin.ext (by omega), fun h => by rw [h]⟩
  unfold val_main_v27
  refine (Cert.LibSegmentSum.rowScatterAdd_apply Facts₀.scatter_S10x1024_S100000x1_S100000x1024_1_0_0_1_wf
    (val_main_v25 (F := Ideal)) (val_main_v26 (F := Ideal) CL) (val_main_v24 (F := Ideal) X CL A1 A2) c b).trans ?_
  rw [e25, zero_add]
  unfold Cert.Spec.refMass
  rw [← coe_sum]
  refine Finset.sum_congr rfl fun e _ => ?_
  rw [e24 e]
  by_cases h : I.cl e = c
  · rw [if_pos ((e26 e).mpr h), if_pos h]
  · rw [if_neg (fun h' => h ((e26 e).mp h')), if_neg h]; rfl
/-! ## The assembly -/

/-- The reference's result at user b, cluster cc, when the arguments hold the specification's reals. -/
theorem ref_result (I : Cert.Spec.Inputs)
    (X : (⟨S1024x10, .f32⟩ : BufTy).Contents (Elt Ideal)) (CL : (⟨S100000, .i32⟩ : BufTy).Contents (Elt Ideal))
    (A1 : (⟨S100000x64, .f32⟩ : BufTy).Contents (Elt Ideal)) (A2 : (⟨S64x100000, .f32⟩ : BufTy).Contents (Elt Ideal))
    (H : Cert.Spec.Holds I X CL A1 A2) (b : Fin 1024) (cc : Fin 10) :
    val_main_v33 (F := Ideal) X CL A1 A2 (ix2 b cc) = ((Cert.Spec.refRes I b cc : ℝ) : EReal) := by
  have h6 := v6_eq I X CL H.hx H.hcl
  have h8 := v8_eq I X CL A1 A2 H h6
  have h11 := v11_eq I X CL A1 A2 h8
  have h19 := v19_eq I X CL A1 A2 h8 h11
  have h27 := v27_eq I X CL A1 A2 H.hcl h19
  have h23 := v23_eq I CL H.hcl
  exact v33_eq I X CL A1 A2 h27 h23 b cc

end Cert.ReferenceIdeal.RefValue

end
-- ==== Proof.KI.PreFacts.lean ====
/-
  The precondition, decoded: every entry of the three float inputs is a real number, and every cluster id is a number
  below 10.
-/
import proofs.«428240_j80616536146381_2_alg».proof.Pre_finite_inputs
import proofs.«428240_j80616536146381_2_alg».proof.Proof.Gen.Pre_finite_inputs
import proofs.«428240_j80616536146381_2_alg».proof.Proof.KI.Spec
import Idealize.ShloMosaic.Lib.ValueIdx
import Idealize.ShloMosaic.Lib.ReduceAll
import Idealize.ShloMosaic.Lib.StableHlo.Predicate

noncomputable section

namespace Cert.Pre_finite_inputs.Decode

open Cert.Pre_finite_inputs Idealize.ShloMosaic Idealize.ShloMosaic.ValueIdx

variable [Cert.Pre_finite_inputs.Facts]

/-- The scalar shape has one index. -/
instance subsingleton_scalar_idx : Subsingleton S_.Idx := ⟨fun a b => funext fun d => d.elim0⟩

/-- The word 0x7F800000 denotes plus infinity. -/
theorem inf_bits : Ideal.ofBits .f32 0x7F800000#32 = (⊤ : EReal) := by
  simp [Ideal.ofBits, Ideal.ieee]

/-- An extended real whose absolute value is below plus infinity is a real. -/
theorem real_of_abs_lt_top (x : EReal) (h : Ideal.cmp .olt (max x (-x)) (⊤ : EReal) = 1#1) : ∃ r : ℝ, x = (r : EReal) := by
  induction x using EReal.rec with
  | bot => exact absurd h (by simp [Ideal.cmp])
  | coe r => exact ⟨r, rfl⟩
  | top => exact absurd h (by simp [Ideal.cmp])

/-- A 32-bit word that is at least 0 and below 10, read signed, is below 10 read unsigned. -/
theorem word_lt_ten (w : BitVec 32) (h0 : IntOp.cmpi .sge w 0#32 = 1#1) (h10 : IntOp.cmpi .slt w 10#32 = 1#1) : w.toNat < 10 := by
  rw [IntOp.cmpi_sge] at h0
  rw [IntOp.cmpi_slt] at h10
  have z : (0#32 : BitVec 32).toInt = 0 := by decide
  have t : (10#32 : BitVec 32).toInt = 10 := by decide
  rw [z] at h0
  rw [t] at h10
  have c := BitVec.toInt_eq_toNat_cond w
  have hl := w.isLt
  split at c <;> omega

/-- Where the comparison of the absolute values with plus infinity is 1 at an index, the entry there is a real. -/
theorem real_entry {s : Shape} (A : FVec Ideal s .f32) (hb : S_.BroadcastsInDim s (![] : Fin 0 → Fin s.rank)) (i : s.Idx)
    (h : cmpf .olt (Host.absf A) (broadcastInDim s ![] hb (constant S_ .f32 0x7F800000#32)) i = 1#1) :
    ∃ r : ℝ, A i = (r : EReal) := by
  refine real_of_abs_lt_top (A i) ?_
  rw [← inf_bits]
  exact h

/-- Where both comparisons (at least 0, below 10) are 1 at an index, the word there is below 10. -/
theorem id_entry {s : Shape} (C : IVec s 32) (hb : S_.BroadcastsInDim s (![] : Fin 0 → Fin s.rank)) (i : s.Idx)
    (h : andi (cmpi .sge C (broadcastInDim s ![] hb (constantI S_ 32 0#32)))
      (cmpi .slt C (broadcastInDim s ![] hb (constantI S_ 32 10#32))) i = 1#1) : (C i).toNat < 10 := by
  obtain ⟨h0, h10⟩ := IntOp.andi_eq_one.1 h
  exact word_lt_ten (C i) h0 h10

/-- Where the printed predicate is all ones, the four arrays hold some real inputs of the specification. -/
theorem holds_of_fn (X : FVec Ideal S1024x10 .f32) (CL : IVec S100000 32) (A1 : FVec Ideal S100000x64 .f32) (A2 : FVec Ideal S64x100000 .f32)
    (h : Cert.Pre_finite_inputs.fn (F := Ideal) X CL A1 A2 = fun _ => 1#1) :
    ∃ I : Cert.Spec.Inputs, Cert.Spec.Holds I X CL A1 A2 := by
  have e := congrFun h ValueIdx.ix0
  dsimp only [Cert.Pre_finite_inputs.fn, Cert.Pre_finite_inputs.fn_part1] at e
  obtain ⟨e8, e19⟩ := IntOp.andi_eq_one.1 e
  obtain ⟨e8', e12⟩ := IntOp.andi_eq_one.1 e8
  obtain ⟨e3, e7⟩ := IntOp.andi_eq_one.1 e8'
  have hX := fun i => real_entry X _ i (Host.reduce_andi_all _ _ _ _ ix0 e3 i)
  have h1 := fun i => real_entry A1 _ i (Host.reduce_andi_all _ _ _ _ ix0 e7 i)
  have h2 := fun i => real_entry A2 _ i (Host.reduce_andi_all _ _ _ _ ix0 e12 i)
  have hC := fun i => id_entry CL _ i (Host.reduce_andi_all _ _ _ _ ix0 e19 i)
  choose fx hfx using fun (b : Fin 1024) (k : Fin 10) => hX (ix2 b k)
  choose f1 hf1 using fun (j : Fin 100000) (d : Fin 64) => h1 (ix2 j d)
  choose f2 hf2 using fun (d : Fin 64) (j : Fin 100000) => h2 (ix2 d j)
  refine ⟨⟨fx, fun j => ⟨(CL (ix1 j)).toNat, hC (ix1 j)⟩, f1, f2⟩, ⟨hfx, fun j => ?_, hf1, hf2⟩⟩
  apply BitVec.eq_of_toNat_eq
  rw [BitVec.toNat_ofNat]
  have hj := hC (ix1 j)
  show (CL (ix1 j)).toNat = (CL (ix1 j)).toNat % 2 ^ 32
  omega

end Cert.Pre_finite_inputs.Decode

end
-- ==== Proof.lean ====
/-
  The kernel computes, per user and cluster, the softmax mass of the cluster's items divided by the cluster's size, and so
  does the reference.

  The kernel first sums W1's rows by cluster (a one-hot matrix product accumulated over 25 tiles), multiplies the scores
  by these sums (which is the reference's product of every item's score with W1, regrouped by cluster), and then runs an
  online softmax over 50 tiles of the padded logits for each half of the batch: a running maximum, a running denominator
  and running per-cluster numerators, each rescaled when the maximum grows.  A softmax mass is a quotient of sums of
  exponentials, so the running shift cancels, the zero-padded tail is masked out of both sums, and the quotient is the
  reference's sum over a cluster of softmax probabilities (shifted there by the row maximum).  Both programs divide by the
  same cluster sizes clamped below by 1.  The cluster ids are assumed to lie in 0..9, where the reference's gather and
  its segment sums index in range; every float input is finite, so every quantity is a real number.

  The frames of the kernel's two programs are one proof for any float family: each region's body obligation against proof
  data that name every buffer's contents point by point, and the launch over the program's eleven items.
-/
import proofs.«428240_j80616536146381_2_alg».proof.Defs
import proofs.«428240_j80616536146381_2_alg».proof.Proof.Gen.Kernel
import proofs.«428240_j80616536146381_2_alg».proof.Proof.Gen.KernelIdeal
import proofs.«428240_j80616536146381_2_alg».proof.Proof.Gen.ReferenceIdeal
import proofs.«428240_j80616536146381_2_alg».proof.Proof.Gen.Pre_finite_inputs
import proofs.«428240_j80616536146381_2_alg».proof.Proof.Gen.ReferenceIdeal.Run
import proofs.«428240_j80616536146381_2_alg».proof.Proof.Gen.ReferenceIdeal.Read
import proofs.«428240_j80616536146381_2_alg».proof.Proof.KB.Run
import proofs.«428240_j80616536146381_2_alg».proof.Proof.KI.Run
import proofs.«428240_j80616536146381_2_alg».proof.Proof.KI.KernelValue
import proofs.«428240_j80616536146381_2_alg».proof.Proof.KI.Ref
import proofs.«428240_j80616536146381_2_alg».proof.Proof.KI.PreFacts
import proofs.«428240_j80616536146381_2_alg».proof.Proof.KI.SpecMath
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and leaves its arguments. -/
theorem frame_p : Cert.frame_Kernel := fun m ρ _ => Cert.Kernel.Hand.frame (F := Bits) m ρ

/-- The idealized program runs and leaves its arguments. -/
theorem frame_pi : Cert.frame_KernelIdeal := fun m ρ _ => Cert.KernelIdeal.Hand.frame (F := Ideal) m ρ

/-- The reference runs and leaves its arguments. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's result in their result arrays. -/
theorem algebraic : Cert.algebraic_KernelIdeal_ReferenceIdeal := by
  intro m ρ m' ρ' hpre hagree
  have hI : ∀ c : Dev Cert.KernelIdeal.nD, ∃ I : Cert.Spec.Inputs, Cert.KernelIdeal.Hand.HoldsAt m I c := fun c =>
    Cert.Pre_finite_inputs.Decode.holds_of_fn _ _ _ _ (hpre c)
  choose I hI using hI
  refine ⟨fun c => Cert.KernelIdeal.Hand.W11 m c (Proc.devRef .tc Cert.KernelIdeal.main_v26), ?_, ?_⟩
  · exact (θ_run Cert.KernelIdeal.defs _ _).mono (fun r h c =>
      ⟨h c _ (Cert.KernelIdeal.Hand.mem_uc Cert.KernelIdeal.main_v26 (by decide)),
       (h c _ (Cert.KernelIdeal.Hand.mem_uc Cert.KernelIdeal.main_arg0 (by decide))).trans (Cert.KernelIdeal.Hand.W11_main_arg0 m c),
       (h c _ (Cert.KernelIdeal.Hand.mem_uc Cert.KernelIdeal.main_arg1 (by decide))).trans (Cert.KernelIdeal.Hand.W11_main_arg1 m c),
       (h c _ (Cert.KernelIdeal.Hand.mem_uc Cert.KernelIdeal.main_arg2 (by decide))).trans (Cert.KernelIdeal.Hand.W11_main_arg2 m c),
       (h c _ (Cert.KernelIdeal.Hand.mem_uc Cert.KernelIdeal.main_arg3 (by decide))).trans (Cert.KernelIdeal.Hand.W11_main_arg3 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, (hagree c).1, (hagree c).2.1, (hagree c).2.2.1, (hagree c).2.2.2]
    funext i
    obtain ⟨b, cc, rfl⟩ : ∃ (b : Fin 1024) (cc : Fin 10), i = ix2 b cc := ⟨i 0, i 1, eq_ix2 i⟩
    exact (Cert.ReferenceIdeal.RefValue.ref_result (I c) _ _ _ _ (hI c) b cc).trans
      ((congrArg _ (Cert.Spec.refRes_eq_res (I c) b cc)).trans
        (Cert.KernelIdeal.Hand.kernel_result m (I c) c (hI c) b cc).symm)

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
